-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S512 : Shape := ⟨1, ![512]⟩
abbrev S100000x1 : Shape := ⟨2, ![100000, 1]⟩
abbrev S1x512 : Shape := ⟨2, ![1, 512]⟩
abbrev S1x1 : Shape := ⟨2, ![1, 1]⟩
abbrev S512x1 : Shape := ⟨2, ![512, 1]⟩
abbrev S2000x64 : Shape := ⟨2, ![2000, 64]⟩
abbrev S2000x1 : Shape := ⟨2, ![2000, 1]⟩
abbrev S512x64 : Shape := ⟨2, ![512, 64]⟩
abbrev S2000x512 : Shape := ⟨2, ![2000, 512]⟩

abbrev nBuf : Space → Nat
  | .hbm => 97
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .bf16⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .bf16⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .bf16⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S512, .f32⟩
  | .hbm, ⟨90, _⟩ => ⟨S100000x1, .i32⟩
  | .hbm, ⟨91, _⟩ => ⟨S512, .f32⟩
  | .hbm, ⟨92, _⟩ => ⟨S1x512, .f32⟩
  | .hbm, ⟨93, _⟩ => ⟨S100000x1, .i32⟩
  | .hbm, ⟨94, _⟩ => ⟨S1x64, .f32⟩
  | .hbm, ⟨95, _⟩ => ⟨S1x1, .f32⟩
  | .hbm, ⟨96, _⟩ => ⟨S512x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x1, .i32⟩
  | .local _ .vmem, ⟨15, _⟩ => ⟨S2000x1, .i32⟩
  | .local _ .vmem, ⟨16, _⟩ => ⟨S1x512, .f32⟩
  | .local _ .vmem, ⟨17, _⟩ => ⟨S64x1, .f32⟩
  | .local _ .vmem, ⟨18, _⟩ => ⟨S1x1, .f32⟩
  | .local _ .vmem, ⟨19, _⟩ => ⟨S512x1, .f32⟩
  | .local _ .vmem, ⟨20, _⟩ => ⟨S512x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_11 : BitVec 32 := 0#32
  let v29 : BitVec 1 := Scalar.cmpi .ne v28 c0_i32_11
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S512 : S_.BroadcastsInDim S512 (![] : Fin 0 → Fin S512.rank)
  bcast_S100000_S100000x1_0 : S100000.BroadcastsInDim S100000x1 (![0] : Fin 1 → Fin S100000x1.rank)
  shapeCasts_S512_S1x512 : S512.ShapeCasts S1x512
  shapeCasts_S100000_S100000x1 : S100000.ShapeCasts S100000x1
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1x512_p1_0_S512x1 : S1x512.Transposes [1, 0] S512x1
  broadcasts_S512x1_S512x64 : S512x1.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  scatter_S512_S100000x1_S100000_n_0_0_1_wf : ScatterDims.WF S512 S100000x1 S100000 [] [0] [0] 1
  dot_S2000x512_S2000x64_S512x64_0_0_1_1_n_n_wf : DotDims.WF S2000x512 S2000x64 S512x64 [0] [0] [1] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .i32 = 32 ∨ (Rect.block (s := S100000x1) S2000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S512x1.size a
  hwx2_6 : ∀ i : grid2.Coords, EltTy.bits .f32 = 32 ∨ (Rect.block (s := S512x1) S512x1.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S512x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S512x64, .f32⟩
  | .hbm, ⟨97, _⟩ => ⟨S100000x1, .i32⟩
  | .hbm, ⟨98, _⟩ => ⟨S512x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S512, .f32⟩
  | .hbm, ⟨103, _⟩ => ⟨S100000x1, .i32⟩
  | .hbm, ⟨104, _⟩ => ⟨S512, .f32⟩
  | .hbm, ⟨105, _⟩ => ⟨S_, .f32⟩
  | .hbm, ⟨106, _⟩ => ⟨S512, .f32⟩
  | .hbm, ⟨107, _⟩ => ⟨S512, .f32⟩
  | .hbm, ⟨108, _⟩ => ⟨S512x1, .f32⟩
  | .hbm, ⟨109, _⟩ => ⟨S512x64, .f32⟩
  | .hbm, ⟨110, _⟩ => ⟨S512x64, .f32⟩
  | .hbm, ⟨111, _⟩ => ⟨S512x1, .f32⟩
  | .hbm, ⟨112, _⟩ => ⟨S1x1, .f32⟩
  | .hbm, ⟨113, _⟩ => ⟨S512x1, .f32⟩
  | .hbm, ⟨114, _⟩ => ⟨S512x1, .f32⟩
  | .hbm, ⟨115, _⟩ => ⟨S512x1, .f32⟩
  | .hbm, ⟨116, _⟩ => ⟨S512x1, .f32⟩
  | .hbm, ⟨117, _⟩ => ⟨S_, .f32⟩
  | .hbm, ⟨118, _⟩ => ⟨S512x1, .f32⟩
  | .hbm, ⟨119, _⟩ => ⟨S512x1, .f32⟩
  | .hbm, ⟨120, _⟩ => ⟨S_, .f32⟩
  | .hbm, ⟨121, _⟩ => ⟨S512x1, .f32⟩
  | .hbm, ⟨122, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x1_S512x1_1_0_0_1_n_n_wf : DotDims.WF S512x64 S64x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.K.R0.lean ====
/- Region 0 of the program: the row-blocked product x · W1. At a parameter `V` (what the core's buffers hold when the
   region is entered): each window's block at a grid point, what the body leaves in the output window's staging
   buffer (the block of x times all of W1, rounded to the output's format), the pipeline's proof data and the body's
   obligation at every point. -/
import proofs.«428187_j7043746365666_2_alg».proof.Proof.Gen.Kernel.Launch
import proofs.«428187_j7043746365666_2_alg».proof.Proof.Gen.Kernel.Skeleton
import proofs.«428187_j7043746365666_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S10000x128 := Rect.unit (s := S10000x128) ![0, 0] S10000x128.size inb_S10000x128_S10000x128_0_0
abbrev rW0 : Rect S128x64 := Rect.unit (s := S128x64) ![0, 0] S128x64.size inb_S128x64_S128x64_0_0
abbrev rO0 : Rect S10000x64 := Rect.unit (s := S10000x64) ![0, 0] S10000x64.size inb_S10000x64_S10000x64_0_0

/-- The output window's staging buffer after the body: one store of the whole block, the product of the loaded block of
    `x` with the loaded `W1`. -/
def out0_2 (x0 : Vec F S10000x128 .f32) (x1 : Vec F S128x64 .f32) : Vec F S10000x64 .bf16 :=
  View.canon [⟨rO0, k0_pay1 (View.ld x0 rX0) (View.ld x1 rW0)⟩]

/-- The proof data of pipeline 0 on core `c`: the arrays as the region finds them; after the body each input's buffer at
    its block and the output's at `out0_2` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in the input windows -/

/-- The block of `x` in window 0's current buffer: the window is an input whose body leaves its block where it is, is
    live everywhere and uncut, so at every point it holds what a fetch would put there, which is the block read off
    the array. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The whole of `W1` in window 1's current buffer. Its block index never moves, so the pipeline fetches it at the
    first point only; at the later points the buffer still holds the block of the point before, which is the same
    block. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The one store covers the output block -/

/-- The store's rectangle is the whole `10000 × 64` block: every index of the block lies in it. -/
theorem cover0_2 (p : Vec F S10000x64 .bf16) (y : S10000x64.Idx) :
    ∃ pc ∈ ([⟨rO0, p⟩] : List (View.Piece (Elt F) S10000x64 .bf16)), y ∈ pc.1.set :=
  View.cover_of_tiled [⟨rO0, p⟩] S10000x64.size (by rfl) y

/-! ## The kernel's triple -/

set_option maxHeartbeats 1000000 in
/-- The kernel on whole staging memrefs. The two inputs' memrefs read `x0` and `x1`; the output's holds anything (the
    kernel loads it once and drops the value). It loads both inputs whole, and stores the rounded product over the
    whole output; the inputs are left as they were and the output reads `out0_2 x0 x1`. -/
theorem sound_kernel0 (c : Dev nD) (E : Set ℕ) (i : grid0.Coords)
    (aX : Memref sig .tc .vmem S10000x128 .f32) (hX : aX.IsWhole) (aW : Memref sig .tc .vmem S128x64 .f32) (hW : aW.IsWhole)
    (aO : Memref sig .tc .vmem S10000x64 .bf16) (hO : aO.IsWhole)
    (x0 : Vec F S10000x128 .f32) (x1 : Vec F S128x64 .f32) (K : PUnit → sProp 𝕄) :
    iprop(owns (c : Thread nD τ) aX fullShare x0 ∗ owns (c : Thread nD τ) aW fullShare x1
        ∗ (∃ d, owns (c : Thread nD τ) aO fullShare d)
        ∗ (iprop(owns (c : Thread nD τ) aX fullShare x0 ∗ owns (c : Thread nD τ) aW fullShare x1
            ∗ owns (c : Thread nD τ) aO fullShare (out0_2 x0 x1)) -∗ K ⟨⟩))
      ⊢ wp frame (wpE (defs₀ (F := F)) Variants.none c none) E (cc0__matmul_kernel i aX hX aW hW aO hO) K := by
  simp only [cc0__matmul_kernel_eq_skeleton]; unfold cc0__matmul_kernel_skel
  unfold owns
  iintro ⟨⟨%fX, %hfX, HX⟩, ⟨%fW, %hfW, HW⟩, ⟨%dO, %fO, -, HO⟩, Hk⟩
  subst hfX; subst hfW
  sl_exec
  sl_step
  iapply Hk
  isplitl [HX]
  · iexists fX; isplitr; · ipureintro; rfl
    iexact HX
  isplitl [HW]
  · iexists fW; isplitr; · ipureintro; rfl
    iexact HW
  iexists _; isplitr
  swap; · iexact HO
  ipureintro
  exact View.read_writes_eq_canon _ _ _ (cover0_2 _)

/-! ## The body at a grid point -/

/-- What the pipeline hands the body at point `t`: the invariant, what the core owes, and the three windows' current
    staging memrefs at what they hold then. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same, each memref at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`. The inputs' memrefs hold their blocks, so the kernel's triple applies; the invariant and
    what the core owes do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, HX⟩, ⟨%d1, HW⟩, ⟨%d2, HO⟩⟩
  iapply (sound_kernel0 c Set.univ _ _ _ _ _ _ _ (iblk0 V c 0 t) (iblk0 V c 1 t) _)
  isplitl [HX]; · iexact HX
  isplitl [HW]; · iexact HW
  isplitl [HO]; · iexists _; iexact HO
  iintro ⟨HX, HW, HO⟩
  isplitl [HΦ]; · iexact HΦ
  isplitl [Ho]; · iexact Ho
  isplitl [HX]; · iexact HX
  isplitl [HW]; · iexact HW
  iexact HO

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of the program: relu(agg + b) · W2, row-blocked. At a parameter `V` (what the core's buffers hold when the
   region is entered): each window's block at a grid point, what the body leaves in the output window's staging
   buffer, the pipeline's proof data and the body's obligation at every point. -/
import proofs.«428187_j7043746365666_2_alg».proof.Proof.Gen.Kernel.Launch
import proofs.«428187_j7043746365666_2_alg».proof.Proof.Gen.Kernel.Skeleton
import proofs.«428187_j7043746365666_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S10000x64 := Rect.unit (s := S10000x64) ![0, 0] S10000x64.size inb_S10000x64_S10000x64_0_0
abbrev rB1 : Rect S1x64 := Rect.unit (s := S1x64) ![0, 0] S1x64.size inb_S1x64_S1x64_0_0
abbrev rC1 : Rect S64x64 := Rect.unit (s := S64x64) ![0, 0] S64x64.size inb_S64x64_S64x64_0_0

/-- The output window's staging buffer after the body: one store of the whole block. -/
def out1_3 (x0 : Vec F S10000x64 .f32) (x1 : Vec F S1x64 .f32) (x2 : Vec F S64x64 .f32) : Vec F S10000x64 .bf16 :=
  View.canon [⟨rA1, k1_pay1 (View.ld x0 rA1) (View.ld x1 rB1) (View.ld x2 rC1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! ## What the body finds in the input windows -/

/-- The block of the aggregate in window 0's current buffer: the window is an input whose body leaves its block where
    it is, is live everywhere and uncut, so at every point it holds what a fetch would put there, which is the block
    read off the array. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The bias row in window 1's current buffer. Its block index never moves, so the pipeline fetches it at the first
    point only; at the later points the buffer still holds the block of the point before, which is the same block. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The whole of `W2` in window 2's current buffer: fetched at the first point only, like the bias. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s; rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-! ## The one store covers the output block -/

/-- The store's rectangle is the whole `10000 × 64` block: every index of the block lies in it. -/
theorem cover1_3 (p : Vec F S10000x64 .bf16) (y : S10000x64.Idx) :
    ∃ pc ∈ ([⟨rA1, p⟩] : List (View.Piece (Elt F) S10000x64 .bf16)), y ∈ pc.1.set :=
  View.cover_of_tiled [⟨rA1, p⟩] S10000x64.size (by rfl) y

/-! ## The kernel's triple -/

set_option maxHeartbeats 1000000 in
/-- The kernel on whole staging memrefs. The three inputs' memrefs read `x0`, `x1`, `x2`; the output's holds anything
    (the kernel loads it once and drops the value). It loads the three inputs whole and stores
    `relu (x0 + x1) · x2`, rounded, over the whole output; the inputs are left as they were and the output reads
    `out1_3 x0 x1 x2`. -/
theorem sound_kernel1 (c : Dev nD) (E : Set ℕ) (i : grid1.Coords)
    (aA : Memref sig .tc .vmem S10000x64 .f32) (hA : aA.IsWhole) (aB : Memref sig .tc .vmem S1x64 .f32) (hB : aB.IsWhole)
    (aC : Memref sig .tc .vmem S64x64 .f32) (hC : aC.IsWhole) (aO : Memref sig .tc .vmem S10000x64 .bf16) (hO : aO.IsWhole)
    (x0 : Vec F S10000x64 .f32) (x1 : Vec F S1x64 .f32) (x2 : Vec F S64x64 .f32) (K : PUnit → sProp 𝕄) :
    iprop(owns (c : Thread nD τ) aA fullShare x0 ∗ owns (c : Thread nD τ) aB fullShare x1
        ∗ owns (c : Thread nD τ) aC fullShare x2 ∗ (∃ d, owns (c : Thread nD τ) aO fullShare d)
        ∗ (iprop(owns (c : Thread nD τ) aA fullShare x0 ∗ owns (c : Thread nD τ) aB fullShare x1
            ∗ owns (c : Thread nD τ) aC fullShare x2 ∗ owns (c : Thread nD τ) aO fullShare (out1_3 x0 x1 x2)) -∗ K ⟨⟩))
      ⊢ wp frame (wpE (defs₀ (F := F)) Variants.none c none) E (cc1__bias_relu_matmul_kernel i aA hA aB hB aC hC aO hO) K := by
  simp only [cc1__bias_relu_matmul_kernel_eq_skeleton]; unfold cc1__bias_relu_matmul_kernel_skel
  unfold owns
  iintro ⟨⟨%fA, %hfA, HA⟩, ⟨%fB, %hfB, HB⟩, ⟨%fC, %hfC, HC⟩, ⟨%dO, %fO, -, HO⟩, Hk⟩
  subst hfA; subst hfB; subst hfC
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  iexists _; isplitr
  swap; · iexact HO
  ipureintro
  exact View.read_writes_eq_canon _ _ _ (cover1_3 _)

/-! ## The body at a grid point -/

/-- What the pipeline hands the body at point `t`: the invariant, what the core owes, and the four windows' current
    staging memrefs at what they hold then. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same, each memref at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at point `t`. The inputs' memrefs hold their blocks, so the kernel's triple applies; the invariant and
    what the core owes do not depend on the point and pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, HA⟩, ⟨%d1, HB⟩, ⟨%d2, HC⟩, ⟨%d3, HO⟩⟩
  iapply (sound_kernel1 c Set.univ _ _ _ _ _ _ _ _ _ (iblk1 V c 0 t) (iblk1 V c 1 t) (iblk1 V c 2 t) _)
  isplitl [HA]; · iexact HA
  isplitl [HB]; · iexact HB
  isplitl [HC]; · iexact HC
  isplitl [HO]; · iexists _; iexact HO
  iintro ⟨HA, HB, HC, HO⟩
  isplitl [HΦ]; · iexact HΦ
  isplitl [Ho]; · iexact Ho
  isplitl [HA]; · iexact HA
  isplitl [HB]; · iexact HB
  isplitl [HC]; · iexact HC
  iexact HO

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of the program: the pooling kernel. A 512 x 64 accumulator lives in a scratch buffer the kernel carries from
   grid point to grid point: zeroed at the first point, at every point increased by (one-hot of the point's 2000 graph ids)ᵀ
   times relu(rows + bias), and at the last point divided by the clamped counts, multiplied by Wl, shifted by bl and passed
   through the logistic function into the one output block. -/
import proofs.«428187_j7043746365666_2_alg».proof.Proof.Gen.Kernel.Launch
import proofs.«428187_j7043746365666_2_alg».proof.Proof.Gen.Kernel.Skeleton
import proofs.«428187_j7043746365666_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator (the carried scratch) after the body at point `n`. -/
def acc2 (c : Dev nD) : (n : ℕ) → n < cfg2.N → Vec F S512x64 .f32
  | 0, hn => k2_pay2 (iblk2 V c 0 ⟨0, hn⟩) (iblk2 V c 1 ⟨0, hn⟩) (iblk2 V c 2 ⟨0, hn⟩) (k2_pay1 (F := F))
  | n + 1, hn => k2_pay2 (iblk2 V c 0 ⟨n + 1, hn⟩) (iblk2 V c 1 ⟨n + 1, hn⟩) (iblk2 V c 2 ⟨n + 1, hn⟩) (acc2 c n (Nat.lt_of_succ_lt hn))

/-- What the last point leaves in the output window's staging buffer. -/
def out2_6 (c : Dev nD) (t : Fin cfg2.N) : Vec F S512x1 .f32 :=
  k2_pay3 (iblk2 V c 3 t) (acc2 V c t.val t.isLt) (iblk2 V c 4 t) (iblk2 V c 5 t)

/-! ## Whole-buffer loads and stores -/

theorem r2_zeros : (![0, 0] : Fin 2 → ℕ) = fun _ => 0 := funext fun a => by fin_cases a <;> rfl

/-- A load of all of a whole buffer reads what the buffer holds. -/
theorem r2_readAt_unread {S : Shape} {e : EltTy} (m : Memref sig .tc .vmem S e) (h : m.IsWhole) {off : Fin S.rank → ℕ}
    (hz : off = fun _ => 0) (inb : ∀ a, off a + S.size a ≤ S.size a) (X : S.Idx → Elt F e) :
    View.readAt (Elt F) m.view (Rect.unit off S.size inb).toLoadRect (h.unread X) = X := by
  rw [show View.readAt (Elt F) m.view (Rect.unit off S.size inb).toLoadRect (h.unread X)
      = View.ld (m.view.read (Elt F) (h.unread X)) (Rect.unit off S.size inb) from rfl, h.read_unread, View.ld_unit_zero hz inb]

/-- After a store of a whole buffer, whatever came before, the buffer reads the stored value. -/
theorem r2_read_store {S : Shape} {e : EltTy} (m : Memref sig .tc .vmem S e) {off : Fin S.rank → ℕ}
    (hz : off = fun _ => 0) (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb]

/-! ## The body, case by case -/

/-- The first scalar condition of the body: the point is the grid's first. -/
abbrev cond2_0 (i : grid2.Coords) : Prop := (Scalar.cmpi .ne (Scalar.extui (Scalar.cmpi .eq (BitVec.ofNat 32 (i 0).val) 0#32)) 0#32) = 1#1

set_option maxHeartbeats 1000000 in
/-- At a point neither first nor last the body adds the point's contribution to the accumulator and touches nothing else. -/
theorem run2_mid (c : Dev nD) (i : grid2.Coords)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S1x512 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S512x1 .f32) (harg7 : arg7.IsWhole) (arg8 : Memref sig .tc .vmem S512x64 .f32) (harg8 : arg8.IsWhole)
    (hc0 : ¬cond2_0 i) (hc1 : ¬k2_cond2 i = 1#1)
    (x0 : Vec F S2000x64 .f32) (x1 : Vec F S1x64 .f32) (x2 : Vec F S2000x1 .i32) (xs : Vec F S512x64 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg8 fullShare (k2_pay2 x0 x1 x2 xs)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [r2_read_store arg8 r2_zeros, r2_readAt_unread arg1 harg1 r2_zeros, r2_readAt_unread arg2 harg2 r2_zeros,
    r2_readAt_unread arg3 harg3 r2_zeros, r2_readAt_unread arg8 harg8 r2_zeros]

set_option maxHeartbeats 1000000 in
/-- At the first point the body zeroes the accumulator, whatever it held, then adds the point's contribution. -/
theorem run2_first (c : Dev nD) (i : grid2.Coords)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S1x512 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S512x1 .f32) (harg7 : arg7.IsWhole) (arg8 : Memref sig .tc .vmem S512x64 .f32) (harg8 : arg8.IsWhole)
    (hc0 : cond2_0 i) (hc1 : ¬k2_cond2 i = 1#1)
    (x0 : Vec F S2000x64 .f32) (x1 : Vec F S1x64 .f32) (x2 : Vec F S2000x1 .i32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg8 fullShare (k2_pay2 x0 x1 x2 (k2_pay1 (F := F)))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [r2_read_store arg8 r2_zeros, r2_readAt_unread arg1 harg1 r2_zeros, r2_readAt_unread arg2 harg2 r2_zeros,
    r2_readAt_unread arg3 harg3 r2_zeros, View.readCov_unit_zero _ r2_zeros]

set_option maxHeartbeats 1000000 in
/-- At the last point the body adds the point's contribution to the accumulator and then stores the finished block,
    computed from the accumulator, the counts, the weights and the offset, into the output's buffer, whatever it held. -/
theorem run2_last (c : Dev nD) (i : grid2.Coords)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S1x512 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S512x1 .f32) (harg7 : arg7.IsWhole) (arg8 : Memref sig .tc .vmem S512x64 .f32) (harg8 : arg8.IsWhole)
    (hc0 : ¬cond2_0 i) (hc1 : k2_cond2 i = 1#1)
    (x0 : Vec F S2000x64 .f32) (x1 : Vec F S1x64 .f32) (x2 : Vec F S2000x1 .i32) (x3 : Vec F S1x512 .f32) (x4 : Vec F S64x1 .f32)
    (x5 : Vec F S1x1 .f32) (xs : Vec F S512x64 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay3 x3 (k2_pay2 x0 x1 x2 xs) x4 x5)
            ∗ owns (c : Thread nD τ) arg8 fullShare (k2_pay2 x0 x1 x2 xs)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    rw [r2_read_store arg7 r2_zeros, r2_readAt_unread arg4 harg4 r2_zeros, r2_readAt_unread arg5 harg5 r2_zeros,
      r2_readAt_unread arg6 harg6 r2_zeros, View.readCov_unit_zero _ r2_zeros, r2_readAt_unread arg1 harg1 r2_zeros,
      r2_readAt_unread arg2 harg2 r2_zeros, r2_readAt_unread arg3 harg3 r2_zeros, r2_readAt_unread arg8 harg8 r2_zeros]
  iexists _; isplitr
  swap; · iexact HS
  ipureintro
  sl_unfold_run_names
  rw [r2_read_store arg8 r2_zeros, r2_readAt_unread arg1 harg1 r2_zeros, r2_readAt_unread arg2 harg2 r2_zeros,
    r2_readAt_unread arg3 harg3 r2_zeros, r2_readAt_unread arg8 harg8 r2_zeros]

/-! ## The grid's points by the body's two conditions -/

/-- The first condition holds at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, k2_cond2 (grid2.coords t) = 1#1 ↔ t.val = 49 :=
  (by decide +kernel : ∀ t : Fin grid2.N, k2_cond2 (grid2.coords t) = 1#1 ↔ t.val = 49)

/-- Where the second condition fails the output window is idle, -/
theorem idle2_6_of_not (i : grid2.Coords) (h : ¬k2_cond2 i = 1#1) : cfg2.idle 6 i = true := by
  show (!(k2_cond2 i == 1#1)) = true
  rw [Bool.not_eq_true', beq_eq_false_iff_ne]; exact h
/-- where it holds, live. -/
theorem live2_6_of (i : grid2.Coords) (h : k2_cond2 i = 1#1) : cfg2.idle 6 i = false := by
  show (!(k2_cond2 i == 1#1)) = false
  rw [h]; rfl
/-- Before the last point the output's block is not written back. -/
theorem noFlush2_6 (t : Fin cfg2.N) (h : t.val ≠ 49) : (cfg2.win 6).flush t = false := by
  have hN : t.val < 50 := lt_of_lt_of_eq t.isLt (show cfg2.N = 50 from N_2)
  exact Bool.eq_false_iff.mpr fun hf => by have := (flush2_6 t).mp hf; omega

/-! ## The staging memrefs at a point, and the scratch -/

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)
/-- The accumulator: a whole scoped buffer of the kernel's own, passed beside the windows. -/
abbrev scM2 : Memref sig .tc .vmem S512x64 .f32 := Memref.whole cc2_scratch0

/-! ## The accumulator point by point -/

theorem acc2_first (c : Dev nD) (t : Fin cfg2.N) (h0 : t.val = 0) :
    acc2 V c t.val t.isLt = k2_pay2 (iblk2 V c 0 t) (iblk2 V c 1 t) (iblk2 V c 2 t) (k2_pay1 (F := F)) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt = k2_pay2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd rfl h0
  | succ n => rfl

/-! ## The invariant -/

/-- The core's scoped buffers that belong to the other two regions, each at anything. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The class invariant with the accumulator named: the other regions' scoped buffers, the accumulator at anything,
    the generator register. -/
theorem PhiA2_eq (c : Dev nD) :
    (Pipeline.ΦA spec2 c : sProp 𝕄)
      = iprop((others2 c ∗ (∃ d, owns (c : Thread nD τ) scM2 fullShare d)) ∗ (∃ r, prngReg c r)) := by
  unfold Pipeline.ΦA; rw [scopedRest2_eq]; unfold others2; simp only [scM2, owns_whole]
  refine BI.equiv_iff.mp ⟨?_, ?_⟩
  · show (_ : sProp 𝕄) ⊢ (_ : sProp 𝕄)
    iintro ⟨⟨A1, A2, A3, A4, A5, A6, A7, A8, A9, A10, A11, HS⟩, Hg⟩
    isplitr [Hg]
    · isplitr [HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        iexact A11
      iexact HS
    iexact Hg
  · show (_ : sProp 𝕄) ⊢ (_ : sProp 𝕄)
    iintro ⟨⟨⟨A1, A2, A3, A4, A5, A6, A7, A8, A9, A10, A11⟩, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact HS
    iexact Hg

/-- The region's invariant before position `n`: before the first point the class's; afterwards the same with the
    accumulator at what the point before left in it. -/
def Phi2 (c : Dev nD) : (n : ℕ) → n ≤ cfg2.N → sProp 𝕄
  | 0, _ => Pipeline.ΦA spec2 c
  | n + 1, hn => iprop((others2 c ∗ owns (c : Thread nD τ) scM2 fullShare (acc2 V c n hn)) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop((others2 c ∗ owns (c : Thread nD τ) scM2 fullShare (acc2 V c n hn)) ∗ (∃ r, prngReg c r)) := rfl

theorem Phi2_pos (c : Dev nD) (n : ℕ) (h : n ≤ cfg2.N) (hz : n ≠ 0) :
    Phi2 V c n h = iprop((others2 c ∗ owns (c : Thread nD τ) scM2 fullShare (acc2 V c (n - 1) (by omega))) ∗ (∃ r, prngReg c r)) := by
  cases n with
  | zero => exact absurd rfl hz
  | succ n => rfl

/-! ## The proof data -/

/-- The proof data of pipeline 2 on core `c`: the arrays as the region finds them; after the body each input's buffer at
    its block and the output's at the finished block of the point's accumulator (read at the last point only); the
    invariant carrying the accumulator; nothing owed; full shares. -/
def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- At the last point the output window's buffer holds the finished block. -/
theorem after2_6 (c : Dev nD) (t : Fin cfg2.N) (ht : t.val = 49) : (dat2 V c).after 6 t = out2_6 V c t := by dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

/-- The invariant before the first point is the class's, and the one after the last point gives the class's back. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

theorem Phi2_out (c : Dev nD) (t : Fin (cfg2.N + 1)) (ht : t.val ≠ 0) : (dat2 V c).Φ t ⊢ (Pipeline.ΦA spec2 c : sProp 𝕄) := by
  rw [show (dat2 V c).Φ t = Phi2 V c t.val (Nat.le_of_lt_succ t.isLt) from rfl, Phi2_pos V c _ _ ht, PhiA2_eq]
  iintro ⟨⟨Ho, HS⟩, Hg⟩
  isplitr [Hg]
  · isplitl [Ho]; · iexact Ho
    iexists _; iexact HS
  iexact Hg

theorem hout2 (c : Dev nD) : (dat2 V c).Φ (Fin.last cfg2.N) ⊢ (Pipeline.ΦA spec2 c : sProp 𝕄) :=
  Phi2_out V c _ (by rw [Fin.val_last]; have : cfg2.N = 50 := N_2; omega)

/-! ## What the body finds in the inputs' buffers: their blocks, fetched there or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point. The inputs' buffers hold their blocks; the point is the first, the last or neither, which
    decides the body's two conditions; the invariant hands the body the accumulator at what the point before left (at
    anything at the first point) and takes it back at this point's value; the output's buffer comes back untouched
    except at the last point, where it holds the finished block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [show cfg2.idle 0 (cfg2.grid.coords t) = false from rfl], after2_0]
  rw [show (dat2 V c).leavesExact 1 t = owns (c : Thread nD τ) (ms2_1 t) fullShare ((dat2 V c).after 1 t) from by
    unfold Dat.leavesExact; rw [show cfg2.idle 1 (cfg2.grid.coords t) = false from rfl], after2_1]
  rw [show (dat2 V c).leavesExact 2 t = owns (c : Thread nD τ) (ms2_2 t) fullShare ((dat2 V c).after 2 t) from by
    unfold Dat.leavesExact; rw [show cfg2.idle 2 (cfg2.grid.coords t) = false from rfl], after2_2]
  rw [show (dat2 V c).leavesExact 3 t = owns (c : Thread nD τ) (ms2_3 t) fullShare ((dat2 V c).after 3 t) from by
    unfold Dat.leavesExact; rw [show cfg2.idle 3 (cfg2.grid.coords t) = false from rfl], after2_3]
  rw [show (dat2 V c).leavesExact 4 t = owns (c : Thread nD τ) (ms2_4 t) fullShare ((dat2 V c).after 4 t) from by
    unfold Dat.leavesExact; rw [show cfg2.idle 4 (cfg2.grid.coords t) = false from rfl], after2_4]
  rw [show (dat2 V c).leavesExact 5 t = owns (c : Thread nD τ) (ms2_5 t) fullShare ((dat2 V c).after 5 t) from by
    unfold Dat.leavesExact; rw [show cfg2.idle 5 (cfg2.grid.coords t) = false from rfl], after2_5]
  have hN : t.val < 50 := lt_of_lt_of_eq t.isLt (show cfg2.N = 50 from N_2)
  by_cases h0 : t.val = 0
  · have hc0 : cond2_0 (grid2.coords t) := (hcond2_0 t).mpr h0
    have hc1 : ¬k2_cond2 (grid2.coords t) = 1#1 := fun h => by have := (hcond2_1 t).mp h; omega
    rw [Dat.leavesExact_idle (dat2 V c) 6 t (idle2_6_of_not _ hc1) (noFlush2_6 t (by omega))]
    rw [Phi2_castSucc V c t, Phi2_zero V c _ _ h0, PhiA2_eq, acc2_first V c t h0]
    iintro ⟨⟨⟨Ho, ⟨%ds, HS⟩⟩, Hg⟩, Hw, ⟨%d0, H0⟩, ⟨%d1, H1⟩, ⟨%d2, H2⟩, ⟨%d3, H3⟩, ⟨%d4, H4⟩, ⟨%d5, H5⟩, ⟨%d6, H6⟩⟩
    iapply (run2_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) hc0 hc1 (iblk2 V c 0 t) (iblk2 V c 1 t) (iblk2 V c 2 t) Set.univ _)
    isplitl [H0]; · iexact H0
    isplitl [H1]; · iexact H1
    isplitl [H2]; · iexact H2
    isplitl [HS]; · iexists _; iexact HS
    iintro ⟨H0, H1, H2, HS⟩
    isplitl [Ho HS Hg]
    · isplitr [Hg]
      · isplitl [Ho]; · iexact Ho
        iexact HS
      iexact Hg
    isplitl [Hw]; · iexact Hw
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 49
    · have hc0 : ¬cond2_0 (grid2.coords t) := fun h => h0 ((hcond2_0 t).mp h)
      have hc1 : k2_cond2 (grid2.coords t) = 1#1 := (hcond2_1 t).mpr h1
      rw [show (dat2 V c).leavesExact 6 t = owns (c : Thread nD τ) (ms2_6 t) fullShare ((dat2 V c).after 6 t) from by
        unfold Dat.leavesExact; rw [live2_6_of _ hc1], after2_6 V c t h1]
      unfold out2_6
      rw [Phi2_castSucc V c t, Phi2_pos V c _ _ h0, acc2_pos V c t h0]
      iintro ⟨⟨⟨Ho, HS⟩, Hg⟩, Hw, ⟨%d0, H0⟩, ⟨%d1, H1⟩, ⟨%d2, H2⟩, ⟨%d3, H3⟩, ⟨%d4, H4⟩, ⟨%d5, H5⟩, ⟨%d6, H6⟩⟩
      iapply (run2_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) hc0 hc1 (iblk2 V c 0 t) (iblk2 V c 1 t) (iblk2 V c 2 t) (iblk2 V c 3 t) (iblk2 V c 4 t) (iblk2 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Ho HS Hg]
      · isplitr [Hg]
        · isplitl [Ho]; · iexact Ho
          iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexact H6
    · have hc0 : ¬cond2_0 (grid2.coords t) := fun h => h0 ((hcond2_0 t).mp h)
      have hc1 : ¬k2_cond2 (grid2.coords t) = 1#1 := fun h => h1 ((hcond2_1 t).mp h)
      rw [Dat.leavesExact_idle (dat2 V c) 6 t (idle2_6_of_not _ hc1) (noFlush2_6 t h1)]
      rw [Phi2_castSucc V c t, Phi2_pos V c _ _ h0, acc2_pos V c t h0]
      iintro ⟨⟨⟨Ho, HS⟩, Hg⟩, Hw, ⟨%d0, H0⟩, ⟨%d1, H1⟩, ⟨%d2, H2⟩, ⟨%d3, H3⟩, ⟨%d4, H4⟩, ⟨%d5, H5⟩, ⟨%d6, H6⟩⟩
      iapply (run2_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) hc0 hc1 (iblk2 V c 0 t) (iblk2 V c 1 t) (iblk2 V c 2 t) _ Set.univ _)
      isplitl [H0]; · iexact H0
      isplitl [H1]; · iexact H1
      isplitl [H2]; · iexact H2
      isplitl [HS]; · iexact HS
      iintro ⟨H0, H1, H2, HS⟩
      isplitl [Ho HS Hg]
      · isplitr [Hg]
        · isplitl [Ho]; · iexact Ho
          iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/- The whole run of the program: what each of the three kernel regions leaves in its output array, the proof data of
   the three pipelines at the contents each region is entered with, each region as a segment of the program between the
   host stretches, and from these the frame claim (every argument array ends as launched) and the value claim (the result
   buffer ends at what region 2 leaves in it). -/
import proofs.«428187_j7043746365666_2_alg».proof.Proof.Gen.Kernel.Regions
import proofs.«428187_j7043746365666_2_alg».proof.Proof.K.RunCond
import proofs.«428187_j7043746365666_2_alg».proof.Proof.K.R0
import proofs.«428187_j7043746365666_2_alg».proof.Proof.K.R1
import proofs.«428187_j7043746365666_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation of the core's buffers read at the TensorCore's references. -/
abbrev rd (W : Dev nD → Valuation τ sig (Elt F)) : (c : Dev nD) → (b : Ref sig .tc) → Buf (Elt F) ((c : Thread nD τ).loc b) :=
  fun c b => W c b

/-! ## What the regions leave -/

/-- After region 0: its arrays at what the pipeline's write-backs leave (the inputs as entered, the output array the blocks
    the ten points wrote), every other buffer as entered. Read at any reference (only `main_v30` is consulted). -/
def outsA : Gen.Outs (F := F) := fun _ r c =>
  Pipeline.withArrays spec0 c (Gen.V3 m c) (fun w => (dat0 (rd (Gen.V3 m)) c).arrAt w cfg0.N) r

/-- After region 1 as well. -/
def outsB : Gen.Outs (F := F) := fun J r c =>
  if J = 4 then outsA m J r c
  else Pipeline.withArrays spec1 c (Gen.V5 m (outsA m) c) (fun w => (dat1 (rd (Gen.V5 m (outsA m))) c).arrAt w cfg1.N) r

/-- After region 2 as well: the contents the three regions leave, item by item. -/
def outs : Gen.Outs (F := F) := fun J r c =>
  if J = 4 then outsA m J r c
  else if J = 6 then outsB m J r c
  else Pipeline.withArrays spec2 c (Gen.V7 m (outsB m) c) (fun w => (dat2 (rd (Gen.V7 m (outsB m))) c).arrAt w cfg2.N) r

/-- Item 4 of the full contents is region 0's, -/
theorem outs_at4 (r : Ref sig .tc) (c : Dev nD) : outs m 4 r c = outsA m 4 r c := by
  unfold outs; exact if_pos rfl
/-- so is item 4 of the contents after two regions, -/
theorem outsB_at4 (r : Ref sig .tc) (c : Dev nD) : outsB m 4 r c = outsA m 4 r c := by
  unfold outsB; exact if_pos rfl
/-- and item 6 of the full contents is region 1's. -/
theorem outs_at6 (r : Ref sig .tc) (c : Dev nD) : outs m 6 r c = outsB m 6 r c := by
  unfold outs; rw [if_neg (by decide), if_pos rfl]

/-- The contents region 1 is entered with do not depend on what later regions leave, -/
theorem V5_outs (c : Dev nD) : Gen.V5 m (outs m) c = Gen.V5 m (outsA m) c := by
  simp only [Gen.V5, Gen.V4, outs_at4]
/-- nor do those region 2 is entered with. -/
theorem V7_outs (c : Dev nD) : Gen.V7 m (outs m) c = Gen.V7 m (outsB m) c := by
  simp only [Gen.V7, Gen.V6, Gen.V5, Gen.V4, outs_at4, outs_at6, outsB_at4]

/-- The same on every core at once. -/
theorem V5_outs' : Gen.V5 m (outs m) = Gen.V5 m (outsA m) := funext (V5_outs m)
theorem V7_outs' : Gen.V7 m (outs m) = Gen.V7 m (outsB m) := funext (V7_outs m)

/-- What region 0 leaves in its output array: the fold of its ten write-backs. -/
theorem outs_4 (c : Dev nD) : outs m 4 main_v30 c = (dat0 (rd (Gen.V3 m)) c).arrAt 2 cfg0.N := by
  rw [outs_at4]; unfold outsA
  exact Pipeline.withArrays_arr spec0 launch0.win.arr_inj c _ _ 2
/-- What region 1 leaves in its output array, at the contents it is entered with. -/
theorem outs_6A (c : Dev nD) : outs m 6 main_v46 c = (dat1 (rd (Gen.V5 m (outsA m))) c).arrAt 3 cfg1.N := by
  rw [outs_at6]; unfold outsB; rw [if_neg (by decide)]
  exact Pipeline.withArrays_arr spec1 launch1.win.arr_inj c _ _ 3
/-- What region 1 leaves in its output array. -/
theorem outs_6 (c : Dev nD) : outs m 6 main_v46 c = (dat1 (rd (Gen.V5 m (outs m))) c).arrAt 3 cfg1.N := by
  rw [V5_outs']; exact outs_6A m c
/-- What region 2 leaves in the result buffer, at the contents it is entered with. -/
theorem outs_8B (c : Dev nD) : outs m 8 main_v69 c = (dat2 (rd (Gen.V7 m (outsB m))) c).arrAt 6 cfg2.N := by
  unfold outs; rw [if_neg (by decide), if_neg (by decide)]
  exact Pipeline.withArrays_arr spec2 launch2.win.arr_inj c _ _ 6
/-- What region 2 leaves in the result buffer. -/
theorem outs_8 (c : Dev nD) : outs m 8 main_v69 c = (dat2 (rd (Gen.V7 m (outs m))) c).arrAt 6 cfg2.N := by
  rw [V7_outs']; exact outs_8B m c

/-! ## The proof data family -/

/-- Every pipeline's proof data, each at its region's entry contents: a literal match on the pipeline's index. -/
def pdats : (p : Fin 3) → (c : Dev nD) → Dat τ (Elt F) Unit ℕ (UR sig nD τ) ℕ (cfgs p) c
  | ⟨0, _⟩ => fun c => dat0 (rd (Gen.V3 m)) c
  | ⟨1, _⟩ => fun c => dat1 (rd (Gen.V5 m (outsA m))) c
  | ⟨2, _⟩ => fun c => dat2 (rd (Gen.V7 m (outsB m))) c

/-! ## The launch side: no variant, no pair at any level, and what rides beside the buffers -/

abbrev runVar : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state (the class invariant
    takes it in and gives it back) and the core owing nothing. -/
abbrev runR (c : Dev nD) : sProp 𝕄 := iprop((∃ r, prngReg c r) ∗ ∃ W, owes (c : Thread nD τ) (0 : CellTallies nD τ sig Unit) W)

/-! ## Each region's exit contents against its entry contents -/

/-- The buffer a region may change holds, after it, what the region leaves there. -/
theorem V4_main_v30 (o : Gen.Outs (F := F)) (c : Dev nD) : Gen.V4 m o c main_v30 = o 4 main_v30 c := by
  simp only [Gen.V4, Function.update_self]
theorem V6_main_v46 (o : Gen.Outs (F := F)) (c : Dev nD) : Gen.V6 m o c main_v46 = o 6 main_v46 c := by
  simp only [Gen.V6, Function.update_self]
theorem V8_main_v69 (o : Gen.Outs (F := F)) (c : Dev nD) : Gen.V8 m o c main_v69 = o 8 main_v69 c := by
  simp only [Gen.V8, Function.update_self]

/-- Region 0's arrays after its last point are the next item's contents at them: the two inputs are never written back and
    no item in between touches them; the output array is the one buffer the region changes. -/
theorem hF0 (c : Dev nD) : ∀ w : Fin cfg0.W, (dat0 (rd (Gen.V3 m)) c).arrAt w cfg0.N = rd (Gen.V4 m (outs m)) c (Pipeline.arrRef spec0 w)
  | ⟨0, _⟩ => ((Dat.arrAt_in _ _ rfl _).trans (A_eq0 _ c _)).trans (Gen.V4_of m (outs m) c main_arg0 (by decide)).symm
  | ⟨1, _⟩ => ((Dat.arrAt_in _ _ rfl _).trans (A_eq0 _ c _)).trans (Gen.V4_of m (outs m) c main_arg3 (by decide)).symm
  | ⟨2, _⟩ => ((V4_main_v30 m (outs m) c).trans (outs_4 m c)).symm
/-- Every other buffer is as the region found it. -/
theorem hrest0 (c : Dev nD) : ∀ b, b ∉ Finset.univ.image (Pipeline.arrRef spec0) → rd (Gen.V4 m (outs m)) c b = rd (Gen.V3 m) c b :=
  fun b hb => Gen.V4_of m (outs m) c b fun h =>
    hb (Finset.mem_image.mpr ⟨2, Finset.mem_univ _, (List.mem_singleton.mp h).symm⟩)

/-- The same of region 1, whose entry contents are those after region 0 and the host stretch behind it. -/
theorem hF1 (c : Dev nD) : ∀ w : Fin cfg1.W, (dat1 (rd (Gen.V5 m (outsA m))) c).arrAt w cfg1.N = rd (Gen.V6 m (outs m)) c (Pipeline.arrRef spec1 w)
  | ⟨0, _⟩ => ((Dat.arrAt_in _ _ rfl _).trans (A_eq1 _ c _)).trans ((Gen.V6_of m (outs m) c main_v44 (by decide)).trans (congrFun (V5_outs m c) _)).symm
  | ⟨1, _⟩ => ((Dat.arrAt_in _ _ rfl _).trans (A_eq1 _ c _)).trans ((Gen.V6_of m (outs m) c main_v45 (by decide)).trans (congrFun (V5_outs m c) _)).symm
  | ⟨2, _⟩ => ((Dat.arrAt_in _ _ rfl _).trans (A_eq1 _ c _)).trans ((Gen.V6_of m (outs m) c main_arg5 (by decide)).trans (congrFun (V5_outs m c) _)).symm
  | ⟨3, _⟩ => ((V6_main_v46 m (outs m) c).trans (outs_6A m c)).symm
theorem hrest1 (c : Dev nD) : ∀ b, b ∉ Finset.univ.image (Pipeline.arrRef spec1) → rd (Gen.V6 m (outs m)) c b = rd (Gen.V5 m (outsA m)) c b :=
  fun b hb => (Gen.V6_of m (outs m) c b fun h =>
    hb (Finset.mem_image.mpr ⟨3, Finset.mem_univ _, (List.mem_singleton.mp h).symm⟩)).trans (congrFun (V5_outs m c) _)

/-- The same of region 2. -/
theorem hF2 (c : Dev nD) : ∀ w : Fin cfg2.W, (dat2 (rd (Gen.V7 m (outsB m))) c).arrAt w cfg2.N = rd (Gen.V8 m (outs m)) c (Pipeline.arrRef spec2 w)
  | ⟨0, _⟩ => ((Dat.arrAt_in _ _ rfl _).trans (A_eq2 _ c _)).trans ((Gen.V8_of m (outs m) c main_v60 (by decide)).trans (congrFun (V7_outs m c) _)).symm
  | ⟨1, _⟩ => ((Dat.arrAt_in _ _ rfl _).trans (A_eq2 _ c _)).trans ((Gen.V8_of m (outs m) c main_v67 (by decide)).trans (congrFun (V7_outs m c) _)).symm
  | ⟨2, _⟩ => ((Dat.arrAt_in _ _ rfl _).trans (A_eq2 _ c _)).trans ((Gen.V8_of m (outs m) c main_v66 (by decide)).trans (congrFun (V7_outs m c) _)).symm
  | ⟨3, _⟩ => ((Dat.arrAt_in _ _ rfl _).trans (A_eq2 _ c _)).trans ((Gen.V8_of m (outs m) c main_v65 (by decide)).trans (congrFun (V7_outs m c) _)).symm
  | ⟨4, _⟩ => ((Dat.arrAt_in _ _ rfl _).trans (A_eq2 _ c _)).trans ((Gen.V8_of m (outs m) c main_arg7 (by decide)).trans (congrFun (V7_outs m c) _)).symm
  | ⟨5, _⟩ => ((Dat.arrAt_in _ _ rfl _).trans (A_eq2 _ c _)).trans ((Gen.V8_of m (outs m) c main_v68 (by decide)).trans (congrFun (V7_outs m c) _)).symm
  | ⟨6, _⟩ => ((V8_main_v69 m (outs m) c).trans (outs_8B m c)).symm
theorem hrest2 (c : Dev nD) : ∀ b, b ∉ Finset.univ.image (Pipeline.arrRef spec2) → rd (Gen.V8 m (outs m)) c b = rd (Gen.V7 m (outsB m)) c b :=
  fun b hb => (Gen.V8_of m (outs m) c b fun h =>
    hb (Finset.mem_image.mpr ⟨6, Finset.mem_univ _, (List.mem_singleton.mp h).symm⟩)).trans (congrFun (V7_outs m c) _)

/-! ## A region as a segment, once for the three -/

/-- The core owing nothing is what a proof data that owes nothing and has recorded nothing asks of it before point `t`, -/
theorem owesAt_of_nothing {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro
    intro x _
    have hx : x ∈ dat.recorded t := by rw [hr]; exact Set.mem_univ x
    exact Or.inl hx
  iexact HO
/-- and what such a proof data gives back. -/
theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

-- the pinned configuration of pipeline `p` is the printed one only by unfolding definitions inside types
set_option backward.isDefEq.respectTransparency.types false in
/-- REGION `p` over the thread state "every unscoped buffer at given contents, the generator register at some state, nothing
    owed": entered at `Vin`, left at `Vout`. Given of its proof data: the arrays are `Vin`'s, the shares full, nothing owed at
    any point and nothing recorded before the first, the invariant before the first point follows from the class's and the
    one after the last gives the class's back; and of the two contents: the arrays after the last point are `Vout`'s and
    every other buffer is unchanged. At entry the arrays are split out of the unscoped buffers, at exit put back; the
    register passes through the invariant. -/
def regOf (p : Fin 3) (lf : Pipeline.LaunchFacts (nD := nD) (τ := τ) cfgs p) (Vin Vout : Dev nD → Valuation τ sig (Elt F))
    (hbody : ∀ c, BodyObligation (pdats m p c) (defs₀ (F := F)) Variants.none () Set.univ)
    (hA : ∀ c w, (pdats m p c).A w = rd Vin c (Pipeline.arrRef (cfgs p).spec w))
    (hq : ∀ c w, (pdats m p c).q w = fullShare)
    (howed : ∀ c t, (pdats m p c).owed t = 0)
    (hrec : ∀ c, (pdats m p c).recorded 0 = Set.univ)
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄))
    (hF : ∀ c w, (pdats m p c).arrAt w (cfgs p).N = rd Vout c (Pipeline.arrRef (cfgs p).spec w))
    (hrest : ∀ c b, b ∉ Finset.univ.image (Pipeline.arrRef (cfgs p).spec) → rd Vout c b = rd Vin c b) :
    RegionSeg (pcfgs (F := F)) Gen.adm (pdats m) () defs₀ runVar runL runLv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    have hsplit := Pipeline.arrays_of_unscopedBufs (p := p) (pcfgs (F := F)) Gen.adm (pdats m) lf.win lf.arr_whole c
      ((pdats m p c).share_full (hq c)) (rd Vin c) (hA c)
    rw [Pipeline.unscopedBufs_held c (Vin c)] at hsplit
    have hpre : (Pipeline.prefHeld (pcfgs (F := F) p).pre c (fun _ => fullShare) (Gen.adm (F := F) p).1 : sProp 𝕄) = BI.emp := by
      unfold Pipeline.prefHeld; rw [show (Finset.univ : Finset (Fin 0)) = ∅ from rfl, BI.bigSep_empty]
    rw [hpre]
    iintro ⟨⟨Hub, Hp, HO⟩, -, -⟩
    ihave H := hsplit $$ Hub
    icases H with ⟨Ha, Hrest⟩
    imodintro
    isplitl [Ha]; · iexact Ha
    isplitr; · iempintro
    isplitl [HO]; · iapply (owesAt_of_nothing (pdats m p c) 0 (howed c 0) (hrec c)); iexact HO
    isplitl [Hp]; · iexact Hp
    iexact Hrest
  hin c := by
    have h := hΦin c
    unfold Pipeline.ΦA at h
    iintro ⟨Hp, -, Hr⟩
    iapply h
    isplitl [Hr]; · iexact Hr
    iexact Hp
  hout c := by
    rw [Pipeline.ownSems0_none]
    have h := hΦout c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (rd Vin c) (rd Vout c) ((pdats m p c).arrAt · (cfgs p).N) (hF c) (hrest c)
    rw [Pipeline.unscopedBufs_held c (Vout c)] at hjoin
    iintro ⟨Ha, HO, HY, Hrest⟩
    imodintro
    isplitl [Ha Hrest]
    · iapply hjoin; isplitl [Ha] <;> iassumption
    isplitl [HY]; · iexact HY
    iapply (nothing_of_owesAt (pdats m p c) (Fin.last _) (howed c _)); iexact HO

/-! ## The three regions -/

set_option backward.isDefEq.respectTransparency.types false in
/-- Region 0, from the contents after the third host stretch to those with its output array rewritten. -/
def reg0 : RegionSeg (pcfgs (F := F)) Gen.adm (pdats m) () defs₀ runVar runL runLv 0 :=
  regOf m 0 launch0 (Gen.V3 m) (Gen.V4 m (outs m)) (fun c => body_obligation0 (rd (Gen.V3 m)) c)
    (fun c w => A_eq0 (rd (Gen.V3 m)) c w) (fun _ _ => rfl) (fun _ _ => rfl) (fun _ => rfl) (fun _ => .rfl) (fun _ => .rfl)
    (hF0 m) (hrest0 m)

set_option backward.isDefEq.respectTransparency.types false in
/-- Region 1, from the contents after the host stretch behind region 0. -/
def reg1 : RegionSeg (pcfgs (F := F)) Gen.adm (pdats m) () defs₀ runVar runL runLv 1 :=
  regOf m 1 launch1 (Gen.V5 m (outsA m)) (Gen.V6 m (outs m)) (fun c => body_obligation1 (rd (Gen.V5 m (outsA m))) c)
    (fun c w => A_eq1 (rd (Gen.V5 m (outsA m))) c w) (fun _ _ => rfl) (fun _ _ => rfl) (fun _ => rfl) (fun _ => .rfl) (fun _ => .rfl)
    (hF1 m) (hrest1 m)

set_option backward.isDefEq.respectTransparency.types false in
/-- Region 2, whose invariant is the class's only before the first point and after the last (in between it carries the
    accumulator): its proof data's facts are its equations. -/
def reg2 : RegionSeg (pcfgs (F := F)) Gen.adm (pdats m) () defs₀ runVar runL runLv 2 :=
  regOf m 2 launch2 (Gen.V7 m (outsB m)) (Gen.V8 m (outs m)) (fun c => body_obligation2 (rd (Gen.V7 m (outsB m))) c)
    (fun c w => A_eq2 (rd (Gen.V7 m (outsB m))) c w) (fun c w => q_eq2 (rd (Gen.V7 m (outsB m))) c w)
    (fun c t => owed_eq2 (rd (Gen.V7 m (outsB m))) c t) (fun c => recorded_eq2 (rd (Gen.V7 m (outsB m))) c 0)
    (fun c => hin2 (rd (Gen.V7 m (outsB m))) c) (fun c => hout2 (rd (Gen.V7 m (outsB m))) c)
    (hF2 m) (hrest2 m)

/-! ## The launch -/

/-- The launch element is the pipeline library's, and no ghost resource is dealt. -/
theorem run_hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the rest that rides beside them: the generator register at
    its launch state, the core owing nothing. -/
theorem run_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts runL runLv)
      ⊢ (|={Set.univ}=> bigSep Finset.univ (fun c : Dev nD => runR c) : sProp 𝕄) := by
  refine Pipeline.initEach runL runLv fun c => ?_
  iintro ⟨⟨-, HO, -, Hp, -⟩, -⟩
  imodintro
  isplitl [Hp]; · iexists _; iexact Hp
  iexists ∅; iexact HO

/-- At the end the core owes nothing. -/
theorem run_hE3 (c : Dev nD) : (runR c : sProp 𝕄) ⊢ (iprop(∃ W, owes (c : Thread nD τ) (0 : CellTallies nD τ sig Unit) W) : sProp 𝕄) := by
  iintro ⟨-, HO⟩; iexact HO

/-! ## The frame and the value of the run -/

set_option backward.isDefEq.respectTransparency.types false in
/-- THE FRAME of the program at any float family: every weakly fair execution terminates, nothing faults, and every
    argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (m := m) (EP := emb₁) (ι := ()) (𝒱₀ := runVar) (L := runL) (lv := runLv)
    (hL := fun _ _ => rfl) (ρ := ρ) (outs := outs m) (pdats := pdats m) (O₀ := 0) (G := fun _ => iprop(emp))
    (u₀ := initOf (Pipeline.cells cfgs cellOf_inj) (Pipeline.launchToks cfgs cellOf_inj)) (hu₀ := run_hu₀)
    (E := fun _ c => runR c) (hE0 := run_hE0 ρ) (hE3 := run_hE3)
    (R0 := reg0 m) (hpre0 := fun _ => .rfl) (hpost0 := fun _ => .rfl)
    (R1 := reg1 m) (hpre1 := fun c => by rw [V5_outs m c]; exact .rfl) (hpost1 := fun _ => .rfl)
    (R2 := reg2 m) (hpre2 := fun c => by rw [V7_outs m c]; exact .rfl) (hpost2 := fun _ => .rfl)

set_option backward.isDefEq.respectTransparency.types false in
/-- THE RUN WITH ITS VALUE: the same, and the result buffer ends at what region 2 leaves in it. -/
theorem run_value (ρ : Dev nD → PrngReg) : θ_run defs (onTc (τ := τ) (main (F := F))) ⟨m, fun _ => 0, ρ⟩ (fun r => ∀ c : Dev nD,
      r.2.mem ((c.tc : Thread nD τ).loc main_v69) = outs m 8 main_v69 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_cond (m := m) (EP := emb₁) (ι := ()) (𝒱₀ := runVar) (L := runL) (lv := runLv)
    (hL := fun _ _ => rfl) (ρ := ρ) (outs := outs m) (pdats := pdats m) (O₀ := 0) (G := fun _ => iprop(emp))
    (u₀ := initOf (Pipeline.cells cfgs cellOf_inj) (Pipeline.launchToks cfgs cellOf_inj)) (hu₀ := run_hu₀)
    (E := fun _ c => runR c) (hE0 := run_hE0 ρ) (hE3 := run_hE3)
    (R0 := reg0 m) (hpre0 := fun _ => .rfl) (hpost0 := fun _ => .rfl)
    (R1 := reg1 m) (hpre1 := fun c => by rw [V5_outs m c]; exact .rfl) (hpost1 := fun _ => .rfl)
    (R2 := reg2 m) (hpre2 := fun c => by rw [V7_outs m c]; exact .rfl) (hpost2 := fun _ => .rfl)

end Cert.Kernel.Hand

end
-- ==== Proof.KI.R0.lean ====
/- Region 0 of the program: the row-blocked product x · W1. At a parameter `V` (what the core's buffers hold when the
   region is entered): each window's block at a grid point, what the body leaves in the output window's staging
   buffer (the block of x times all of W1, rounded to the output's format), the pipeline's proof data and the body's
   obligation at every point. -/
import proofs.«428187_j7043746365666_2_alg».proof.Proof.Gen.KernelIdeal.Launch
import proofs.«428187_j7043746365666_2_alg».proof.Proof.Gen.KernelIdeal.Skeleton
import proofs.«428187_j7043746365666_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S10000x128 := Rect.unit (s := S10000x128) ![0, 0] S10000x128.size inb_S10000x128_S10000x128_0_0
abbrev rW0 : Rect S128x64 := Rect.unit (s := S128x64) ![0, 0] S128x64.size inb_S128x64_S128x64_0_0
abbrev rO0 : Rect S10000x64 := Rect.unit (s := S10000x64) ![0, 0] S10000x64.size inb_S10000x64_S10000x64_0_0

/-- The output window's staging buffer after the body: one store of the whole block, the product of the loaded block of
    `x` with the loaded `W1`. -/
def out0_2 (x0 : Vec F S10000x128 .f32) (x1 : Vec F S128x64 .f32) : Vec F S10000x64 .bf16 :=
  View.canon [⟨rO0, k0_pay1 (View.ld x0 rX0) (View.ld x1 rW0)⟩]

/-- The proof data of pipeline 0 on core `c`: the arrays as the region finds them; after the body each input's buffer at
    its block and the output's at `out0_2` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in the input windows -/

/-- The block of `x` in window 0's current buffer: the window is an input whose body leaves its block where it is, is
    live everywhere and uncut, so at every point it holds what a fetch would put there, which is the block read off
    the array. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The whole of `W1` in window 1's current buffer. Its block index never moves, so the pipeline fetches it at the
    first point only; at the later points the buffer still holds the block of the point before, which is the same
    block. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The one store covers the output block -/

/-- The store's rectangle is the whole `10000 × 64` block: every index of the block lies in it. -/
theorem cover0_2 (p : Vec F S10000x64 .bf16) (y : S10000x64.Idx) :
    ∃ pc ∈ ([⟨rO0, p⟩] : List (View.Piece (Elt F) S10000x64 .bf16)), y ∈ pc.1.set :=
  View.cover_of_tiled [⟨rO0, p⟩] S10000x64.size (by rfl) y

/-! ## The kernel's triple -/

set_option maxHeartbeats 1000000 in
/-- The kernel on whole staging memrefs. The two inputs' memrefs read `x0` and `x1`; the output's holds anything (the
    kernel loads it once and drops the value). It loads both inputs whole, and stores the rounded product over the
    whole output; the inputs are left as they were and the output reads `out0_2 x0 x1`. -/
theorem sound_kernel0 (c : Dev nD) (E : Set ℕ) (i : grid0.Coords)
    (aX : Memref sig .tc .vmem S10000x128 .f32) (hX : aX.IsWhole) (aW : Memref sig .tc .vmem S128x64 .f32) (hW : aW.IsWhole)
    (aO : Memref sig .tc .vmem S10000x64 .bf16) (hO : aO.IsWhole)
    (x0 : Vec F S10000x128 .f32) (x1 : Vec F S128x64 .f32) (K : PUnit → sProp 𝕄) :
    iprop(owns (c : Thread nD τ) aX fullShare x0 ∗ owns (c : Thread nD τ) aW fullShare x1
        ∗ (∃ d, owns (c : Thread nD τ) aO fullShare d)
        ∗ (iprop(owns (c : Thread nD τ) aX fullShare x0 ∗ owns (c : Thread nD τ) aW fullShare x1
            ∗ owns (c : Thread nD τ) aO fullShare (out0_2 x0 x1)) -∗ K ⟨⟩))
      ⊢ wp frame (wpE (defs₀ (F := F)) Variants.none c none) E (cc0__matmul_kernel i aX hX aW hW aO hO) K := by
  simp only [cc0__matmul_kernel_eq_skeleton]; unfold cc0__matmul_kernel_skel
  unfold owns
  iintro ⟨⟨%fX, %hfX, HX⟩, ⟨%fW, %hfW, HW⟩, ⟨%dO, %fO, -, HO⟩, Hk⟩
  subst hfX; subst hfW
  sl_exec
  sl_step
  iapply Hk
  isplitl [HX]
  · iexists fX; isplitr; · ipureintro; rfl
    iexact HX
  isplitl [HW]
  · iexists fW; isplitr; · ipureintro; rfl
    iexact HW
  iexists _; isplitr
  swap; · iexact HO
  ipureintro
  exact View.read_writes_eq_canon _ _ _ (cover0_2 _)

/-! ## The body at a grid point -/

/-- What the pipeline hands the body at point `t`: the invariant, what the core owes, and the three windows' current
    staging memrefs at what they hold then. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same, each memref at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`. The inputs' memrefs hold their blocks, so the kernel's triple applies; the invariant and
    what the core owes do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, HX⟩, ⟨%d1, HW⟩, ⟨%d2, HO⟩⟩
  iapply (sound_kernel0 c Set.univ _ _ _ _ _ _ _ (iblk0 V c 0 t) (iblk0 V c 1 t) _)
  isplitl [HX]; · iexact HX
  isplitl [HW]; · iexact HW
  isplitl [HO]; · iexists _; iexact HO
  iintro ⟨HX, HW, HO⟩
  isplitl [HΦ]; · iexact HΦ
  isplitl [Ho]; · iexact Ho
  isplitl [HX]; · iexact HX
  isplitl [HW]; · iexact HW
  iexact HO

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the program: relu(agg + b) · W2, row-blocked. At a parameter `V` (what the core's buffers hold when the
   region is entered): each window's block at a grid point, what the body leaves in the output window's staging
   buffer, the pipeline's proof data and the body's obligation at every point. -/
import proofs.«428187_j7043746365666_2_alg».proof.Proof.Gen.KernelIdeal.Launch
import proofs.«428187_j7043746365666_2_alg».proof.Proof.Gen.KernelIdeal.Skeleton
import proofs.«428187_j7043746365666_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S10000x64 := Rect.unit (s := S10000x64) ![0, 0] S10000x64.size inb_S10000x64_S10000x64_0_0
abbrev rB1 : Rect S1x64 := Rect.unit (s := S1x64) ![0, 0] S1x64.size inb_S1x64_S1x64_0_0
abbrev rC1 : Rect S64x64 := Rect.unit (s := S64x64) ![0, 0] S64x64.size inb_S64x64_S64x64_0_0

/-- The output window's staging buffer after the body: one store of the whole block. -/
def out1_3 (x0 : Vec F S10000x64 .f32) (x1 : Vec F S1x64 .f32) (x2 : Vec F S64x64 .f32) : Vec F S10000x64 .bf16 :=
  View.canon [⟨rA1, k1_pay1 (View.ld x0 rA1) (View.ld x1 rB1) (View.ld x2 rC1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! ## What the body finds in the input windows -/

/-- The block of the aggregate in window 0's current buffer: the window is an input whose body leaves its block where
    it is, is live everywhere and uncut, so at every point it holds what a fetch would put there, which is the block
    read off the array. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The bias row in window 1's current buffer. Its block index never moves, so the pipeline fetches it at the first
    point only; at the later points the buffer still holds the block of the point before, which is the same block. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The whole of `W2` in window 2's current buffer: fetched at the first point only, like the bias. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s; rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-! ## The one store covers the output block -/

/-- The store's rectangle is the whole `10000 × 64` block: every index of the block lies in it. -/
theorem cover1_3 (p : Vec F S10000x64 .bf16) (y : S10000x64.Idx) :
    ∃ pc ∈ ([⟨rA1, p⟩] : List (View.Piece (Elt F) S10000x64 .bf16)), y ∈ pc.1.set :=
  View.cover_of_tiled [⟨rA1, p⟩] S10000x64.size (by rfl) y

/-! ## The kernel's triple -/

set_option maxHeartbeats 1000000 in
/-- The kernel on whole staging memrefs. The three inputs' memrefs read `x0`, `x1`, `x2`; the output's holds anything
    (the kernel loads it once and drops the value). It loads the three inputs whole and stores
    `relu (x0 + x1) · x2`, rounded, over the whole output; the inputs are left as they were and the output reads
    `out1_3 x0 x1 x2`. -/
theorem sound_kernel1 (c : Dev nD) (E : Set ℕ) (i : grid1.Coords)
    (aA : Memref sig .tc .vmem S10000x64 .f32) (hA : aA.IsWhole) (aB : Memref sig .tc .vmem S1x64 .f32) (hB : aB.IsWhole)
    (aC : Memref sig .tc .vmem S64x64 .f32) (hC : aC.IsWhole) (aO : Memref sig .tc .vmem S10000x64 .bf16) (hO : aO.IsWhole)
    (x0 : Vec F S10000x64 .f32) (x1 : Vec F S1x64 .f32) (x2 : Vec F S64x64 .f32) (K : PUnit → sProp 𝕄) :
    iprop(owns (c : Thread nD τ) aA fullShare x0 ∗ owns (c : Thread nD τ) aB fullShare x1
        ∗ owns (c : Thread nD τ) aC fullShare x2 ∗ (∃ d, owns (c : Thread nD τ) aO fullShare d)
        ∗ (iprop(owns (c : Thread nD τ) aA fullShare x0 ∗ owns (c : Thread nD τ) aB fullShare x1
            ∗ owns (c : Thread nD τ) aC fullShare x2 ∗ owns (c : Thread nD τ) aO fullShare (out1_3 x0 x1 x2)) -∗ K ⟨⟩))
      ⊢ wp frame (wpE (defs₀ (F := F)) Variants.none c none) E (cc1__bias_relu_matmul_kernel i aA hA aB hB aC hC aO hO) K := by
  simp only [cc1__bias_relu_matmul_kernel_eq_skeleton]; unfold cc1__bias_relu_matmul_kernel_skel
  unfold owns
  iintro ⟨⟨%fA, %hfA, HA⟩, ⟨%fB, %hfB, HB⟩, ⟨%fC, %hfC, HC⟩, ⟨%dO, %fO, -, HO⟩, Hk⟩
  subst hfA; subst hfB; subst hfC
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  iexists _; isplitr
  swap; · iexact HO
  ipureintro
  exact View.read_writes_eq_canon _ _ _ (cover1_3 _)

/-! ## The body at a grid point -/

/-- What the pipeline hands the body at point `t`: the invariant, what the core owes, and the four windows' current
    staging memrefs at what they hold then. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same, each memref at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at point `t`. The inputs' memrefs hold their blocks, so the kernel's triple applies; the invariant and
    what the core owes do not depend on the point and pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, HA⟩, ⟨%d1, HB⟩, ⟨%d2, HC⟩, ⟨%d3, HO⟩⟩
  iapply (sound_kernel1 c Set.univ _ _ _ _ _ _ _ _ _ (iblk1 V c 0 t) (iblk1 V c 1 t) (iblk1 V c 2 t) _)
  isplitl [HA]; · iexact HA
  isplitl [HB]; · iexact HB
  isplitl [HC]; · iexact HC
  isplitl [HO]; · iexists _; iexact HO
  iintro ⟨HA, HB, HC, HO⟩
  isplitl [HΦ]; · iexact HΦ
  isplitl [Ho]; · iexact Ho
  isplitl [HA]; · iexact HA
  isplitl [HB]; · iexact HB
  isplitl [HC]; · iexact HC
  iexact HO

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program: the pooling kernel. A 512 x 64 accumulator lives in a scratch buffer the kernel carries from
   grid point to grid point: zeroed at the first point, at every point increased by (one-hot of the point's 2000 graph ids)ᵀ
   times relu(rows + bias), and at the last point divided by the clamped counts, multiplied by Wl, shifted by bl and passed
   through the logistic function into the one output block. -/
import proofs.«428187_j7043746365666_2_alg».proof.Proof.Gen.KernelIdeal.Launch
import proofs.«428187_j7043746365666_2_alg».proof.Proof.Gen.KernelIdeal.Skeleton
import proofs.«428187_j7043746365666_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator (the carried scratch) after the body at point `n`. -/
def acc2 (c : Dev nD) : (n : ℕ) → n < cfg2.N → Vec F S512x64 .f32
  | 0, hn => k2_pay2 (iblk2 V c 0 ⟨0, hn⟩) (iblk2 V c 1 ⟨0, hn⟩) (iblk2 V c 2 ⟨0, hn⟩) (k2_pay1 (F := F))
  | n + 1, hn => k2_pay2 (iblk2 V c 0 ⟨n + 1, hn⟩) (iblk2 V c 1 ⟨n + 1, hn⟩) (iblk2 V c 2 ⟨n + 1, hn⟩) (acc2 c n (Nat.lt_of_succ_lt hn))

/-- What the last point leaves in the output window's staging buffer. -/
def out2_6 (c : Dev nD) (t : Fin cfg2.N) : Vec F S512x1 .f32 :=
  k2_pay3 (iblk2 V c 3 t) (acc2 V c t.val t.isLt) (iblk2 V c 4 t) (iblk2 V c 5 t)

/-! ## Whole-buffer loads and stores -/

theorem r2_zeros : (![0, 0] : Fin 2 → ℕ) = fun _ => 0 := funext fun a => by fin_cases a <;> rfl

/-- A load of all of a whole buffer reads what the buffer holds. -/
theorem r2_readAt_unread {S : Shape} {e : EltTy} (m : Memref sig .tc .vmem S e) (h : m.IsWhole) {off : Fin S.rank → ℕ}
    (hz : off = fun _ => 0) (inb : ∀ a, off a + S.size a ≤ S.size a) (X : S.Idx → Elt F e) :
    View.readAt (Elt F) m.view (Rect.unit off S.size inb).toLoadRect (h.unread X) = X := by
  rw [show View.readAt (Elt F) m.view (Rect.unit off S.size inb).toLoadRect (h.unread X)
      = View.ld (m.view.read (Elt F) (h.unread X)) (Rect.unit off S.size inb) from rfl, h.read_unread, View.ld_unit_zero hz inb]

/-- After a store of a whole buffer, whatever came before, the buffer reads the stored value. -/
theorem r2_read_store {S : Shape} {e : EltTy} (m : Memref sig .tc .vmem S e) {off : Fin S.rank → ℕ}
    (hz : off = fun _ => 0) (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb]

/-! ## The body, case by case -/

/-- The first scalar condition of the body: the point is the grid's first. -/
abbrev cond2_0 (i : grid2.Coords) : Prop := (Scalar.cmpi .ne (Scalar.extui (Scalar.cmpi .eq (BitVec.ofNat 32 (i 0).val) 0#32)) 0#32) = 1#1

set_option maxHeartbeats 1000000 in
/-- At a point neither first nor last the body adds the point's contribution to the accumulator and touches nothing else. -/
theorem run2_mid (c : Dev nD) (i : grid2.Coords)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S1x512 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S512x1 .f32) (harg7 : arg7.IsWhole) (arg8 : Memref sig .tc .vmem S512x64 .f32) (harg8 : arg8.IsWhole)
    (hc0 : ¬cond2_0 i) (hc1 : ¬k2_cond2 i = 1#1)
    (x0 : Vec F S2000x64 .f32) (x1 : Vec F S1x64 .f32) (x2 : Vec F S2000x1 .i32) (xs : Vec F S512x64 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg8 fullShare (k2_pay2 x0 x1 x2 xs)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [r2_read_store arg8 r2_zeros, r2_readAt_unread arg1 harg1 r2_zeros, r2_readAt_unread arg2 harg2 r2_zeros,
    r2_readAt_unread arg3 harg3 r2_zeros, r2_readAt_unread arg8 harg8 r2_zeros]

set_option maxHeartbeats 1000000 in
/-- At the first point the body zeroes the accumulator, whatever it held, then adds the point's contribution. -/
theorem run2_first (c : Dev nD) (i : grid2.Coords)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S1x512 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S512x1 .f32) (harg7 : arg7.IsWhole) (arg8 : Memref sig .tc .vmem S512x64 .f32) (harg8 : arg8.IsWhole)
    (hc0 : cond2_0 i) (hc1 : ¬k2_cond2 i = 1#1)
    (x0 : Vec F S2000x64 .f32) (x1 : Vec F S1x64 .f32) (x2 : Vec F S2000x1 .i32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg8 fullShare (k2_pay2 x0 x1 x2 (k2_pay1 (F := F)))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [r2_read_store arg8 r2_zeros, r2_readAt_unread arg1 harg1 r2_zeros, r2_readAt_unread arg2 harg2 r2_zeros,
    r2_readAt_unread arg3 harg3 r2_zeros, View.readCov_unit_zero _ r2_zeros]

set_option maxHeartbeats 1000000 in
/-- At the last point the body adds the point's contribution to the accumulator and then stores the finished block,
    computed from the accumulator, the counts, the weights and the offset, into the output's buffer, whatever it held. -/
theorem run2_last (c : Dev nD) (i : grid2.Coords)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S1x512 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S512x1 .f32) (harg7 : arg7.IsWhole) (arg8 : Memref sig .tc .vmem S512x64 .f32) (harg8 : arg8.IsWhole)
    (hc0 : ¬cond2_0 i) (hc1 : k2_cond2 i = 1#1)
    (x0 : Vec F S2000x64 .f32) (x1 : Vec F S1x64 .f32) (x2 : Vec F S2000x1 .i32) (x3 : Vec F S1x512 .f32) (x4 : Vec F S64x1 .f32)
    (x5 : Vec F S1x1 .f32) (xs : Vec F S512x64 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay3 x3 (k2_pay2 x0 x1 x2 xs) x4 x5)
            ∗ owns (c : Thread nD τ) arg8 fullShare (k2_pay2 x0 x1 x2 xs)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    rw [r2_read_store arg7 r2_zeros, r2_readAt_unread arg4 harg4 r2_zeros, r2_readAt_unread arg5 harg5 r2_zeros,
      r2_readAt_unread arg6 harg6 r2_zeros, View.readCov_unit_zero _ r2_zeros, r2_readAt_unread arg1 harg1 r2_zeros,
      r2_readAt_unread arg2 harg2 r2_zeros, r2_readAt_unread arg3 harg3 r2_zeros, r2_readAt_unread arg8 harg8 r2_zeros]
  iexists _; isplitr
  swap; · iexact HS
  ipureintro
  sl_unfold_run_names
  rw [r2_read_store arg8 r2_zeros, r2_readAt_unread arg1 harg1 r2_zeros, r2_readAt_unread arg2 harg2 r2_zeros,
    r2_readAt_unread arg3 harg3 r2_zeros, r2_readAt_unread arg8 harg8 r2_zeros]

/-! ## The grid's points by the body's two conditions -/

/-- The first condition holds at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, k2_cond2 (grid2.coords t) = 1#1 ↔ t.val = 49 :=
  (by decide +kernel : ∀ t : Fin grid2.N, k2_cond2 (grid2.coords t) = 1#1 ↔ t.val = 49)

/-- Where the second condition fails the output window is idle, -/
theorem idle2_6_of_not (i : grid2.Coords) (h : ¬k2_cond2 i = 1#1) : cfg2.idle 6 i = true := by
  show (!(k2_cond2 i == 1#1)) = true
  rw [Bool.not_eq_true', beq_eq_false_iff_ne]; exact h
/-- where it holds, live. -/
theorem live2_6_of (i : grid2.Coords) (h : k2_cond2 i = 1#1) : cfg2.idle 6 i = false := by
  show (!(k2_cond2 i == 1#1)) = false
  rw [h]; rfl
/-- Before the last point the output's block is not written back. -/
theorem noFlush2_6 (t : Fin cfg2.N) (h : t.val ≠ 49) : (cfg2.win 6).flush t = false := by
  have hN : t.val < 50 := lt_of_lt_of_eq t.isLt (show cfg2.N = 50 from N_2)
  exact Bool.eq_false_iff.mpr fun hf => by have := (flush2_6 t).mp hf; omega

/-! ## The staging memrefs at a point, and the scratch -/

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)
/-- The accumulator: a whole scoped buffer of the kernel's own, passed beside the windows. -/
abbrev scM2 : Memref sig .tc .vmem S512x64 .f32 := Memref.whole cc2_scratch0

/-! ## The accumulator point by point -/

theorem acc2_first (c : Dev nD) (t : Fin cfg2.N) (h0 : t.val = 0) :
    acc2 V c t.val t.isLt = k2_pay2 (iblk2 V c 0 t) (iblk2 V c 1 t) (iblk2 V c 2 t) (k2_pay1 (F := F)) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt = k2_pay2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd rfl h0
  | succ n => rfl

/-! ## The invariant -/

/-- The core's scoped buffers that belong to the other two regions, each at anything. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The class invariant with the accumulator named: the other regions' scoped buffers, the accumulator at anything,
    the generator register. -/
theorem PhiA2_eq (c : Dev nD) :
    (Pipeline.ΦA spec2 c : sProp 𝕄)
      = iprop((others2 c ∗ (∃ d, owns (c : Thread nD τ) scM2 fullShare d)) ∗ (∃ r, prngReg c r)) := by
  unfold Pipeline.ΦA; rw [scopedRest2_eq]; unfold others2; simp only [scM2, owns_whole]
  refine BI.equiv_iff.mp ⟨?_, ?_⟩
  · show (_ : sProp 𝕄) ⊢ (_ : sProp 𝕄)
    iintro ⟨⟨A1, A2, A3, A4, A5, A6, A7, A8, A9, A10, A11, HS⟩, Hg⟩
    isplitr [Hg]
    · isplitr [HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        iexact A11
      iexact HS
    iexact Hg
  · show (_ : sProp 𝕄) ⊢ (_ : sProp 𝕄)
    iintro ⟨⟨⟨A1, A2, A3, A4, A5, A6, A7, A8, A9, A10, A11⟩, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact HS
    iexact Hg

/-- The region's invariant before position `n`: before the first point the class's; afterwards the same with the
    accumulator at what the point before left in it. -/
def Phi2 (c : Dev nD) : (n : ℕ) → n ≤ cfg2.N → sProp 𝕄
  | 0, _ => Pipeline.ΦA spec2 c
  | n + 1, hn => iprop((others2 c ∗ owns (c : Thread nD τ) scM2 fullShare (acc2 V c n hn)) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop((others2 c ∗ owns (c : Thread nD τ) scM2 fullShare (acc2 V c n hn)) ∗ (∃ r, prngReg c r)) := rfl

theorem Phi2_pos (c : Dev nD) (n : ℕ) (h : n ≤ cfg2.N) (hz : n ≠ 0) :
    Phi2 V c n h = iprop((others2 c ∗ owns (c : Thread nD τ) scM2 fullShare (acc2 V c (n - 1) (by omega))) ∗ (∃ r, prngReg c r)) := by
  cases n with
  | zero => exact absurd rfl hz
  | succ n => rfl

/-! ## The proof data -/

/-- The proof data of pipeline 2 on core `c`: the arrays as the region finds them; after the body each input's buffer at
    its block and the output's at the finished block of the point's accumulator (read at the last point only); the
    invariant carrying the accumulator; nothing owed; full shares. -/
def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- At the last point the output window's buffer holds the finished block. -/
theorem after2_6 (c : Dev nD) (t : Fin cfg2.N) (ht : t.val = 49) : (dat2 V c).after 6 t = out2_6 V c t := by dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

/-- The invariant before the first point is the class's, and the one after the last point gives the class's back. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

theorem Phi2_out (c : Dev nD) (t : Fin (cfg2.N + 1)) (ht : t.val ≠ 0) : (dat2 V c).Φ t ⊢ (Pipeline.ΦA spec2 c : sProp 𝕄) := by
  rw [show (dat2 V c).Φ t = Phi2 V c t.val (Nat.le_of_lt_succ t.isLt) from rfl, Phi2_pos V c _ _ ht, PhiA2_eq]
  iintro ⟨⟨Ho, HS⟩, Hg⟩
  isplitr [Hg]
  · isplitl [Ho]; · iexact Ho
    iexists _; iexact HS
  iexact Hg

theorem hout2 (c : Dev nD) : (dat2 V c).Φ (Fin.last cfg2.N) ⊢ (Pipeline.ΦA spec2 c : sProp 𝕄) :=
  Phi2_out V c _ (by rw [Fin.val_last]; have : cfg2.N = 50 := N_2; omega)

/-! ## What the body finds in the inputs' buffers: their blocks, fetched there or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point. The inputs' buffers hold their blocks; the point is the first, the last or neither, which
    decides the body's two conditions; the invariant hands the body the accumulator at what the point before left (at
    anything at the first point) and takes it back at this point's value; the output's buffer comes back untouched
    except at the last point, where it holds the finished block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [show cfg2.idle 0 (cfg2.grid.coords t) = false from rfl], after2_0]
  rw [show (dat2 V c).leavesExact 1 t = owns (c : Thread nD τ) (ms2_1 t) fullShare ((dat2 V c).after 1 t) from by
    unfold Dat.leavesExact; rw [show cfg2.idle 1 (cfg2.grid.coords t) = false from rfl], after2_1]
  rw [show (dat2 V c).leavesExact 2 t = owns (c : Thread nD τ) (ms2_2 t) fullShare ((dat2 V c).after 2 t) from by
    unfold Dat.leavesExact; rw [show cfg2.idle 2 (cfg2.grid.coords t) = false from rfl], after2_2]
  rw [show (dat2 V c).leavesExact 3 t = owns (c : Thread nD τ) (ms2_3 t) fullShare ((dat2 V c).after 3 t) from by
    unfold Dat.leavesExact; rw [show cfg2.idle 3 (cfg2.grid.coords t) = false from rfl], after2_3]
  rw [show (dat2 V c).leavesExact 4 t = owns (c : Thread nD τ) (ms2_4 t) fullShare ((dat2 V c).after 4 t) from by
    unfold Dat.leavesExact; rw [show cfg2.idle 4 (cfg2.grid.coords t) = false from rfl], after2_4]
  rw [show (dat2 V c).leavesExact 5 t = owns (c : Thread nD τ) (ms2_5 t) fullShare ((dat2 V c).after 5 t) from by
    unfold Dat.leavesExact; rw [show cfg2.idle 5 (cfg2.grid.coords t) = false from rfl], after2_5]
  have hN : t.val < 50 := lt_of_lt_of_eq t.isLt (show cfg2.N = 50 from N_2)
  by_cases h0 : t.val = 0
  · have hc0 : cond2_0 (grid2.coords t) := (hcond2_0 t).mpr h0
    have hc1 : ¬k2_cond2 (grid2.coords t) = 1#1 := fun h => by have := (hcond2_1 t).mp h; omega
    rw [Dat.leavesExact_idle (dat2 V c) 6 t (idle2_6_of_not _ hc1) (noFlush2_6 t (by omega))]
    rw [Phi2_castSucc V c t, Phi2_zero V c _ _ h0, PhiA2_eq, acc2_first V c t h0]
    iintro ⟨⟨⟨Ho, ⟨%ds, HS⟩⟩, Hg⟩, Hw, ⟨%d0, H0⟩, ⟨%d1, H1⟩, ⟨%d2, H2⟩, ⟨%d3, H3⟩, ⟨%d4, H4⟩, ⟨%d5, H5⟩, ⟨%d6, H6⟩⟩
    iapply (run2_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) hc0 hc1 (iblk2 V c 0 t) (iblk2 V c 1 t) (iblk2 V c 2 t) Set.univ _)
    isplitl [H0]; · iexact H0
    isplitl [H1]; · iexact H1
    isplitl [H2]; · iexact H2
    isplitl [HS]; · iexists _; iexact HS
    iintro ⟨H0, H1, H2, HS⟩
    isplitl [Ho HS Hg]
    · isplitr [Hg]
      · isplitl [Ho]; · iexact Ho
        iexact HS
      iexact Hg
    isplitl [Hw]; · iexact Hw
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 49
    · have hc0 : ¬cond2_0 (grid2.coords t) := fun h => h0 ((hcond2_0 t).mp h)
      have hc1 : k2_cond2 (grid2.coords t) = 1#1 := (hcond2_1 t).mpr h1
      rw [show (dat2 V c).leavesExact 6 t = owns (c : Thread nD τ) (ms2_6 t) fullShare ((dat2 V c).after 6 t) from by
        unfold Dat.leavesExact; rw [live2_6_of _ hc1], after2_6 V c t h1]
      unfold out2_6
      rw [Phi2_castSucc V c t, Phi2_pos V c _ _ h0, acc2_pos V c t h0]
      iintro ⟨⟨⟨Ho, HS⟩, Hg⟩, Hw, ⟨%d0, H0⟩, ⟨%d1, H1⟩, ⟨%d2, H2⟩, ⟨%d3, H3⟩, ⟨%d4, H4⟩, ⟨%d5, H5⟩, ⟨%d6, H6⟩⟩
      iapply (run2_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) hc0 hc1 (iblk2 V c 0 t) (iblk2 V c 1 t) (iblk2 V c 2 t) (iblk2 V c 3 t) (iblk2 V c 4 t) (iblk2 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Ho HS Hg]
      · isplitr [Hg]
        · isplitl [Ho]; · iexact Ho
          iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexact H6
    · have hc0 : ¬cond2_0 (grid2.coords t) := fun h => h0 ((hcond2_0 t).mp h)
      have hc1 : ¬k2_cond2 (grid2.coords t) = 1#1 := fun h => h1 ((hcond2_1 t).mp h)
      rw [Dat.leavesExact_idle (dat2 V c) 6 t (idle2_6_of_not _ hc1) (noFlush2_6 t h1)]
      rw [Phi2_castSucc V c t, Phi2_pos V c _ _ h0, acc2_pos V c t h0]
      iintro ⟨⟨⟨Ho, HS⟩, Hg⟩, Hw, ⟨%d0, H0⟩, ⟨%d1, H1⟩, ⟨%d2, H2⟩, ⟨%d3, H3⟩, ⟨%d4, H4⟩, ⟨%d5, H5⟩, ⟨%d6, H6⟩⟩
      iapply (run2_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) hc0 hc1 (iblk2 V c 0 t) (iblk2 V c 1 t) (iblk2 V c 2 t) _ Set.univ _)
      isplitl [H0]; · iexact H0
      isplitl [H1]; · iexact H1
      isplitl [H2]; · iexact H2
      isplitl [HS]; · iexact HS
      iintro ⟨H0, H1, H2, HS⟩
      isplitl [Ho HS Hg]
      · isplitr [Hg]
        · isplitl [Ho]; · iexact Ho
          iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The whole run of the program: what each of the three kernel regions leaves in its output array, the proof data of
   the three pipelines at the contents each region is entered with, each region as a segment of the program between the
   host stretches, and from these the frame claim (every argument array ends as launched) and the value claim (the result
   buffer ends at what region 2 leaves in it). -/
import proofs.«428187_j7043746365666_2_alg».proof.Proof.Gen.KernelIdeal.Regions
import proofs.«428187_j7043746365666_2_alg».proof.Proof.KI.RunCond
import proofs.«428187_j7043746365666_2_alg».proof.Proof.KI.R0
import proofs.«428187_j7043746365666_2_alg».proof.Proof.KI.R1
import proofs.«428187_j7043746365666_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation of the core's buffers read at the TensorCore's references. -/
abbrev rd (W : Dev nD → Valuation τ sig (Elt F)) : (c : Dev nD) → (b : Ref sig .tc) → Buf (Elt F) ((c : Thread nD τ).loc b) :=
  fun c b => W c b

/-! ## What the regions leave -/

/-- After region 0: its arrays at what the pipeline's write-backs leave (the inputs as entered, the output array the blocks
    the ten points wrote), every other buffer as entered. Read at any reference (only `main_v30` is consulted). -/
def outsA : Gen.Outs (F := F) := fun _ r c =>
  Pipeline.withArrays spec0 c (Gen.V3 m c) (fun w => (dat0 (rd (Gen.V3 m)) c).arrAt w cfg0.N) r

/-- After region 1 as well. -/
def outsB : Gen.Outs (F := F) := fun J r c =>
  if J = 4 then outsA m J r c
  else Pipeline.withArrays spec1 c (Gen.V5 m (outsA m) c) (fun w => (dat1 (rd (Gen.V5 m (outsA m))) c).arrAt w cfg1.N) r

/-- After region 2 as well: the contents the three regions leave, item by item. -/
def outs : Gen.Outs (F := F) := fun J r c =>
  if J = 4 then outsA m J r c
  else if J = 6 then outsB m J r c
  else Pipeline.withArrays spec2 c (Gen.V7 m (outsB m) c) (fun w => (dat2 (rd (Gen.V7 m (outsB m))) c).arrAt w cfg2.N) r

/-- Item 4 of the full contents is region 0's, -/
theorem outs_at4 (r : Ref sig .tc) (c : Dev nD) : outs m 4 r c = outsA m 4 r c := by
  unfold outs; exact if_pos rfl
/-- so is item 4 of the contents after two regions, -/
theorem outsB_at4 (r : Ref sig .tc) (c : Dev nD) : outsB m 4 r c = outsA m 4 r c := by
  unfold outsB; exact if_pos rfl
/-- and item 6 of the full contents is region 1's. -/
theorem outs_at6 (r : Ref sig .tc) (c : Dev nD) : outs m 6 r c = outsB m 6 r c := by
  unfold outs; rw [if_neg (by decide), if_pos rfl]

/-- The contents region 1 is entered with do not depend on what later regions leave, -/
theorem V5_outs (c : Dev nD) : Gen.V5 m (outs m) c = Gen.V5 m (outsA m) c := by
  simp only [Gen.V5, Gen.V4, outs_at4]
/-- nor do those region 2 is entered with. -/
theorem V7_outs (c : Dev nD) : Gen.V7 m (outs m) c = Gen.V7 m (outsB m) c := by
  simp only [Gen.V7, Gen.V6, Gen.V5, Gen.V4, outs_at4, outs_at6, outsB_at4]

/-- The same on every core at once. -/
theorem V5_outs' : Gen.V5 m (outs m) = Gen.V5 m (outsA m) := funext (V5_outs m)
theorem V7_outs' : Gen.V7 m (outs m) = Gen.V7 m (outsB m) := funext (V7_outs m)

/-- What region 0 leaves in its output array: the fold of its ten write-backs. -/
theorem outs_4 (c : Dev nD) : outs m 4 main_v30 c = (dat0 (rd (Gen.V3 m)) c).arrAt 2 cfg0.N := by
  rw [outs_at4]; unfold outsA
  exact Pipeline.withArrays_arr spec0 launch0.win.arr_inj c _ _ 2
/-- What region 1 leaves in its output array, at the contents it is entered with. -/
theorem outs_6A (c : Dev nD) : outs m 6 main_v46 c = (dat1 (rd (Gen.V5 m (outsA m))) c).arrAt 3 cfg1.N := by
  rw [outs_at6]; unfold outsB; rw [if_neg (by decide)]
  exact Pipeline.withArrays_arr spec1 launch1.win.arr_inj c _ _ 3
/-- What region 1 leaves in its output array. -/
theorem outs_6 (c : Dev nD) : outs m 6 main_v46 c = (dat1 (rd (Gen.V5 m (outs m))) c).arrAt 3 cfg1.N := by
  rw [V5_outs']; exact outs_6A m c
/-- What region 2 leaves in the result buffer, at the contents it is entered with. -/
theorem outs_8B (c : Dev nD) : outs m 8 main_v69 c = (dat2 (rd (Gen.V7 m (outsB m))) c).arrAt 6 cfg2.N := by
  unfold outs; rw [if_neg (by decide), if_neg (by decide)]
  exact Pipeline.withArrays_arr spec2 launch2.win.arr_inj c _ _ 6
/-- What region 2 leaves in the result buffer. -/
theorem outs_8 (c : Dev nD) : outs m 8 main_v69 c = (dat2 (rd (Gen.V7 m (outs m))) c).arrAt 6 cfg2.N := by
  rw [V7_outs']; exact outs_8B m c

/-! ## The proof data family -/

/-- Every pipeline's proof data, each at its region's entry contents: a literal match on the pipeline's index. -/
def pdats : (p : Fin 3) → (c : Dev nD) → Dat τ (Elt F) Unit ℕ (UR sig nD τ) ℕ (cfgs p) c
  | ⟨0, _⟩ => fun c => dat0 (rd (Gen.V3 m)) c
  | ⟨1, _⟩ => fun c => dat1 (rd (Gen.V5 m (outsA m))) c
  | ⟨2, _⟩ => fun c => dat2 (rd (Gen.V7 m (outsB m))) c

/-! ## The launch side: no variant, no pair at any level, and what rides beside the buffers -/

abbrev runVar : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state (the class invariant
    takes it in and gives it back) and the core owing nothing. -/
abbrev runR (c : Dev nD) : sProp 𝕄 := iprop((∃ r, prngReg c r) ∗ ∃ W, owes (c : Thread nD τ) (0 : CellTallies nD τ sig Unit) W)

/-! ## Each region's exit contents against its entry contents -/

/-- The buffer a region may change holds, after it, what the region leaves there. -/
theorem V4_main_v30 (o : Gen.Outs (F := F)) (c : Dev nD) : Gen.V4 m o c main_v30 = o 4 main_v30 c := by
  simp only [Gen.V4, Function.update_self]
theorem V6_main_v46 (o : Gen.Outs (F := F)) (c : Dev nD) : Gen.V6 m o c main_v46 = o 6 main_v46 c := by
  simp only [Gen.V6, Function.update_self]
theorem V8_main_v69 (o : Gen.Outs (F := F)) (c : Dev nD) : Gen.V8 m o c main_v69 = o 8 main_v69 c := by
  simp only [Gen.V8, Function.update_self]

/-- Region 0's arrays after its last point are the next item's contents at them: the two inputs are never written back and
    no item in between touches them; the output array is the one buffer the region changes. -/
theorem hF0 (c : Dev nD) : ∀ w : Fin cfg0.W, (dat0 (rd (Gen.V3 m)) c).arrAt w cfg0.N = rd (Gen.V4 m (outs m)) c (Pipeline.arrRef spec0 w)
  | ⟨0, _⟩ => ((Dat.arrAt_in _ _ rfl _).trans (A_eq0 _ c _)).trans (Gen.V4_of m (outs m) c main_arg0 (by decide)).symm
  | ⟨1, _⟩ => ((Dat.arrAt_in _ _ rfl _).trans (A_eq0 _ c _)).trans (Gen.V4_of m (outs m) c main_arg3 (by decide)).symm
  | ⟨2, _⟩ => ((V4_main_v30 m (outs m) c).trans (outs_4 m c)).symm
/-- Every other buffer is as the region found it. -/
theorem hrest0 (c : Dev nD) : ∀ b, b ∉ Finset.univ.image (Pipeline.arrRef spec0) → rd (Gen.V4 m (outs m)) c b = rd (Gen.V3 m) c b :=
  fun b hb => Gen.V4_of m (outs m) c b fun h =>
    hb (Finset.mem_image.mpr ⟨2, Finset.mem_univ _, (List.mem_singleton.mp h).symm⟩)

/-- The same of region 1, whose entry contents are those after region 0 and the host stretch behind it. -/
theorem hF1 (c : Dev nD) : ∀ w : Fin cfg1.W, (dat1 (rd (Gen.V5 m (outsA m))) c).arrAt w cfg1.N = rd (Gen.V6 m (outs m)) c (Pipeline.arrRef spec1 w)
  | ⟨0, _⟩ => ((Dat.arrAt_in _ _ rfl _).trans (A_eq1 _ c _)).trans ((Gen.V6_of m (outs m) c main_v44 (by decide)).trans (congrFun (V5_outs m c) _)).symm
  | ⟨1, _⟩ => ((Dat.arrAt_in _ _ rfl _).trans (A_eq1 _ c _)).trans ((Gen.V6_of m (outs m) c main_v45 (by decide)).trans (congrFun (V5_outs m c) _)).symm
  | ⟨2, _⟩ => ((Dat.arrAt_in _ _ rfl _).trans (A_eq1 _ c _)).trans ((Gen.V6_of m (outs m) c main_arg5 (by decide)).trans (congrFun (V5_outs m c) _)).symm
  | ⟨3, _⟩ => ((V6_main_v46 m (outs m) c).trans (outs_6A m c)).symm
theorem hrest1 (c : Dev nD) : ∀ b, b ∉ Finset.univ.image (Pipeline.arrRef spec1) → rd (Gen.V6 m (outs m)) c b = rd (Gen.V5 m (outsA m)) c b :=
  fun b hb => (Gen.V6_of m (outs m) c b fun h =>
    hb (Finset.mem_image.mpr ⟨3, Finset.mem_univ _, (List.mem_singleton.mp h).symm⟩)).trans (congrFun (V5_outs m c) _)

/-- The same of region 2. -/
theorem hF2 (c : Dev nD) : ∀ w : Fin cfg2.W, (dat2 (rd (Gen.V7 m (outsB m))) c).arrAt w cfg2.N = rd (Gen.V8 m (outs m)) c (Pipeline.arrRef spec2 w)
  | ⟨0, _⟩ => ((Dat.arrAt_in _ _ rfl _).trans (A_eq2 _ c _)).trans ((Gen.V8_of m (outs m) c main_v60 (by decide)).trans (congrFun (V7_outs m c) _)).symm
  | ⟨1, _⟩ => ((Dat.arrAt_in _ _ rfl _).trans (A_eq2 _ c _)).trans ((Gen.V8_of m (outs m) c main_v67 (by decide)).trans (congrFun (V7_outs m c) _)).symm
  | ⟨2, _⟩ => ((Dat.arrAt_in _ _ rfl _).trans (A_eq2 _ c _)).trans ((Gen.V8_of m (outs m) c main_v66 (by decide)).trans (congrFun (V7_outs m c) _)).symm
  | ⟨3, _⟩ => ((Dat.arrAt_in _ _ rfl _).trans (A_eq2 _ c _)).trans ((Gen.V8_of m (outs m) c main_v65 (by decide)).trans (congrFun (V7_outs m c) _)).symm
  | ⟨4, _⟩ => ((Dat.arrAt_in _ _ rfl _).trans (A_eq2 _ c _)).trans ((Gen.V8_of m (outs m) c main_arg7 (by decide)).trans (congrFun (V7_outs m c) _)).symm
  | ⟨5, _⟩ => ((Dat.arrAt_in _ _ rfl _).trans (A_eq2 _ c _)).trans ((Gen.V8_of m (outs m) c main_v68 (by decide)).trans (congrFun (V7_outs m c) _)).symm
  | ⟨6, _⟩ => ((V8_main_v69 m (outs m) c).trans (outs_8B m c)).symm
theorem hrest2 (c : Dev nD) : ∀ b, b ∉ Finset.univ.image (Pipeline.arrRef spec2) → rd (Gen.V8 m (outs m)) c b = rd (Gen.V7 m (outsB m)) c b :=
  fun b hb => (Gen.V8_of m (outs m) c b fun h =>
    hb (Finset.mem_image.mpr ⟨6, Finset.mem_univ _, (List.mem_singleton.mp h).symm⟩)).trans (congrFun (V7_outs m c) _)

/-! ## A region as a segment, once for the three -/

/-- The core owing nothing is what a proof data that owes nothing and has recorded nothing asks of it before point `t`, -/
theorem owesAt_of_nothing {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro
    intro x _
    have hx : x ∈ dat.recorded t := by rw [hr]; exact Set.mem_univ x
    exact Or.inl hx
  iexact HO
/-- and what such a proof data gives back. -/
theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

-- the pinned configuration of pipeline `p` is the printed one only by unfolding definitions inside types
set_option backward.isDefEq.respectTransparency.types false in
/-- REGION `p` over the thread state "every unscoped buffer at given contents, the generator register at some state, nothing
    owed": entered at `Vin`, left at `Vout`. Given of its proof data: the arrays are `Vin`'s, the shares full, nothing owed at
    any point and nothing recorded before the first, the invariant before the first point follows from the class's and the
    one after the last gives the class's back; and of the two contents: the arrays after the last point are `Vout`'s and
    every other buffer is unchanged. At entry the arrays are split out of the unscoped buffers, at exit put back; the
    register passes through the invariant. -/
def regOf (p : Fin 3) (lf : Pipeline.LaunchFacts (nD := nD) (τ := τ) cfgs p) (Vin Vout : Dev nD → Valuation τ sig (Elt F))
    (hbody : ∀ c, BodyObligation (pdats m p c) (defs₀ (F := F)) Variants.none () Set.univ)
    (hA : ∀ c w, (pdats m p c).A w = rd Vin c (Pipeline.arrRef (cfgs p).spec w))
    (hq : ∀ c w, (pdats m p c).q w = fullShare)
    (howed : ∀ c t, (pdats m p c).owed t = 0)
    (hrec : ∀ c, (pdats m p c).recorded 0 = Set.univ)
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄))
    (hF : ∀ c w, (pdats m p c).arrAt w (cfgs p).N = rd Vout c (Pipeline.arrRef (cfgs p).spec w))
    (hrest : ∀ c b, b ∉ Finset.univ.image (Pipeline.arrRef (cfgs p).spec) → rd Vout c b = rd Vin c b) :
    RegionSeg (pcfgs (F := F)) Gen.adm (pdats m) () defs₀ runVar runL runLv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    have hsplit := Pipeline.arrays_of_unscopedBufs (p := p) (pcfgs (F := F)) Gen.adm (pdats m) lf.win lf.arr_whole c
      ((pdats m p c).share_full (hq c)) (rd Vin c) (hA c)
    rw [Pipeline.unscopedBufs_held c (Vin c)] at hsplit
    have hpre : (Pipeline.prefHeld (pcfgs (F := F) p).pre c (fun _ => fullShare) (Gen.adm (F := F) p).1 : sProp 𝕄) = BI.emp := by
      unfold Pipeline.prefHeld; rw [show (Finset.univ : Finset (Fin 0)) = ∅ from rfl, BI.bigSep_empty]
    rw [hpre]
    iintro ⟨⟨Hub, Hp, HO⟩, -, -⟩
    ihave H := hsplit $$ Hub
    icases H with ⟨Ha, Hrest⟩
    imodintro
    isplitl [Ha]; · iexact Ha
    isplitr; · iempintro
    isplitl [HO]; · iapply (owesAt_of_nothing (pdats m p c) 0 (howed c 0) (hrec c)); iexact HO
    isplitl [Hp]; · iexact Hp
    iexact Hrest
  hin c := by
    have h := hΦin c
    unfold Pipeline.ΦA at h
    iintro ⟨Hp, -, Hr⟩
    iapply h
    isplitl [Hr]; · iexact Hr
    iexact Hp
  hout c := by
    rw [Pipeline.ownSems0_none]
    have h := hΦout c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (rd Vin c) (rd Vout c) ((pdats m p c).arrAt · (cfgs p).N) (hF c) (hrest c)
    rw [Pipeline.unscopedBufs_held c (Vout c)] at hjoin
    iintro ⟨Ha, HO, HY, Hrest⟩
    imodintro
    isplitl [Ha Hrest]
    · iapply hjoin; isplitl [Ha] <;> iassumption
    isplitl [HY]; · iexact HY
    iapply (nothing_of_owesAt (pdats m p c) (Fin.last _) (howed c _)); iexact HO

/-! ## The three regions -/

set_option backward.isDefEq.respectTransparency.types false in
/-- Region 0, from the contents after the third host stretch to those with its output array rewritten. -/
def reg0 : RegionSeg (pcfgs (F := F)) Gen.adm (pdats m) () defs₀ runVar runL runLv 0 :=
  regOf m 0 launch0 (Gen.V3 m) (Gen.V4 m (outs m)) (fun c => body_obligation0 (rd (Gen.V3 m)) c)
    (fun c w => A_eq0 (rd (Gen.V3 m)) c w) (fun _ _ => rfl) (fun _ _ => rfl) (fun _ => rfl) (fun _ => .rfl) (fun _ => .rfl)
    (hF0 m) (hrest0 m)

set_option backward.isDefEq.respectTransparency.types false in
/-- Region 1, from the contents after the host stretch behind region 0. -/
def reg1 : RegionSeg (pcfgs (F := F)) Gen.adm (pdats m) () defs₀ runVar runL runLv 1 :=
  regOf m 1 launch1 (Gen.V5 m (outsA m)) (Gen.V6 m (outs m)) (fun c => body_obligation1 (rd (Gen.V5 m (outsA m))) c)
    (fun c w => A_eq1 (rd (Gen.V5 m (outsA m))) c w) (fun _ _ => rfl) (fun _ _ => rfl) (fun _ => rfl) (fun _ => .rfl) (fun _ => .rfl)
    (hF1 m) (hrest1 m)

set_option backward.isDefEq.respectTransparency.types false in
/-- Region 2, whose invariant is the class's only before the first point and after the last (in between it carries the
    accumulator): its proof data's facts are its equations. -/
def reg2 : RegionSeg (pcfgs (F := F)) Gen.adm (pdats m) () defs₀ runVar runL runLv 2 :=
  regOf m 2 launch2 (Gen.V7 m (outsB m)) (Gen.V8 m (outs m)) (fun c => body_obligation2 (rd (Gen.V7 m (outsB m))) c)
    (fun c w => A_eq2 (rd (Gen.V7 m (outsB m))) c w) (fun c w => q_eq2 (rd (Gen.V7 m (outsB m))) c w)
    (fun c t => owed_eq2 (rd (Gen.V7 m (outsB m))) c t) (fun c => recorded_eq2 (rd (Gen.V7 m (outsB m))) c 0)
    (fun c => hin2 (rd (Gen.V7 m (outsB m))) c) (fun c => hout2 (rd (Gen.V7 m (outsB m))) c)
    (hF2 m) (hrest2 m)

/-! ## The launch -/

/-- The launch element is the pipeline library's, and no ghost resource is dealt. -/
theorem run_hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the rest that rides beside them: the generator register at
    its launch state, the core owing nothing. -/
theorem run_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts runL runLv)
      ⊢ (|={Set.univ}=> bigSep Finset.univ (fun c : Dev nD => runR c) : sProp 𝕄) := by
  refine Pipeline.initEach runL runLv fun c => ?_
  iintro ⟨⟨-, HO, -, Hp, -⟩, -⟩
  imodintro
  isplitl [Hp]; · iexists _; iexact Hp
  iexists ∅; iexact HO

/-- At the end the core owes nothing. -/
theorem run_hE3 (c : Dev nD) : (runR c : sProp 𝕄) ⊢ (iprop(∃ W, owes (c : Thread nD τ) (0 : CellTallies nD τ sig Unit) W) : sProp 𝕄) := by
  iintro ⟨-, HO⟩; iexact HO

/-! ## The frame and the value of the run -/

set_option backward.isDefEq.respectTransparency.types false in
/-- THE FRAME of the program at any float family: every weakly fair execution terminates, nothing faults, and every
    argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (m := m) (EP := emb₁) (ι := ()) (𝒱₀ := runVar) (L := runL) (lv := runLv)
    (hL := fun _ _ => rfl) (ρ := ρ) (outs := outs m) (pdats := pdats m) (O₀ := 0) (G := fun _ => iprop(emp))
    (u₀ := initOf (Pipeline.cells cfgs cellOf_inj) (Pipeline.launchToks cfgs cellOf_inj)) (hu₀ := run_hu₀)
    (E := fun _ c => runR c) (hE0 := run_hE0 ρ) (hE3 := run_hE3)
    (R0 := reg0 m) (hpre0 := fun _ => .rfl) (hpost0 := fun _ => .rfl)
    (R1 := reg1 m) (hpre1 := fun c => by rw [V5_outs m c]; exact .rfl) (hpost1 := fun _ => .rfl)
    (R2 := reg2 m) (hpre2 := fun c => by rw [V7_outs m c]; exact .rfl) (hpost2 := fun _ => .rfl)

set_option backward.isDefEq.respectTransparency.types false in
/-- THE RUN WITH ITS VALUE: the same, and the result buffer ends at what region 2 leaves in it. -/
theorem run_value (ρ : Dev nD → PrngReg) : θ_run defs (onTc (τ := τ) (main (F := F))) ⟨m, fun _ => 0, ρ⟩ (fun r => ∀ c : Dev nD,
      r.2.mem ((c.tc : Thread nD τ).loc main_v69) = outs m 8 main_v69 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_cond (m := m) (EP := emb₁) (ι := ()) (𝒱₀ := runVar) (L := runL) (lv := runLv)
    (hL := fun _ _ => rfl) (ρ := ρ) (outs := outs m) (pdats := pdats m) (O₀ := 0) (G := fun _ => iprop(emp))
    (u₀ := initOf (Pipeline.cells cfgs cellOf_inj) (Pipeline.launchToks cfgs cellOf_inj)) (hu₀ := run_hu₀)
    (E := fun _ c => runR c) (hE0 := run_hE0 ρ) (hE3 := run_hE3)
    (R0 := reg0 m) (hpre0 := fun _ => .rfl) (hpost0 := fun _ => .rfl)
    (R1 := reg1 m) (hpre1 := fun c => by rw [V5_outs m c]; exact .rfl) (hpost1 := fun _ => .rfl)
    (R2 := reg2 m) (hpre2 := fun c => by rw [V7_outs m c]; exact .rfl) (hpost2 := fun _ => .rfl)

end Cert.KernelIdeal.Hand

end
-- ==== Proof.KI.KV01.lean ====
/- The arrays regions 0 and 1 leave, as whole-array functions at the exact reals: row r, column q of region 0's output is
   the sum over k of x[r,k] * W1[k,q]; of region 1's, the sum over k of max(agg[r,k] + b[k], 0) * W2[k,q]. A change of float
   format is the identity at the exact reals, and a product into a zero accumulator is the plain sum of products. -/
import proofs.«428187_j7043746365666_2_alg».proof.Proof.KI.R0
import proofs.«428187_j7043746365666_2_alg».proof.Proof.KI.R1
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-! ## The two arrays, index by index -/

/-- Rows of `x` times `w`. -/
def prod0 (x : FVec Ideal S100000x128 .f32) (w : FVec Ideal S128x64 .f32) : FVec Ideal S100000x64 .bf16 :=
  fun i => ∑ k : Fin 128, x (ix2 (i 0) k) * w (ix2 k (i 1))

/-- Rows of `max (a + b, 0)` times `w`. -/
def prod1 (a : FVec Ideal S100000x64 .f32) (b : FVec Ideal S1x64 .f32) (w : FVec Ideal S64x64 .f32) : FVec Ideal S100000x64 .bf16 :=
  fun i => ∑ k : Fin 64, max (a (ix2 (i 0) k) + b (ix2 0 k)) 0 * w (ix2 k (i 1))

/-- The origin of a rank-2 shape, as the offset every whole-block load and store has. -/
theorem origin2 : (![0, 0] : Fin 2 → Nat) = fun _ => 0 := funext fun a => by fin_cases a <;> rfl

/-! ## The two products at an index -/

/-- The left factor of region 0's product sits at the output's row … -/
theorem lhs_dot0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and at the summation index's column; -/
theorem lhs_dot0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- the right factor at the summation index's row … -/
theorem rhs_dot0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- … and the output's column. -/
theorem rhs_dot0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A product of a [10000,128] block with a [128,64] matrix into the zero accumulator, at row p and column q: the sum over
    k of the block's (p,k) times the matrix's (k,q). -/
theorem matmul0_apply (a : FVec Ideal S10000x128 .bf16) (b : FVec Ideal S128x64 .bf16) (p : Fin 10000) (q : Fin 64) :
    matmul dot_S10000x128_S128x64_S10000x64_1_0_0_1_n_n none a b (constant (F := Ideal) S10000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-- Region 0's payload at row p, column q of the block: a change of format is the identity, so it is the product's
    element. -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul0_apply (truncf .bf16 x0 bitsLt_bf16_f32) (truncf .bf16 x1 bitsLt_bf16_f32) p q

/-- The left factor of region 1's product sits at the output's row … -/
theorem lhs_dot1_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the summation index's column; -/
theorem lhs_dot1_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right factor at the summation index's row … -/
theorem rhs_dot1_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the output's column. -/
theorem rhs_dot1_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of a [10000,64] block with a [64,64] matrix into the zero accumulator, at row p and column q: the sum over k
    of the block's (p,k) times the matrix's (k,q). -/
theorem matmul1_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot1_0 _ _
    | ⟨1, _⟩ => exact (lhs_dot1_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot1_0 _ _).trans hk
    | ⟨1, _⟩ => exact rhs_dot1_1 _ _)
  rw [el, er]

/-- The left factor of region 1's product at row p, column k: the block plus the one bias row, cut off below at zero (the
    same-shape casts are the identity, the row is repeated down the block, and the zero word is zero). -/
theorem relu1_apply (x0 : Vec Ideal S10000x64 .f32) (x1 : Vec Ideal S1x64 .f32) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
      = max (x0 (ix2 p k) + x1 (ix2 (0 : Fin 1) k)) 0 := by
  rw [maximumf_apply, addf_apply, broadcast_apply, shapeCast_self, shapeCast_self, broadcastTo_1b_ab_apply]
  show max _ (Ideal.ofBits .f32 0x00000000#32) = _
  rw [Ideal.ofBits_zero_f32]

/-- Region 1's payload at row p, column q of the block. -/
theorem pay1_apply (x0 : Vec Ideal S10000x64 .f32) (x1 : Vec Ideal S1x64 .f32) (x2 : Vec Ideal S64x64 .f32) (p : Fin 10000) (q : Fin 64) :
    k1_pay1 (F := Ideal) x0 x1 x2 (ix2 p q) = ∑ k : Fin 64, max (x0 (ix2 p k) + x1 (ix2 (0 : Fin 1) k)) 0 * x2 (ix2 k q) := by
  unfold k1_pay1
  refine (matmul1_apply _ _ p q).trans ?_
  refine Finset.sum_congr rfl fun k _ => ?_
  exact congrArg (· * x2 (ix2 k q)) (relu1_apply x0 x1 p k)

variable (V : (c : Dev nD) → (b : Ref sig .tc) → Buf (Elt Ideal) ((c : Thread nD τ).loc b))

/-! ## Region 0: from the ten blocks to the array -/

/-- A block's payload at (p, q) is the array's element at `i`, once the block of x holds at row p what x holds at row
    `i 0`, and the loaded W1 holds at column q what W1 holds at column `i 1`. -/
theorem block0_apply (X : FVec Ideal S100000x128 .f32) (W : FVec Ideal S128x64 .f32)
    (x0 : Vec Ideal S10000x128 .f32) (x1 : Vec Ideal S128x64 .f32) (i : S100000x64.Idx) (p : Fin 10000) (q : Fin 64)
    (hx : ∀ k : Fin 128, x0 (ix2 p k) = X (ix2 (i 0) k)) (hw : ∀ k : Fin 128, x1 (ix2 k q) = W (ix2 k (i 1))) :
    k0_pay1 (F := Ideal) x0 x1 (ix2 p q) = prod0 X W i := by
  refine (pay0_apply x0 x1 p q).trans ?_
  unfold prod0
  exact Finset.sum_congr rfl fun k _ => by rw [hx k, hw k]

/-- The printed index maps, decided over the ten points: at point t the block of x and the output block are block row t
    (their one column block is 0), and W1's block is always the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays x and W1 as the region finds them. -/
theorem flushed0_eq (c : Dev nD) (t : Fin cfg0.N) :
    (dat0 (F := Ideal) V c).flushed 2 t = ((cfg0.win 2).blk t).view.read (Elt Ideal) (prod0 (V c main_arg0) (V c main_arg3)) := by
  show (cfg0.win 2).cut (grid0.coords t) ((dat0 (F := Ideal) V c).after 2 t) = _
  rw [after0_2]
  unfold out0_2
  rw [View.canon_unit_zero origin2]
  simp only [View.ld_unit_zero (S := S10000x128) origin2, View.ld_unit_zero (S := S128x64) origin2]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = prod0 (V c main_arg0) (V c main_arg3) (((cfg0.win 2).blk t).view.emb (ix2 p q))
  refine block0_apply (V c main_arg0) (V c main_arg3) (iblk0 V c 0 t) (iblk0 V c 1 t) _ p q (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the output lies in the block of point r / 10000, and every point writes its block back: the ten blocks
    cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 := ⟨⟨(i 0).val / 10000, by show (i 0).val / 10000 < grid0.N; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 leaves in its output array the rows of x times W1. -/
theorem final0 (c : Dev nD) : (dat0 (F := Ideal) V c).arrAt 2 cfg0.N = prod0 (V c main_arg0) (V c main_arg3) :=
  (dat0 (F := Ideal) V c).arrAt_eq_of_cover 2 (prod0 (V c main_arg0) (V c main_arg3)) (fun t _ => flushed0_eq V c t) cover0

/-! ## Region 1: from the ten blocks to the array -/

/-- A block's payload at (p, q) is the array's element at `i`, once the block of the aggregate holds at row p what the
    aggregate holds at row `i 0`, the loaded bias row is the bias row, and the loaded W2 holds at column q what W2 holds
    at column `i 1`. -/
theorem block1_apply (A : FVec Ideal S100000x64 .f32) (B : FVec Ideal S1x64 .f32) (W : FVec Ideal S64x64 .f32)
    (x0 : Vec Ideal S10000x64 .f32) (x1 : Vec Ideal S1x64 .f32) (x2 : Vec Ideal S64x64 .f32) (i : S100000x64.Idx) (p : Fin 10000) (q : Fin 64)
    (ha : ∀ k : Fin 64, x0 (ix2 p k) = A (ix2 (i 0) k)) (hb : ∀ k : Fin 64, x1 (ix2 (0 : Fin 1) k) = B (ix2 (0 : Fin 1) k))
    (hw : ∀ k : Fin 64, x2 (ix2 k q) = W (ix2 k (i 1))) :
    k1_pay1 (F := Ideal) x0 x1 x2 (ix2 p q) = prod1 A B W i := by
  refine (pay1_apply x0 x1 x2 p q).trans ?_
  unfold prod1
  exact Finset.sum_congr rfl fun k _ => by rw [ha k, hb k, hw k]

/-- The printed index maps, decided over the ten points: at point t the block of the aggregate and the output block are
    block row t (their one column block is 0), and the bias row's and W2's blocks are always the whole arrays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of relu(agg + b) times W2, of the arrays as the region finds them. -/
theorem flushed1_eq (c : Dev nD) (t : Fin cfg1.N) :
    (dat1 (F := Ideal) V c).flushed 3 t
      = ((cfg1.win 3).blk t).view.read (Elt Ideal) (prod1 (V c main_v44) (V c main_v45) (V c main_arg5)) := by
  show (cfg1.win 3).cut (grid1.coords t) ((dat1 (F := Ideal) V c).after 3 t) = _
  rw [after1_3]
  unfold out1_3
  rw [View.canon_unit_zero origin2]
  simp only [View.ld_unit_zero (S := S10000x64) origin2, View.ld_unit_zero (S := S1x64) origin2, View.ld_unit_zero (S := S64x64) origin2]
  obtain ⟨e0, e1, e2, e3, e4, e5, e6, e7⟩ := idx_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = prod1 (V c main_v44) (V c main_v45) (V c main_arg5) (((cfg1.win 3).blk t).view.emb (ix2 p q))
  refine block1_apply (V c main_v44) (V c main_v45) (V c main_arg5) (iblk1 V c 0 t) (iblk1 V c 1 t) (iblk1 V c 2 t) _ p q
    (fun k => ?_) (fun k => ?_) (fun k => ?_)
  · show V c main_v44 (((cfg1.win 0).blk t).view.emb (ix2 p k)) = _
    refine congrArg (V c main_v44) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  · show V c main_v45 (((cfg1.win 1).blk t).view.emb (ix2 (0 : Fin 1) k)) = _
    refine congrArg (V c main_v45) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v46).slice (win1_3.rect t)).set ↔ _
  rw [View.set_slice_whole, Rect.mem_set_unit]
  exact Iff.rfl

/-- Row r of the output lies in the block of point r / 10000, and every point writes its block back: the ten blocks
    cover the array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  obtain ⟨t, ht⟩ : ∃ t : Fin cfg1.N, t.val = (i 0).val / 10000 := ⟨⟨(i 0).val / 10000, by show (i 0).val / 10000 < grid1.N; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- Region 1 leaves in its output array the rows of relu(agg + b) times W2. -/
theorem final1 (c : Dev nD) : (dat1 (F := Ideal) V c).arrAt 3 cfg1.N = prod1 (V c main_v44) (V c main_v45) (V c main_arg5) :=
  (dat1 (F := Ideal) V c).arrAt_eq_of_cover 3 (prod1 (V c main_v44) (V c main_v45) (V c main_arg5)) (fun t _ => flushed1_eq V c t) cover1

end Cert.KernelIdeal.Hand

end
-- ==== Proof.PoolAlgebra.lean ====
/-
  The pure mathematics that joins a pooling done block by block with one-hot products to the
  pooling done by one accumulating row scatter, at the ideal values (a float an extended real).

  (A) a row scatter with an add body, read at an element, is the operand there plus the sum over
      the update rows whose start index (read signed, not clamped) is that element's row;
  (B) a product of a one-hot block with a block of rows, contracted over the row axis of both and
      accumulated into zero, is at (g, c) the sum over the block's rows whose word is g of the
      row's entry c — only 0 * x = 0 and 1 * x = x are used, which hold at the infinities too;
  (C) a fold of fifty such block sums is the sum over all hundred thousand rows
      (Fin 50 × Fin 2000 ≃ Fin 100000 by (n, r) ↦ 2000 n + r), since the extended reals are a
      commutative additive monoid;
  (D) small facts about the ideal values used after the pooling.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.PoolAlgebra

open Idealize.ShloMosaic Idealize.ShloMosaic.ValueIdx

/-! ## Shapes -/

abbrev S512x64 : Shape := ⟨2, ![512, 64]⟩
abbrev S100000x1 : Shape := ⟨2, ![100000, 1]⟩
abbrev S100000x64 : Shape := ⟨2, ![100000, 64]⟩
abbrev S512 : Shape := ⟨1, ![512]⟩
abbrev S100000 : Shape := ⟨1, ![100000]⟩
abbrev S2000x512 : Shape := ⟨2, ![2000, 512]⟩
abbrev S2000x64 : Shape := ⟨2, ![2000, 64]⟩
abbrev S2000x1 : Shape := ⟨2, ![2000, 1]⟩

/-! ## (A) A scatter's landing index, for any dimension numbers -/

/-- An update element lands at operand index i exactly when, on every operand axis, its window's
    start plus its window coordinate is i's coordinate there. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := h a
      simp only
      omega
    · intro H
      funext a
      apply Fin.ext
      have := H a
      simp only
      omega
  · constructor
    · intro hc; cases hc
    · intro H
      exact absurd (fun a => by have := H a; have := (i a).isLt; omega) h

/-! ### The row scatter: updates [100000, 64] into [512, 64] at row indices [100000, 1] -/

section Row
variable (d : ScatterDims S512x64 S100000x1 S100000x64)
  (hu : d.updateWindowDims = [1]) (hi : d.insertedWindowDims = [0]) (hs : d.scatterDimsToOperandDims = [0])
  (hv : d.indexVectorDim = 1)
include hu hi hs hv

/-- Update element (r, h) lands at (g, c) exactly when row r's index word, read signed, is g and h is c. -/
theorem row_resultIdx?_iff {w : Nat} (idx : IVec S100000x1 w) (r : Fin 100000) (h : Fin 64) (g : Fin 512) (c : Fin 64) :
    d.resultIdx? (ix2 r h) idx = some (ix2 g c) ↔ ((idx (ix2 r 0)).toInt = (g.val : Int) ∧ h = c) := by
  obtain ⟨uw, iw, sd, iv, wf⟩ := d
  simp only at hu hi hs hv
  subst hu hi hs hv
  rw [resultIdx?_eq_some_iff]
  set D : ScatterDims S512x64 S100000x1 S100000x64 := ⟨[1], [0], [0], 1, wf⟩ with hD
  have hs0 : D.start (ix2 r h) idx (0 : Fin 2) = (idx (ix2 r 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 r h) idx (1 : Fin 2) = 0 := by
    unfold ScatterDims.start
    rw [dif_neg (show (1 : Fin 2) ∉ ([0] : List (Fin 2)) by decide)]
  have hw0 : D.window (ix2 r h) (0 : Fin 2) = 0 := by
    unfold ScatterDims.window
    rw [dif_neg (show (0 : Fin 2) ∉ Shape.kept S512x64 [0] by decide)]
  have hw1 : D.window (ix2 r h) (1 : Fin 2) = h.val := by
    unfold ScatterDims.window
    rw [dif_pos (show (1 : Fin 2) ∈ Shape.kept S512x64 [0] by decide)]
    rfl
  rw [Fin.forall_fin_two, hs0, hs1, hw0, hw1]
  show ((idx (ix2 r 0)).toInt + ((0 : Nat) : Int) = (g.val : Int) ∧ (0 : Int) + (h.val : Int) = (c.val : Int)) ↔ _
  constructor
  · rintro ⟨h1, h2⟩
    exact ⟨by omega, Fin.ext (by omega)⟩
  · rintro ⟨h1, rfl⟩
    exact ⟨by omega, by omega⟩

/-- THE ROW SCATTER READ AT (g, c): the operand there plus the sum, over the update rows whose index word read
    signed is g, of the row's entry c. A row whose word is negative or beyond the operand contributes nothing. -/
theorem scatterAdd_row_apply {φ : FTy} {w : Nat} (z : FVec Ideal S512x64 φ) (idx : IVec S100000x1 w)
    (u : FVec Ideal S100000x64 φ) (g : Fin 512) (c : Fin 64) :
    Host.scatterAdd d z idx u (ix2 g c)
      = z (ix2 g c) + ∑ r : Fin 100000, if (idx (ix2 r 0)).toInt = (g.val : Int) then u (ix2 r c) else 0 := by
  show Ideal.hostScatterAdd d z idx u (ix2 g c) = _
  unfold Ideal.hostScatterAdd
  refine congrArg (z (ix2 g c) + ·) ?_
  rw [Finset.sum_filter, sum_idx2]
  refine Finset.sum_congr rfl fun r _ => ?_
  simp only [row_resultIdx?_iff d hu hi hs hv]
  by_cases hr : (idx (ix2 r 0)).toInt = (g.val : Int)
  · simp only [hr, true_and, if_true]
    rw [Finset.sum_ite_eq' Finset.univ c (fun b => u (ix2 r b)), if_pos (Finset.mem_univ c)]
  · simp only [hr, false_and, if_false, Finset.sum_const_zero]

end Row

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ### The count scatter: updates [100000] into [512] at row indices [100000, 1] -/

section Count
variable (d : ScatterDims S512 S100000x1 S100000)
  (hu : d.updateWindowDims = []) (hi : d.insertedWindowDims = [0]) (hs : d.scatterDimsToOperandDims = [0])
  (hv : d.indexVectorDim = 1)
include hu hi hs hv

/-- Update element r lands at g exactly when row r's index word, read signed, is g. -/
theorem count_resultIdx?_iff {w : Nat} (idx : IVec S100000x1 w) (r : Fin 100000) (g : Fin 512) :
    d.resultIdx? (ix1 r) idx = some (ix1 g) ↔ (idx (ix2 r 0)).toInt = (g.val : Int) := by
  obtain ⟨uw, iw, sd, iv, wf⟩ := d
  simp only at hu hi hs hv
  subst hu hi hs hv
  rw [resultIdx?_eq_some_iff]
  set D : ScatterDims S512 S100000x1 S100000 := ⟨[], [0], [0], 1, wf⟩ with hD
  have hs0 : D.start (ix1 r) idx (0 : Fin 1) = (idx (ix2 r 0)).toInt := by
    unfold ScatterDims.start
    rw [dif_pos (show (0 : Fin 1) ∈ D.scatterDimsToOperandDims from List.mem_singleton.mpr rfl)]
    congr 2
    funext b
    refine Fin.ext ?_
    match b with
    | ⟨0, _⟩ => rfl
    | ⟨1, _⟩ => rfl
  have hw0 : D.window (ix1 r) (0 : Fin 1) = 0 := by
    unfold ScatterDims.window
    rw [dif_neg (show (0 : Fin 1) ∉ Shape.kept S512 [0] by decide)]
  rw [Fin.forall_fin_one, hs0, hw0]
  show ((idx (ix2 r 0)).toInt + ((0 : Nat) : Int) = (g.val : Int)) ↔ _
  constructor <;> intro h1 <;> omega

/-- THE COUNT SCATTER READ AT g: the operand there plus the sum of the updates whose index word read signed is g. -/
theorem scatterAdd_count_apply {φ : FTy} {w : Nat} (z : FVec Ideal S512 φ) (idx : IVec S100000x1 w)
    (u : FVec Ideal S100000 φ) (g : Fin 512) :
    Host.scatterAdd d z idx u (ix1 g)
      = z (ix1 g) + ∑ r : Fin 100000, if (idx (ix2 r 0)).toInt = (g.val : Int) then u (ix1 r) else 0 := by
  show Ideal.hostScatterAdd d z idx u (ix1 g) = _
  unfold Ideal.hostScatterAdd
  refine congrArg (z (ix1 g) + ·) ?_
  rw [Finset.sum_filter]
  rw [← Equiv.sum_comp (idxEquiv1 (n := 100000)).symm]
  refine Finset.sum_congr rfl fun r _ => ?_
  show (if d.resultIdx? (ix1 r) idx = some (ix1 g) then u (ix1 r) else 0) = _
  simp only [count_resultIdx?_iff d hu hi hs hv]

end Count

/-! ## (B) The one-hot product, block by block -/

/-- A 32-bit word is the word of a natural below 512 exactly when, read signed, it is that natural. -/
theorem word_eq_ofNat_iff (w : BitVec 32) (g : Nat) (hg : g < 512) : w = BitVec.ofNat 32 g ↔ w.toInt = (g : Int) := by
  have hw : w.toNat < 4294967296 := w.isLt
  rw [BitVec.toInt_eq_toNat_cond]
  constructor
  · rintro rfl
    rw [BitVec.toNat_ofNat, Nat.mod_eq_of_lt (show g < 2 ^ 32 by omega)]
    split_ifs <;> omega
  · intro h
    apply BitVec.eq_of_toNat_eq
    rw [BitVec.toNat_ofNat, Nat.mod_eq_of_lt (show g < 2 ^ 32 by omega)]
    split_ifs at h <;> omega

section Dot
variable (D : DotDims S2000x512 S2000x64 S512x64)
  (hlc : D.lhsContracting = [0]) (hrc : D.rhsContracting = [0]) (hln : D.lhsNonContracting = [1])
  (hrn : D.rhsNonContracting = [1]) (hlb : D.lhsBatch = []) (hrb : D.rhsBatch = [])
include hlc hrc hln hrn hlb hrb

/-- The contraction over the row axis of both operands, read at (g, c): the sum over the rows r of
    the left operand at (r, g) times the right operand at (r, c). -/
theorem contr_rows_sum (lhs : S2000x512.Idx → EReal) (rhs : S2000x64.Idx → EReal) (g : Fin 512) (c : Fin 64) :
    ∑ k : D.contr.Idx, lhs (D.lhsIdx (ix2 g c) k) * rhs (D.rhsIdx (ix2 g c) k)
      = ∑ r : Fin 2000, lhs (ix2 r g) * rhs (ix2 r c) := by
  obtain ⟨lc, rc, ln, rn, lb, rb, wf⟩ := D
  simp only at hlc hrc hln hrn hlb hrb
  subst hlc hrc hln hrn hlb hrb
  set E : DotDims S2000x512 S2000x64 S512x64 := ⟨[0], [0], [1], [1], [], [], wf⟩ with hE
  have hr : E.contr.rank = 1 := rfl
  have hsz : E.contr.size ⟨0, by omega⟩ = 2000 := rfl
  rw [← Equiv.sum_comp (contrEquiv1 E 2000 hr hsz).symm]
  refine Finset.sum_congr rfl fun r _ => ?_
  have hl : E.lhsIdx (ix2 g c) ((contrEquiv1 E 2000 hr hsz).symm r) = ix2 r g := by
    funext a
    refine Fin.ext ?_
    match a with
    | ⟨0, _⟩ => rfl
    | ⟨1, _⟩ => rfl
  have hrr : E.rhsIdx (ix2 g c) ((contrEquiv1 E 2000 hr hsz).symm r) = ix2 r c := by
    funext a
    refine Fin.ext ?_
    match a with
    | ⟨0, _⟩ => rfl
    | ⟨1, _⟩ => rfl
  rw [hl, hrr]

/-- THE ONE-HOT PRODUCT READ AT (g, c): with the left operand one where the row's word is g's and zero elsewhere,
    the contraction is the sum over the rows whose word is g's of the right operand's entry c. Only
    0 * x = 0 and 1 * x = x are used: no entry need be finite. -/
theorem onehot_contr_sum (key : Fin 2000 → BitVec 32) (lhs : S2000x512.Idx → EReal) (rhs : S2000x64.Idx → EReal)
    (hone : ∀ (r : Fin 2000) (g : Fin 512), lhs (ix2 r g) = if key r = BitVec.ofNat 32 g.val then 1 else 0)
    (g : Fin 512) (c : Fin 64) :
    ∑ k : D.contr.Idx, lhs (D.lhsIdx (ix2 g c) k) * rhs (D.rhsIdx (ix2 g c) k)
      = ∑ r : Fin 2000, if (key r).toInt = (g.val : Int) then rhs (ix2 r c) else 0 := by
  rw [contr_rows_sum D hlc hrc hln hrn hlb hrb]
  refine Finset.sum_congr rfl fun r _ => ?_
  rw [hone r g]
  by_cases h : (key r).toInt = (g.val : Int)
  · rw [if_pos ((word_eq_ofNat_iff _ _ g.isLt).mpr h), if_pos h, one_mul]
  · rw [if_neg (fun h' => h ((word_eq_ofNat_iff _ _ g.isLt).mp h')), if_neg h, zero_mul]

/-- The same for the product accumulated into the splat of the zero pattern. -/
theorem onehot_matmul_apply {φ₁ φ₂ : FTy} (prec : Option ContractPrecision) (key : Fin 2000 → BitVec 32)
    (lhs : FVec Ideal S2000x512 φ₁) (rhs : FVec Ideal S2000x64 φ₂)
    (hone : ∀ (r : Fin 2000) (g : Fin 512), lhs (ix2 r g) = if key r = BitVec.ofNat 32 g.val then 1 else 0)
    (g : Fin 512) (c : Fin 64) :
    matmul D prec lhs rhs (constant S512x64 .f32 0x00000000#32) (ix2 g c)
      = ∑ r : Fin 2000, if (key r).toInt = (g.val : Int) then rhs (ix2 r c) else 0 := by
  show FloatOps.matmul D prec lhs rhs (constant S512x64 .f32 0x00000000#32) (ix2 g c) = _
  rw [Ideal.matmul_constant_zero_apply]
  exact onehot_contr_sum D hlc hrc hln hrn hlb hrb key lhs rhs hone g c

end Dot

/-! ## (C) Fifty blocks of two thousand rows are the hundred thousand rows -/

/-- Row r of block n among all the rows. -/
def blockRow (n : Fin 50) (r : Fin 2000) : Fin 100000 := ⟨2000 * n.val + r.val, by omega⟩

@[simp] theorem blockRow_val (n : Fin 50) (r : Fin 2000) : (blockRow n r).val = 2000 * n.val + r.val := rfl

/-- The pairs (block, row in the block) are all the rows. -/
def blockEquiv : Fin 50 × Fin 2000 ≃ Fin 100000 where
  toFun p := blockRow p.1 p.2
  invFun i := (⟨i.val / 2000, by omega⟩, ⟨i.val % 2000, by omega⟩)
  left_inv p := by
    obtain ⟨n, r⟩ := p
    refine Prod.ext (Fin.ext ?_) (Fin.ext ?_)
    · show (2000 * n.val + r.val) / 2000 = n.val
      omega
    · show (2000 * n.val + r.val) % 2000 = r.val
      omega
  right_inv i := by
    refine Fin.ext ?_
    show 2000 * (i.val / 2000) + i.val % 2000 = i.val
    omega

/-- A sum over all the rows is the sum over the blocks of the sums over each block's rows. -/
theorem sum_blocks {M : Type*} [AddCommMonoid M] (f : Fin 100000 → M) :
    ∑ n : Fin 50, ∑ r : Fin 2000, f (blockRow n r) = ∑ i : Fin 100000, f i := by
  rw [← Equiv.sum_comp blockEquiv f, Fintype.sum_prod_type]
  rfl

/-- A fold that starts at zero plus the first term and adds one term a step is the sum of the terms. -/
theorem fold_eq_sum_range {M : Type*} [AddCommMonoid M] (S A : ℕ → M) (h0 : A 0 = 0 + S 0)
    (hs : ∀ n, A (n + 1) = A n + S (n + 1)) (n : ℕ) : A n = ∑ k ∈ Finset.range (n + 1), S k := by
  induction n with
  | zero => rw [h0, zero_add, Finset.sum_range_one]
  | succ n ih => rw [hs, ih, Finset.sum_range_succ _ (n + 1)]

/-- THE FOLD OVER THE FIFTY BLOCKS IS THE WHOLE SUM: the accumulator after the last block, having started at
    zero plus block 0's sum and added each next block's sum, is the sum over all the rows. -/
theorem fold_blocks_eq_sum {M : Type*} [AddCommMonoid M] (f : Fin 100000 → M) (A : Fin 50 → M)
    (h0 : A 0 = 0 + ∑ r : Fin 2000, f (blockRow 0 r))
    (hs : ∀ n : Fin 49, A n.succ = A n.castSucc + ∑ r : Fin 2000, f (blockRow n.succ r)) :
    A 49 = ∑ i : Fin 100000, f i := by
  let S' : ℕ → M := fun k => if h : k < 50 then ∑ r : Fin 2000, f (blockRow ⟨k, h⟩ r) else 0
  have key : ∀ n (hn : n < 50), A ⟨n, hn⟩ = ∑ k ∈ Finset.range (n + 1), S' k := by
    intro n
    induction n with
    | zero =>
      intro hn
      rw [Finset.sum_range_one]
      show A 0 = S' 0
      rw [h0, zero_add]
      simp only [S', dif_pos hn]
      rfl
    | succ n ih =>
      intro hn
      have hstep := hs ⟨n, by omega⟩
      rw [Finset.sum_range_succ, ← ih (by omega)]
      have e1 : (⟨n, by omega⟩ : Fin 49).succ = ⟨n + 1, hn⟩ := rfl
      have e2 : (⟨n, by omega⟩ : Fin 49).castSucc = ⟨n, by omega⟩ := rfl
      rw [e1, e2] at hstep
      rw [hstep]
      simp only [S', dif_pos hn]
  have h49 : A 49 = ∑ k ∈ Finset.range 50, S' k := key 49 (by omega)
  rw [h49, Finset.sum_range, ← sum_blocks]
  refine Finset.sum_congr rfl fun k _ => ?_
  simp only [S', dif_pos k.isLt]

/-- The same fold, the accumulator indexed by a natural below fifty with the evidence carried along (the shape of a
    definition by recursion on the step). -/
theorem fold_blocks_eq_sum_nat {M : Type*} [AddCommMonoid M] (f : Fin 100000 → M) (A : (n : ℕ) → n < 50 → M)
    (h0 : ∀ h : 0 < 50, A 0 h = 0 + ∑ r : Fin 2000, f (blockRow ⟨0, h⟩ r))
    (hs : ∀ (n : ℕ) (hn : n + 1 < 50), A (n + 1) hn
      = A n (Nat.lt_of_succ_lt hn) + ∑ r : Fin 2000, f (blockRow ⟨n + 1, hn⟩ r))
    (h49 : 49 < 50) : A 49 h49 = ∑ i : Fin 100000, f i :=
  fold_blocks_eq_sum f (fun n => A n.val n.isLt) (h0 _) (fun n => hs n.val (by have := n.isLt; omega))

/-! ## The pooling: the fold of the block products is the row scatter -/

/-- THE POOLING. Cut the hundred thousand rows into fifty blocks of two thousand; take, block by block, the product
    of the block's one-hot matrix (one where the row's word is the column's number) with the block's rows, contracted
    over the rows and accumulated into zero; start the accumulator at zero plus block 0's product and add each next
    block's. After the last block the accumulator is the row scatter, into a zero operand, of all the rows at their
    words. A row whose word names no operand row contributes nothing on either side, and no entry need be finite. -/
theorem pool_eq {φ₁ φ₂ : FTy}
    (D : DotDims S2000x512 S2000x64 S512x64)
    (hlc : D.lhsContracting = [0]) (hrc : D.rhsContracting = [0]) (hln : D.lhsNonContracting = [1])
    (hrn : D.rhsNonContracting = [1]) (hlb : D.lhsBatch = []) (hrb : D.rhsBatch = [])
    (d : ScatterDims S512x64 S100000x1 S100000x64)
    (hu : d.updateWindowDims = [1]) (hi : d.insertedWindowDims = [0]) (hs : d.scatterDimsToOperandDims = [0])
    (hv : d.indexVectorDim = 1)
    (prec : Option ContractPrecision)
    (ids : IVec S100000x1 32) (hh : FVec Ideal S100000x64 .f32)
    (z : FVec Ideal S512x64 .f32) (hz : ∀ j, z j = 0)
    (oh : Fin 50 → FVec Ideal S2000x512 φ₁) (hb : Fin 50 → FVec Ideal S2000x64 φ₂)
    (hoh : ∀ (n : Fin 50) (r : Fin 2000) (g : Fin 512),
      oh n (ix2 r g) = if ids (ix2 (blockRow n r) 0) = BitVec.ofNat 32 g.val then 1 else 0)
    (hhb : ∀ (n : Fin 50) (r : Fin 2000) (c : Fin 64), hb n (ix2 r c) = hh (ix2 (blockRow n r) c))
    (A : Fin 50 → FVec Ideal S512x64 .f32)
    (hA0 : ∀ j, A 0 j = 0 + matmul D prec (oh 0) (hb 0) (constant S512x64 .f32 0x00000000#32) j)
    (hAs : ∀ (n : Fin 49) (j), A n.succ j
      = A n.castSucc j + matmul D prec (oh n.succ) (hb n.succ) (constant S512x64 .f32 0x00000000#32) j) :
    A 49 = Host.scatterAdd d z ids hh := by
  funext j
  obtain ⟨g, c, rfl⟩ : ∃ (g : Fin 512) (c : Fin 64), j = ix2 g c := ⟨j 0, j 1, eq_ix2 j⟩
  rw [scatterAdd_row_apply d hu hi hs hv, hz, zero_add]
  have hblk : ∀ n : Fin 50, matmul D prec (oh n) (hb n) (constant S512x64 .f32 0x00000000#32) (ix2 g c)
      = ∑ r : Fin 2000, if (ids (ix2 (blockRow n r) 0)).toInt = (g.val : Int) then hh (ix2 (blockRow n r) c) else 0 := by
    intro n
    rw [onehot_matmul_apply D hlc hrc hln hrn hlb hrb prec (fun r => ids (ix2 (blockRow n r) 0)) (oh n) (hb n)
      (fun r g => hoh n r g) g c]
    exact Finset.sum_congr rfl fun r _ => by rw [hhb n r c]
  refine fold_blocks_eq_sum (fun i => if (ids (ix2 i 0)).toInt = (g.val : Int) then hh (ix2 i c) else 0)
    (fun n => A n (ix2 g c)) ?_ ?_
  · show A 0 (ix2 g c) = _
    rw [hA0, hblk]
  · intro n
    show A n.succ (ix2 g c) = _
    rw [hAs, hblk]

/-! ## The same sums with the condition on the word itself -/

/-- A choice on "the word is g's" is the choice on "the word read signed is g", for g below 512. -/
theorem ite_word_eq {α : Sort*} (w : BitVec 32) (g : Fin 512) (x y : α) :
    (if w = BitVec.ofNat 32 g.val then x else y) = if w.toInt = (g.val : Int) then x else y := by
  by_cases h : w.toInt = (g.val : Int)
  · rw [if_pos ((word_eq_ofNat_iff _ _ g.isLt).mpr h), if_pos h]
  · rw [if_neg (fun h' => h ((word_eq_ofNat_iff _ _ g.isLt).mp h')), if_neg h]

/-- The row scatter read at (g, c), the rows chosen by their words. -/
theorem scatterAdd_row_apply_word {φ : FTy} (d : ScatterDims S512x64 S100000x1 S100000x64)
    (hu : d.updateWindowDims = [1]) (hi : d.insertedWindowDims = [0]) (hs : d.scatterDimsToOperandDims = [0])
    (hv : d.indexVectorDim = 1) (z : FVec Ideal S512x64 φ) (idx : IVec S100000x1 32)
    (u : FVec Ideal S100000x64 φ) (g : Fin 512) (c : Fin 64) :
    Host.scatterAdd d z idx u (ix2 g c)
      = z (ix2 g c) + ∑ r : Fin 100000, if idx (ix2 r 0) = BitVec.ofNat 32 g.val then u (ix2 r c) else 0 := by
  rw [scatterAdd_row_apply d hu hi hs hv]
  exact congrArg (z (ix2 g c) + ·) (Finset.sum_congr rfl fun r _ => (ite_word_eq _ g _ _).symm)

/-- The count scatter read at g, the rows chosen by their words. -/
theorem scatterAdd_count_apply_word {φ : FTy} (d : ScatterDims S512 S100000x1 S100000)
    (hu : d.updateWindowDims = []) (hi : d.insertedWindowDims = [0]) (hs : d.scatterDimsToOperandDims = [0])
    (hv : d.indexVectorDim = 1) (z : FVec Ideal S512 φ) (idx : IVec S100000x1 32)
    (u : FVec Ideal S100000 φ) (g : Fin 512) :
    Host.scatterAdd d z idx u (ix1 g)
      = z (ix1 g) + ∑ r : Fin 100000, if idx (ix2 r 0) = BitVec.ofNat 32 g.val then u (ix1 r) else 0 := by
  rw [scatterAdd_count_apply d hu hi hs hv]
  exact congrArg (z (ix1 g) + ·) (Finset.sum_congr rfl fun r _ => (ite_word_eq _ g _ _).symm)

/-- The one-hot product into the zero splat read at (g, c), the rows chosen by their words. -/
theorem onehot_matmul_apply_word {φ₁ φ₂ : FTy} (D : DotDims S2000x512 S2000x64 S512x64)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (key : Fin 2000 → BitVec 32)
    (lhs : FVec Ideal S2000x512 φ₁) (rhs : FVec Ideal S2000x64 φ₂)
    (hone : ∀ (r : Fin 2000) (g : Fin 512), lhs (ix2 r g) = if key r = BitVec.ofNat 32 g.val then 1 else 0)
    (g : Fin 512) (c : Fin 64) :
    matmul D prec lhs rhs (constant S512x64 .f32 0x00000000#32) (ix2 g c)
      = ∑ r : Fin 2000, if key r = BitVec.ofNat 32 g.val then rhs (ix2 r c) else 0 := by
  rw [onehot_matmul_apply D hlc hrc hln hrn hlb hrb prec key lhs rhs hone g c]
  exact Finset.sum_congr rfl fun r _ => (ite_word_eq _ g _ _).symm

/-- The row scatter into a zero operand, as a function of the operand index: at (g, c) the sum over the rows whose
    word is g's of the row's entry c. -/
theorem scatterAdd_zero_eq_fun_word {φ : FTy} (d : ScatterDims S512x64 S100000x1 S100000x64)
    (hu : d.updateWindowDims = [1]) (hi : d.insertedWindowDims = [0]) (hs : d.scatterDimsToOperandDims = [0])
    (hv : d.indexVectorDim = 1) (z : FVec Ideal S512x64 φ) (hz : ∀ j, z j = 0) (idx : IVec S100000x1 32)
    (u : FVec Ideal S100000x64 φ) :
    Host.scatterAdd d z idx u
      = fun i : S512x64.Idx => ∑ r : Fin 100000, if idx (ix2 r 0) = BitVec.ofNat 32 (i 0).val then u (ix2 r (i 1)) else 0 := by
  funext j
  obtain ⟨g, c, rfl⟩ : ∃ (g : Fin 512) (c : Fin 64), j = ix2 g c := ⟨j 0, j 1, eq_ix2 j⟩
  rw [scatterAdd_row_apply_word d hu hi hs hv, hz, zero_add]

/-- The count scatter into a zero operand, as a function of the operand index. -/
theorem scatterAdd_count_zero_eq_fun_word {φ : FTy} (d : ScatterDims S512 S100000x1 S100000)
    (hu : d.updateWindowDims = []) (hi : d.insertedWindowDims = [0]) (hs : d.scatterDimsToOperandDims = [0])
    (hv : d.indexVectorDim = 1) (z : FVec Ideal S512 φ) (hz : ∀ j, z j = 0) (idx : IVec S100000x1 32)
    (u : FVec Ideal S100000 φ) :
    Host.scatterAdd d z idx u
      = fun i : S512.Idx => ∑ r : Fin 100000, if idx (ix2 r 0) = BitVec.ofNat 32 (i 0).val then u (ix1 r) else 0 := by
  funext j
  obtain ⟨g, rfl⟩ : ∃ (g : Fin 512), j = ix1 g := ⟨j 0, eq_ix1 j⟩
  rw [scatterAdd_count_apply_word d hu hi hs hv, hz, zero_add]

/-- THE POOLING, the rows chosen by their words and the fold's steps given at each entry as block sums: an accumulator
    that starts at zero plus block 0's sum and adds each next block's sum is, after the last block, at (g, c) the sum
    over all the rows whose word is g's of the row's entry c. -/
theorem pool_fold_word (ids : IVec S100000x1 32) (hh : S100000x64.Idx → EReal) (A : Fin 50 → S512x64.Idx → EReal)
    (hA0 : ∀ (g : Fin 512) (c : Fin 64), A 0 (ix2 g c)
      = 0 + ∑ r : Fin 2000, if ids (ix2 (blockRow 0 r) 0) = BitVec.ofNat 32 g.val then hh (ix2 (blockRow 0 r) c) else 0)
    (hAs : ∀ (n : Fin 49) (g : Fin 512) (c : Fin 64), A n.succ (ix2 g c)
      = A n.castSucc (ix2 g c)
        + ∑ r : Fin 2000, if ids (ix2 (blockRow n.succ r) 0) = BitVec.ofNat 32 g.val then hh (ix2 (blockRow n.succ r) c) else 0)
    (g : Fin 512) (c : Fin 64) :
    A 49 (ix2 g c) = ∑ r : Fin 100000, if ids (ix2 r 0) = BitVec.ofNat 32 g.val then hh (ix2 r c) else 0 :=
  fold_blocks_eq_sum (fun i => if ids (ix2 i 0) = BitVec.ofNat 32 g.val then hh (ix2 i c) else 0)
    (fun n => A n (ix2 g c)) (hA0 g c) (fun n => hAs n g c)

/-! ## (D) Small facts at the ideal values -/

section Tail
variable {φ : FTy}

/-- A narrowing change of format is the identity. -/
theorem truncf_id {ψ : FTy} (h : ψ.bits < φ.bits) (x : Ideal φ) : FloatOps.truncf (F := Ideal) ψ h x = x := rfl
/-- A widening change of format is the identity. -/
theorem extf_id {ψ : FTy} (h : φ.bits < ψ.bits) (x : Ideal φ) : FloatOps.extf (F := Ideal) ψ h x = x := rfl

/-- The logistic function is one over one plus the exponential of the negation, in the host's operations. -/
theorem logistic_eq_host (x : Ideal φ) :
    FloatOps.logistic x = FloatOps.hostDivf (1 : Ideal φ) (FloatOps.addf 1 (FloatOps.hostUnary .exp (FloatOps.hostNegf x))) := rfl
/-- The same in the vector unit's operations. -/
theorem logistic_eq_divf (x : Ideal φ) :
    FloatOps.logistic x = FloatOps.divf (1 : Ideal φ) (FloatOps.addf 1 (FloatOps.exp (FloatOps.negf x))) := rfl
/-- The logistic function is the host's. -/
theorem logistic_eq_hostUnary (x : Ideal φ) : FloatOps.logistic x = FloatOps.hostUnary .logistic x := rfl

/-- The vector unit's quotient is the host's. -/
theorem divf_eq_hostDivf (x y : Ideal φ) : FloatOps.divf x y = FloatOps.hostDivf x y := rfl

/-- A signed integer read as a float is that integer. -/
theorem sitofp_eq {w : Nat} (b : BitVec w) : FloatOps.sitofp (F := Ideal) φ b = ((b.toInt : ℝ) : EReal) := rfl

/-- The word 0 read as a float is 0 … -/
theorem sitofp_zero : FloatOps.sitofp (F := Ideal) φ (0#32) = 0 := by
  rw [sitofp_eq]; simp
/-- … and the word 1 is 1. -/
theorem sitofp_one : FloatOps.sitofp (F := Ideal) φ (1#32) = 1 := by
  rw [sitofp_eq]; simp

/-- A one-bit word widened to a word and read as a float is one where the bit is set and zero where it is not. -/
theorem sitofp_bit (b : BitVec 1) : FloatOps.sitofp (F := Ideal) φ (b.setWidth 32) = if b = 1#1 then 1 else 0 := by
  rcases BitVec.eq_zero_or_eq_one b with h | h <;> subst h
  · rw [if_neg (by decide)]; exact sitofp_zero
  · rw [if_pos rfl]; exact sitofp_one

/-- The one-hot entry: the equality bit of two words, widened to a word and read as a float, is one where the
    words are equal and zero where they are not. -/
theorem sitofp_eq_bit (a b : BitVec 32) :
    FloatOps.sitofp (F := Ideal) φ ((IntOp.cmpi .eq a b).setWidth 32) = if a = b then 1 else 0 := by
  by_cases h : a = b
  · rw [if_pos h]
    have : (IntOp.cmpi .eq a b).setWidth 32 = 1#32 := by subst h; simp [IntOp.cmpi]
    rw [this, sitofp_one]
  · rw [if_neg h]
    have hne : (a == b) = false := by simpa using h
    have : (IntOp.cmpi .eq a b).setWidth 32 = 0#32 := by simp [IntOp.cmpi, hne]
    rw [this, sitofp_zero]

/-- The f32 pattern of all zero bits is 0 … -/
theorem ofBits_f32_zero : FloatOps.ofBits (F := Ideal) .f32 0x00000000#32 = 0 := Ideal.ofBits_zero_f32
/-- … as a scalar constant … -/
theorem scalar_ofBits_f32_zero : Scalar.ofBits (F := Ideal) .f32 0x00000000#32 = 0 := Ideal.ofBits_zero_f32
/-- … and as a splat, at every index. -/
theorem constant_f32_zero_apply {s : Shape} (i : s.Idx) : constant (F := Ideal) s .f32 0x00000000#32 i = 0 :=
  Ideal.ofBits_zero_f32

/-- The f32 pattern 0x3F800000 is 1 … -/
theorem ofBits_f32_one : FloatOps.ofBits (F := Ideal) .f32 0x3F800000#32 = 1 := by
  show Ideal.ofBits .f32 0x3F800000#32 = 1
  simp [Ideal.ofBits, Ideal.ieee, -EReal.coe_mul]; norm_num
/-- … as a scalar constant too. -/
theorem scalar_ofBits_f32_one : Scalar.ofBits (F := Ideal) .f32 0x3F800000#32 = 1 := ofBits_f32_one

end Tail

/-! ## The block's two operands read at an index -/

abbrev S1x512 : Shape := ⟨2, ![1, 512]⟩
abbrev S1x64 : Shape := ⟨2, ![1, 64]⟩

/-- THE ONE-HOT BLOCK READ AT (r, g): the rows' words broadcast along the columns, compared for equality with the
    column numbers broadcast along the rows, the bit widened to a word and read as a float, is one where row r's
    word is g's and zero elsewhere. -/
theorem onehot_vec_apply {φ : FTy} (κ : Kind) (v : IVec S2000x1 32)
    (hb1 : S2000x1.Broadcasts S2000x512) (hb2 : S1x512.Broadcasts S2000x512) (hio : S1x512.Iotas κ 32 [1])
    (hlt : 1 < 32) (r : Fin 2000) (g : Fin 512) :
    (sitofp (F := Ideal) φ (extui 32 (cmpi .eq (broadcastTo S2000x512 v hb1)
        (broadcastTo S2000x512 (iota κ S1x512 32 [1] hio) hb2)) hlt)) (ix2 r g)
      = if v (ix2 r 0) = BitVec.ofNat 32 g.val then 1 else 0 := by
  have hA : broadcastTo S2000x512 v hb1 (ix2 r g) = v (ix2 r 0) := by
    refine broadcastTo_apply v hb1 (ix2 r g) (ix2 r 0) fun ax => ?_
    match ax with
    | ⟨0, _⟩ => rfl
    | ⟨1, _⟩ => rfl
  have hB : broadcastTo S2000x512 (iota κ S1x512 32 [1] hio) hb2 (ix2 r g) = BitVec.ofNat 32 g.val := by
    rw [broadcastTo_1b_ab_apply, iota_single_apply]
  rw [sitofp_apply, extui_apply]
  show FloatOps.sitofp φ ((IntOp.cmpi .eq (broadcastTo S2000x512 v hb1 (ix2 r g))
    (broadcastTo S2000x512 (iota κ S1x512 32 [1] hio) hb2 (ix2 r g))).setWidth 32) = _
  rw [hA, hB, sitofp_eq_bit]

/-- THE ROWS BLOCK READ AT (r, c): the rows plus the one-row bias broadcast over them, clamped below at the zero
    pattern, is the larger of the sum and zero. -/
theorem relu_rows_apply (x : FVec Ideal S2000x64 .f32) (b : FVec Ideal S1x64 .f32)
    (hb : S1x64.Broadcasts S2000x64) (r : Fin 2000) (c : Fin 64) :
    maximumf (addf x (broadcastTo S2000x64 b hb)) (broadcast S2000x64 (Scalar.ofBits (F := Ideal) .f32 0x00000000#32)) (ix2 r c)
      = max (x (ix2 r c) + b (ix2 (0 : Fin 1) c)) 0 := by
  rw [maximumf_apply, addf_apply, broadcast_apply, broadcastTo_1b_ab_apply, scalar_ofBits_f32_zero]

/-! ## The last linear layer and the logistic function, read at an index -/

abbrev S64x1 : Shape := ⟨2, ![64, 1]⟩
abbrev S512x1 : Shape := ⟨2, ![512, 1]⟩

section Linear
variable (D : DotDims S512x64 S64x1 S512x1)
  (hlc : D.lhsContracting = [1]) (hrc : D.rhsContracting = [0]) (hln : D.lhsNonContracting = [0])
  (hrn : D.rhsNonContracting = [1]) (hlb : D.lhsBatch = []) (hrb : D.rhsBatch = [])
include hlc hrc hln hrn hlb hrb

/-- The contraction of the left operand's columns with the right operand's rows, read at (g, o): the sum over k of
    the left operand at (g, k) times the right operand at (k, o). -/
theorem contr_cols_sum (lhs : S512x64.Idx → EReal) (rhs : S64x1.Idx → EReal) (g : Fin 512) (o : Fin 1) :
    ∑ k : D.contr.Idx, lhs (D.lhsIdx (ix2 g o) k) * rhs (D.rhsIdx (ix2 g o) k)
      = ∑ k : Fin 64, lhs (ix2 g k) * rhs (ix2 k o) := by
  obtain ⟨lc, rc, ln, rn, lb, rb, wf⟩ := D
  simp only at hlc hrc hln hrn hlb hrb
  subst hlc hrc hln hrn hlb hrb
  set E : DotDims S512x64 S64x1 S512x1 := ⟨[1], [0], [0], [1], [], [], wf⟩ with hE
  have hr : E.contr.rank = 1 := rfl
  have hsz : E.contr.size ⟨0, by omega⟩ = 64 := rfl
  rw [← Equiv.sum_comp (contrEquiv1 E 64 hr hsz).symm]
  refine Finset.sum_congr rfl fun k _ => ?_
  have hl : E.lhsIdx (ix2 g o) ((contrEquiv1 E 64 hr hsz).symm k) = ix2 g k := by
    funext a
    refine Fin.ext ?_
    match a with
    | ⟨0, _⟩ => rfl
    | ⟨1, _⟩ => rfl
  have hrr : E.rhsIdx (ix2 g o) ((contrEquiv1 E 64 hr hsz).symm k) = ix2 k o := by
    funext a
    refine Fin.ext ?_
    match a with
    | ⟨0, _⟩ => rfl
    | ⟨1, _⟩ => rfl
  rw [hl, hrr]

/-- The product into the splat of the zero pattern, read at (g, o). -/
theorem linear_matmul_apply {φ₁ φ₂ : FTy} (prec : Option ContractPrecision)
    (lhs : FVec Ideal S512x64 φ₁) (rhs : FVec Ideal S64x1 φ₂) (g : Fin 512) (o : Fin 1) :
    matmul D prec lhs rhs (constant S512x1 .f32 0x00000000#32) (ix2 g o) = ∑ k : Fin 64, lhs (ix2 g k) * rhs (ix2 k o) := by
  show FloatOps.matmul D prec lhs rhs (constant S512x1 .f32 0x00000000#32) (ix2 g o) = _
  rw [Ideal.matmul_constant_zero_apply]
  exact contr_cols_sum D hlc hrc hln hrn hlb hrb lhs rhs g o

/-- The host's product of the same operands, read at (g, o): the same sum. -/
theorem linear_dotGeneral_apply {φ₁ φ₂ : FTy} (prec : Option ContractPrecision)
    (lhs : FVec Ideal S512x64 φ₁) (rhs : FVec Ideal S64x1 φ₂) (g : Fin 512) (o : Fin 1) :
    Host.dotGeneral D prec lhs rhs (ix2 g o) = ∑ k : Fin 64, lhs (ix2 g k) * rhs (ix2 k o) := by
  show FloatOps.dotGeneral D prec .single lhs rhs (ix2 g o) = _
  rw [Ideal.dotGeneral_apply]
  exact contr_cols_sum D hlc hrc hln hrn hlb hrb lhs rhs g o

end Linear

section Sigmoid
variable {s : Shape} {φ : FTy}

/-- The logistic function of a vector, read at an index. -/
theorem logistic_apply (x : FVec Ideal s φ) (i : s.Idx) : logistic x i = Ideal.logistic (x i) := rfl

/-- The host's quotient of two vectors, read at an index. -/
theorem host_divf_apply (x y : FVec Ideal s φ) (i : s.Idx) : Host.divf x y i = Ideal.div (x i) (y i) := rfl

/-- One over one plus the exponential of the negation, in the host's operations on vectors and with the two ones
    given as vectors that are one everywhere, is the logistic function at every index. -/
theorem host_sigmoid_apply (x one₁ one₂ : FVec Ideal s φ) (h₁ : ∀ i, one₁ i = 1) (h₂ : ∀ i, one₂ i = 1) (i : s.Idx) :
    Host.divf one₂ (addf one₁ (Host.exp (Host.negf x))) i = Ideal.logistic (x i) := by
  show Ideal.div (one₂ i) (one₁ i + Ideal.exp (-(x i))) = Ideal.logistic (x i)
  rw [h₁, h₂]
  rfl

end Sigmoid

end Cert.PoolAlgebra

end
-- ==== Proof.KI.KV2.lean ====
/- The block region 2 leaves in the result buffer, at the exact reals: with s[g,k] the sum over the rows r whose graph id is g
   of max(agg[r,k] + b[k], 0), the entry of graph g is logistic( sum over k of (s[g,k] / max(cnt[g], 1)) * Wl[k] + bl ).
   The accumulator's fifty block steps add up to the one sum over all rows: a step adds, at (g, k), the sum over the block's
   two thousand rows of (one where the row's id is g, else zero) times the rectified shifted entry, the blocks are the
   consecutive runs of two thousand rows, and sums over the extended reals may be regrouped. The output window is written
   back once, after the last step, and its one block is the whole array. -/
import proofs.«428187_j7043746365666_2_alg».proof.Proof.KI.R2
import proofs.«428187_j7043746365666_2_alg».proof.Proof.PoolAlgebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-- The pooled sums: for graph g and column k, the sum over the rows whose graph id is g of max(a + b, 0). -/
def pooled (ids : IVec S100000x1 32) (a : FVec Ideal S100000x64 .f32) (b : FVec Ideal S1x64 .f32) : FVec Ideal S512x64 .f32 :=
  fun i => ∑ r : Fin 100000, if ids (ix2 r 0) = BitVec.ofNat 32 (i 0).val then max (a (ix2 r (i 1)) + b (ix2 0 (i 1))) 0 else 0

/-- The tail: mean by the clamped count, the last linear layer, the logistic function. -/
def tail2 (s : FVec Ideal S512x64 .f32) (cnt : FVec Ideal S1x512 .f32) (wl : FVec Ideal S64x1 .f32) (bl : FVec Ideal S1x1 .f32) : FVec Ideal S512x1 .f32 :=
  fun i => Ideal.logistic ((∑ k : Fin 64, Ideal.div (s (ix2 (i 0) k)) (max (cnt (ix2 0 (i 0))) 1) * wl (ix2 k 0)) + bl (ix2 0 0))

namespace KV2

/-- A column broadcast across: a [a, 1] array broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zeroed accumulator is zero at every entry. -/
theorem pay1_apply (i : S512x64.Idx) : (k2_pay1 (F := Ideal)) i = 0 := by
  unfold k2_pay1
  rw [shapeCast_self]
  exact Ideal.ofBits_zero_f32

/-- The one-hot entry of row r and graph g: one where the row's word is g's, zero elsewhere. -/
theorem onehot_apply (ids : IVec S2000x1 32) (r : Fin 2000) (g : Fin 512) :
    (truncf .bf16 (sitofp (F := Ideal) .f32 (extui 32 (cmpi .eq
        (broadcastTo S2000x512 (shapeCast S2000x1 ids shapeCasts_S2000x1_S2000x1) broadcasts_S2000x1_S2000x512)
        (broadcastTo S2000x512 (iota .tc S1x512 32 [1] iota_S1x512_d1_w32) broadcasts_S1x512_S2000x512)) natLt_1_32)) bitsLt_bf16_f32
      : FVec Ideal S2000x512 .bf16) (ix2 r g)
      = if ids (ix2 r 0) = BitVec.ofNat 32 g.val then 1 else 0 := by
  show FloatOps.sitofp (F := Ideal) .f32 ((IntOp.cmpi .eq
      (broadcastTo S2000x512 (shapeCast S2000x1 ids shapeCasts_S2000x1_S2000x1) broadcasts_S2000x1_S2000x512 (ix2 r g))
      (broadcastTo S2000x512 (iota .tc S1x512 32 [1] iota_S1x512_d1_w32) broadcasts_S1x512_S2000x512 (ix2 r g))).setWidth 32) = _
  rw [broadcastTo_a1_ab_apply, broadcastTo_1b_ab_apply, shapeCast_self, iota_single_apply, Cert.PoolAlgebra.sitofp_eq_bit]

/-- The rectified, shifted row entry. -/
theorem relu_apply (x : FVec Ideal S2000x64 .f32) (b : FVec Ideal S1x64 .f32) (r : Fin 2000) (k : Fin 64) :
    (truncf .bf16 (maximumf (addf (shapeCast S2000x64 x shapeCasts_S2000x64_S2000x64)
        (broadcastTo S2000x64 (shapeCast S1x64 b shapeCasts_S1x64_S1x64) broadcasts_S1x64_S2000x64))
        (broadcast S2000x64 (Scalar.ofBits (F := Ideal) .f32 0x00000000#32))) bitsLt_bf16_f32 : FVec Ideal S2000x64 .bf16) (ix2 r k)
      = max (x (ix2 r k) + b (ix2 0 k)) 0 := by
  show max (shapeCast S2000x64 x shapeCasts_S2000x64_S2000x64 (ix2 r k)
      + broadcastTo S2000x64 (shapeCast S1x64 b shapeCasts_S1x64_S1x64) broadcasts_S1x64_S2000x64 (ix2 r k))
      (Ideal.ofBits .f32 0x00000000#32) = _
  rw [shapeCast_self, broadcastTo_1b_ab_apply, shapeCast_self, Ideal.ofBits_zero_f32]

/-- One step of the accumulator at (g, k): what it held plus the sum, over the block's rows whose word read signed is g,
    of the rectified shifted entry k of the row. -/
theorem pay2_apply (x : Vec Ideal S2000x64 .f32) (b : Vec Ideal S1x64 .f32) (ids : Vec Ideal S2000x1 .i32) (a : Vec Ideal S512x64 .f32)
    (g : Fin 512) (k : Fin 64) :
    k2_pay2 (F := Ideal) x b ids a (ix2 g k)
      = a (ix2 g k) + ∑ r : Fin 2000, if (ids (ix2 r 0)).toInt = (g.val : Int) then max (x (ix2 r k) + b (ix2 0 k)) 0 else 0 := by
  unfold k2_pay2
  dsimp only
  rw [shapeCast_self]
  refine congrArg (a (ix2 g k) + ·) ?_
  refine (Cert.PoolAlgebra.onehot_matmul_apply dot_S2000x512_S2000x64_S512x64_0_0_1_1_n_n rfl rfl rfl rfl rfl rfl none
    (fun r => ids (ix2 r 0)) _ _ (fun r g => onehot_apply ids r g) g k).trans ?_
  exact Finset.sum_congr rfl fun r _ => by rw [relu_apply]

section Dot3
variable (D : DotDims S512x64 S64x1 S512x1)
  (hlc : D.lhsContracting = [1]) (hrc : D.rhsContracting = [0]) (hln : D.lhsNonContracting = [0])
  (hrn : D.rhsNonContracting = [1]) (hlb : D.lhsBatch = []) (hrb : D.rhsBatch = [])
include hlc hrc hln hrn hlb hrb

/-- The contraction of a [512, 64] operand's columns with a [64, 1] operand's rows, read at (g, u): the sum over k of the
    left operand at (g, k) times the right operand at (k, u). -/
theorem contr_cols_sum (lhs : S512x64.Idx → EReal) (rhs : S64x1.Idx → EReal) (g : Fin 512) (u : Fin 1) :
    ∑ k : D.contr.Idx, lhs (D.lhsIdx (ix2 g u) k) * rhs (D.rhsIdx (ix2 g u) k)
      = ∑ k : Fin 64, lhs (ix2 g k) * rhs (ix2 k u) := by
  obtain ⟨lc, rc, ln, rn, lb, rb, wf⟩ := D
  simp only at hlc hrc hln hrn hlb hrb
  subst hlc hrc hln hrn hlb hrb
  set E : DotDims S512x64 S64x1 S512x1 := ⟨[1], [0], [0], [1], [], [], wf⟩ with hE
  have hr : E.contr.rank = 1 := rfl
  have hsz : E.contr.size ⟨0, by omega⟩ = 64 := rfl
  rw [← Equiv.sum_comp (contrEquiv1 E 64 hr hsz).symm]
  refine Finset.sum_congr rfl fun k _ => ?_
  have hl : E.lhsIdx (ix2 g u) ((contrEquiv1 E 64 hr hsz).symm k) = ix2 g k := by
    funext a
    refine Fin.ext ?_
    match a with
    | ⟨0, _⟩ => rfl
    | ⟨1, _⟩ => rfl
  have hrr : E.rhsIdx (ix2 g u) ((contrEquiv1 E 64 hr hsz).symm k) = ix2 k u := by
    funext a
    refine Fin.ext ?_
    match a with
    | ⟨0, _⟩ => rfl
    | ⟨1, _⟩ => rfl
  rw [hl, hrr]

end Dot3

/-- The mean's entry: the accumulator's entry over the clamped count of its graph. -/
theorem mean_apply (cnt : FVec Ideal S1x512 .f32) (acc : FVec Ideal S512x64 .f32) (g : Fin 512) (k : Fin 64) :
    (truncf .bf16 (divf acc (broadcastTo S512x64 (transpose S512x1 [1, 0]
        (maximumf (shapeCast S1x512 cnt shapeCasts_S1x512_S1x512) (broadcast S1x512 (Scalar.ofBits (F := Ideal) .f32 0x3F800000#32)))
        transposes_S1x512_p1_0_S512x1) broadcasts_S512x1_S512x64)) bitsLt_bf16_f32 : FVec Ideal S512x64 .bf16) (ix2 g k)
      = Ideal.div (acc (ix2 g k)) (max (cnt (ix2 0 g)) 1) := by
  show Ideal.div (acc (ix2 g k)) (broadcastTo S512x64 (transpose S512x1 [1, 0]
        (maximumf (shapeCast S1x512 cnt shapeCasts_S1x512_S1x512) (broadcast S1x512 (Scalar.ofBits (F := Ideal) .f32 0x3F800000#32)))
        transposes_S1x512_p1_0_S512x1) broadcasts_S512x1_S512x64 (ix2 g k)) = _
  rw [broadcastTo_a1_ab_apply, transpose_ix2_apply]
  show Ideal.div (acc (ix2 g k)) (max (shapeCast S1x512 cnt shapeCasts_S1x512_S1x512 (ix2 0 g)) (Scalar.ofBits (F := Ideal) .f32 0x3F800000#32)) = _
  rw [shapeCast_self, Cert.PoolAlgebra.scalar_ofBits_f32_one]

/-- The tail at graph g: the logistic function of the mean row times the last layer's column, plus its bias. -/
theorem pay3_apply (cnt : Vec Ideal S1x512 .f32) (acc : Vec Ideal S512x64 .f32) (wl : Vec Ideal S64x1 .f32) (bl : Vec Ideal S1x1 .f32)
    (g : Fin 512) :
    k2_pay3 (F := Ideal) cnt acc wl bl (ix2 g (0 : Fin 1))
      = Ideal.logistic ((∑ k : Fin 64, Ideal.div (acc (ix2 g k)) (max (cnt (ix2 0 g)) 1) * wl (ix2 k 0)) + bl (ix2 0 0)) := by
  unfold k2_pay3
  dsimp only
  refine congrArg Ideal.logistic ?_
  refine congrArg₂ (· + ·) ?_ ?_
  · refine (Ideal.matmul_constant_zero_apply dot_S512x64_S64x1_S512x1_1_0_0_1_n_n none _ _ (ix2 g (0 : Fin 1))).trans ?_
    rw [contr_cols_sum dot_S512x64_S64x1_S512x1_1_0_0_1_n_n rfl rfl rfl rfl rfl rfl]
    exact Finset.sum_congr rfl fun k _ => by rw [mean_apply]; rfl
  · rw [broadcastTo_1b_ab_apply, shapeCast_self]

/-- The printed index maps over the grid: windows 0 and 2 move with the point along the rows, every other window stays
    at block (0, 0). -/
theorem idx_facts2 : ∀ t : Fin cfg2.N,
    win2_0.index t (0 : Fin 2) = t.val ∧ win2_0.index t (1 : Fin 2) = 0
    ∧ win2_2.index t (0 : Fin 2) = t.val ∧ win2_2.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Window 0's block at point t holds rows 2000 t … 2000 t + 1999 of the aggregated rows. -/
theorem iblk2_0_apply (c : Dev nD) (t : Fin cfg2.N) (r : Fin 2000) (k : Fin 64) (i : Fin 100000) (hi : i.val = 2000 * t.val + r.val) :
    (iblk2 V c 0 t : Vec Ideal S2000x64 .f32) (ix2 r k) = (V c main_v60 : FVec Ideal S100000x64 .f32) (ix2 i k) := by
  obtain ⟨e0, e1, -⟩ := idx_facts2 t
  unfold iblk2
  rw [View.read_apply]
  show V c main_v60 _ = V c main_v60 _
  refine congrArg (V c main_v60) ?_
  funext a
  apply Fin.ext
  match a with
  | ⟨0, _⟩ => show win2_0.index t (0 : Fin 2) * 2000 + 1 * r.val = i.val; omega
  | ⟨1, _⟩ => show win2_0.index t (1 : Fin 2) * 64 + 1 * k.val = k.val; omega

/-- Window 2's block at point t holds the graph ids of the same rows. -/
theorem iblk2_2_apply (c : Dev nD) (t : Fin cfg2.N) (r : Fin 2000) (u : Fin 1) (i : Fin 100000) (hi : i.val = 2000 * t.val + r.val) :
    (iblk2 V c 2 t : Vec Ideal S2000x1 .i32) (ix2 r u) = (V c main_v66 : IVec S100000x1 32) (ix2 i u) := by
  obtain ⟨-, -, e0, e1, -⟩ := idx_facts2 t
  unfold iblk2
  rw [View.read_apply]
  show V c main_v66 _ = V c main_v66 _
  refine congrArg (V c main_v66) ?_
  funext a
  apply Fin.ext
  match a with
  | ⟨0, _⟩ => show win2_2.index t (0 : Fin 2) * 2000 + 1 * r.val = i.val; omega
  | ⟨1, _⟩ => show win2_2.index t (1 : Fin 2) * 1 + 1 * u.val = u.val; omega

/-- Window 1's block is the whole bias row, at every point. -/
theorem iblk2_1_apply (c : Dev nD) (t : Fin cfg2.N) (u : Fin 1) (k : Fin 64) :
    (iblk2 V c 1 t : Vec Ideal S1x64 .f32) (ix2 u k) = (V c main_v67 : FVec Ideal S1x64 .f32) (ix2 u k) := by
  obtain ⟨-, -, -, -, e0, e1, -⟩ := idx_facts2 t
  unfold iblk2
  rw [View.read_apply]
  show V c main_v67 _ = V c main_v67 _
  refine congrArg (V c main_v67) ?_
  funext a
  apply Fin.ext
  match a with
  | ⟨0, _⟩ => show win2_1.index t (0 : Fin 2) * 1 + 1 * u.val = u.val; omega
  | ⟨1, _⟩ => show win2_1.index t (1 : Fin 2) * 64 + 1 * k.val = k.val; omega

/-- Window 3's block is the whole row of counts. -/
theorem iblk2_3_apply (c : Dev nD) (t : Fin cfg2.N) (u : Fin 1) (g : Fin 512) :
    (iblk2 V c 3 t : Vec Ideal S1x512 .f32) (ix2 u g) = (V c main_v65 : FVec Ideal S1x512 .f32) (ix2 u g) := by
  obtain ⟨-, -, -, -, -, -, e0, e1, -⟩ := idx_facts2 t
  unfold iblk2
  rw [View.read_apply]
  show V c main_v65 _ = V c main_v65 _
  refine congrArg (V c main_v65) ?_
  funext a
  apply Fin.ext
  match a with
  | ⟨0, _⟩ => show win2_3.index t (0 : Fin 2) * 1 + 1 * u.val = u.val; omega
  | ⟨1, _⟩ => show win2_3.index t (1 : Fin 2) * 512 + 1 * g.val = g.val; omega

/-- Window 4's block is the whole last layer's column. -/
theorem iblk2_4_apply (c : Dev nD) (t : Fin cfg2.N) (k : Fin 64) (u : Fin 1) :
    (iblk2 V c 4 t : Vec Ideal S64x1 .f32) (ix2 k u) = (V c main_arg7 : FVec Ideal S64x1 .f32) (ix2 k u) := by
  obtain ⟨-, -, -, -, -, -, -, -, e0, e1, -⟩ := idx_facts2 t
  unfold iblk2
  rw [View.read_apply]
  show V c main_arg7 _ = V c main_arg7 _
  refine congrArg (V c main_arg7) ?_
  funext a
  apply Fin.ext
  match a with
  | ⟨0, _⟩ => show win2_4.index t (0 : Fin 2) * 64 + 1 * k.val = k.val; omega
  | ⟨1, _⟩ => show win2_4.index t (1 : Fin 2) * 1 + 1 * u.val = u.val; omega

/-- Window 5's block is the last layer's one bias. -/
theorem iblk2_5_apply (c : Dev nD) (t : Fin cfg2.N) (u v : Fin 1) :
    (iblk2 V c 5 t : Vec Ideal S1x1 .f32) (ix2 u v) = (V c main_v68 : FVec Ideal S1x1 .f32) (ix2 u v) := by
  obtain ⟨-, -, -, -, -, -, -, -, -, -, e0, e1, -⟩ := idx_facts2 t
  unfold iblk2
  rw [View.read_apply]
  show V c main_v68 _ = V c main_v68 _
  refine congrArg (V c main_v68) ?_
  funext a
  apply Fin.ext
  match a with
  | ⟨0, _⟩ => show win2_5.index t (0 : Fin 2) * 1 + 1 * u.val = u.val; omega
  | ⟨1, _⟩ => show win2_5.index t (1 : Fin 2) * 1 + 1 * v.val = v.val; omega

/-- One row's term of the pooled sum at (g, k): the rectified shifted entry k of row i where the row's graph id, read signed,
    is g, and zero elsewhere. -/
def rowTerm (ids : IVec S100000x1 32) (a : FVec Ideal S100000x64 .f32) (b : FVec Ideal S1x64 .f32) (g : Fin 512) (k : Fin 64)
    (i : Fin 100000) : EReal :=
  if (ids (ix2 i 0)).toInt = (g.val : Int) then max (a (ix2 i k) + b (ix2 0 k)) 0 else 0

/-- The body's step at point t, read on the whole arrays: the accumulator's entry plus the terms of block t's rows. -/
theorem step2_apply (c : Dev nD) (t : Fin cfg2.N) (n : Fin 50) (hn : n.val = t.val) (a : Vec Ideal S512x64 .f32)
    (g : Fin 512) (k : Fin 64) :
    k2_pay2 (F := Ideal) (iblk2 V c 0 t) (iblk2 V c 1 t) (iblk2 V c 2 t) a (ix2 g k)
      = a (ix2 g k) + ∑ r : Fin 2000, rowTerm (V c main_v66) (V c main_v60) (V c main_v67) g k (Cert.PoolAlgebra.blockRow n r) := by
  refine (pay2_apply (iblk2 V c 0 t) (iblk2 V c 1 t) (iblk2 V c 2 t) a g k).trans ?_
  refine congrArg (a (ix2 g k) + ·) (Finset.sum_congr rfl fun r _ => ?_)
  have hi : (Cert.PoolAlgebra.blockRow n r).val = 2000 * t.val + r.val := by rw [Cert.PoolAlgebra.blockRow_val, hn]
  rw [iblk2_2_apply V c t r 0 (Cert.PoolAlgebra.blockRow n r) hi, iblk2_0_apply V c t r k (Cert.PoolAlgebra.blockRow n r) hi,
    iblk2_1_apply V c t 0 k]
  rfl

/-- After the last point the accumulator's entry (g, k) is the sum of the terms of all the rows: the fifty block steps,
    started from zero, add up to the one sum. -/
theorem acc2_last (c : Dev nD) (h : 49 < cfg2.N) (g : Fin 512) (k : Fin 64) :
    acc2 V c 49 h (ix2 g k) = ∑ i : Fin 100000, rowTerm (V c main_v66) (V c main_v60) (V c main_v67) g k i := by
  have hN : cfg2.N = 50 := N_2
  refine Cert.PoolAlgebra.fold_blocks_eq_sum (rowTerm (V c main_v66) (V c main_v60) (V c main_v67) g k)
    (fun n => acc2 V c n.val (by have := n.isLt; omega) (ix2 g k)) ?_ ?_
  · show k2_pay2 (F := Ideal) (iblk2 V c 0 ⟨0, _⟩) (iblk2 V c 1 ⟨0, _⟩) (iblk2 V c 2 ⟨0, _⟩) (k2_pay1 (F := Ideal)) (ix2 g k) = _
    refine (step2_apply V c ⟨0, by omega⟩ 0 rfl (k2_pay1 (F := Ideal)) g k).trans ?_
    rw [pay1_apply]
  · intro n
    show k2_pay2 (F := Ideal) (iblk2 V c 0 ⟨n.val + 1, _⟩) (iblk2 V c 1 ⟨n.val + 1, _⟩) (iblk2 V c 2 ⟨n.val + 1, _⟩)
      (acc2 V c n.val _) (ix2 g k) = _
    exact step2_apply V c ⟨n.val + 1, by have := n.isLt; omega⟩ n.succ rfl (acc2 V c n.val (by have := n.isLt; omega)) g k

/-- The accumulator after point 49, however the point is named. -/
theorem acc2_at (c : Dev nD) (n : ℕ) (h : n < cfg2.N) (hn : n = 49) (g : Fin 512) (k : Fin 64) :
    acc2 V c n h (ix2 g k) = ∑ i : Fin 100000, rowTerm (V c main_v66) (V c main_v60) (V c main_v67) g k i := by
  subst hn
  exact acc2_last V c h g k

/-- The pooled sum at (g, k) is the sum of the rows' terms: a word is graph g's number exactly when, read signed, it is g. -/
theorem pooled_apply (ids : IVec S100000x1 32) (a : FVec Ideal S100000x64 .f32) (b : FVec Ideal S1x64 .f32) (g : Fin 512) (k : Fin 64) :
    pooled ids a b (ix2 g k) = ∑ i : Fin 100000, rowTerm ids a b g k i := by
  show (∑ r : Fin 100000, if ids (ix2 r 0) = BitVec.ofNat 32 g.val then max (a (ix2 r k) + b (ix2 0 k)) 0 else 0) = _
  exact Finset.sum_congr rfl fun r _ => if_congr (Cert.PoolAlgebra.word_eq_ofNat_iff _ _ g.isLt) rfl rfl

/-- What the last point leaves in the output block is the tail of the pooled sums. -/
theorem out2_6_eq (c : Dev nD) (t : Fin cfg2.N) (ht : t.val = 49) :
    out2_6 V c t = tail2 (pooled (V c main_v66) (V c main_v60) (V c main_v67)) (V c main_v65) (V c main_arg7) (V c main_v68) := by
  funext i
  obtain ⟨g, u, rfl⟩ : ∃ (g : Fin 512) (u : Fin 1), i = ix2 g u := ⟨i 0, i 1, eq_ix2 i⟩
  obtain rfl : u = 0 := Subsingleton.elim _ _
  unfold out2_6
  refine (pay3_apply (iblk2 V c 3 t) (acc2 V c t.val t.isLt) (iblk2 V c 4 t) (iblk2 V c 5 t) g).trans ?_
  show _ = Ideal.logistic ((∑ k : Fin 64, Ideal.div (pooled (V c main_v66) (V c main_v60) (V c main_v67) (ix2 g k))
      (max ((V c main_v65 : FVec Ideal S1x512 .f32) (ix2 0 g)) 1) * (V c main_arg7 : FVec Ideal S64x1 .f32) (ix2 k 0))
    + (V c main_v68 : FVec Ideal S1x1 .f32) (ix2 0 0))
  rw [iblk2_3_apply V c t 0 g, iblk2_5_apply V c t 0 0]
  refine congrArg Ideal.logistic (congrArg₂ (· + ·) (Finset.sum_congr rfl fun k _ => ?_) rfl)
  rw [iblk2_4_apply V c t k 0, acc2_at V c t.val t.isLt ht g k, pooled_apply]

end KV2

open KV2 in
/-- Region 2 leaves in the result buffer the tail of the pooled sums: the output window is written back once, after the
    last point, and its one block is the whole array. -/
theorem final2 (c : Dev nD) : (dat2 (F := Ideal) V c).arrAt 6 cfg2.N
    = tail2 (pooled (V c main_v66) (V c main_v60) (V c main_v67)) (V c main_v65) (V c main_arg7) (V c main_v68) := by
  have hN : cfg2.N = 50 := N_2
  refine (dat2 (F := Ideal) V c).arrAt_eq_of_cover 6 _ (fun t hf => ?_) (fun i => ?_)
  · have h49 : t.val = 49 := by have h := (flush2_6 t).mp hf; have := t.isLt; omega
    obtain ⟨-, -, -, -, -, -, -, -, -, -, -, -, e0, e1⟩ := idx_facts2 t
    show (cfg2.win 6).cut (grid2.coords t) ((dat2 (F := Ideal) V c).after 6 t) = _
    rw [after2_6 V c t h49, out2_6_eq V c t h49]
    have hz' : (fun a => win2_6.index t a * main_v69.ty.shape.size a) = fun _ => 0 := funext fun a => by
      match a with
      | ⟨0, _⟩ => show win2_6.index t (0 : Fin 2) * 512 = 0; rw [e0]
      | ⟨1, _⟩ => show win2_6.index t (1 : Fin 2) * 1 = 0; rw [e1]
    exact (Memref.read_access_unit_zero (Elt Ideal) main_v69 hz' (fun a => by rw [congrFun hz' a]; simp) _).symm
  · have h49 : 49 < cfg2.N := by omega
    obtain ⟨-, -, -, -, -, -, -, -, -, -, -, -, e0, e1⟩ := idx_facts2 ⟨49, h49⟩
    refine ⟨⟨49, h49⟩, (flush2_6 _).mpr rfl, ?_⟩
    show i ∈ ((View.whole main_v69).slice (win2_6.rect ⟨49, h49⟩)).set
    rw [View.set_slice_whole, Rect.mem_set_unit]
    intro a
    have h0 : (i 0 : Nat) < 512 := (i 0).isLt
    have h1 : (i 1 : Nat) < 1 := (i 1).isLt
    match a with
    | ⟨0, _⟩ =>
      show win2_6.index ⟨49, h49⟩ (0 : Fin 2) * 512 ≤ (i 0 : Nat) ∧ (i 0 : Nat) < win2_6.index ⟨49, h49⟩ (0 : Fin 2) * 512 + 512
      rw [e0]; omega
    | ⟨1, _⟩ =>
      show win2_6.index ⟨49, h49⟩ (1 : Fin 2) * 1 ≤ (i 1 : Nat) ∧ (i 1 : Nat) < win2_6.index ⟨49, h49⟩ (1 : Fin 2) * 1 + 1
      rw [e1]; omega

end Cert.KernelIdeal.Hand

end
-- ==== Proof.RefRun.lean ====
/- The reference program's run and its stages read at an index, gathered under one import for the modules that
   compare the reference's result with the kernel's. -/
import proofs.«428187_j7043746365666_2_alg».proof.Proof.RefRunGen
import proofs.«428187_j7043746365666_2_alg».proof.Proof.RefReadGen
-- ==== Proof.KI.HostRead.lean ====
/- What the three kernel regions are handed by the host stretches before them: each consumed buffer, read off the
   valuation the region is entered at, as the host operations' own term over the program's arguments and over what the
   region before left. The edge list's index columns, the edge weights and the zero tables are the reference program's
   own stages of the edge argument (the two programs apply the same host operations to it), named and never opened. -/
import proofs.«428187_j7043746365666_2_alg».proof.Proof.Gen.KernelIdeal.Regions
import proofs.«428187_j7043746365666_2_alg».proof.Proof.RefRun
import Idealize.ShloMosaic.Lib.StableHlo.Run

noncomputable section

namespace Cert.KernelIdeal.Hand

open Idealize.ShloMosaic Idealize.ShloMosaic.TcCoe
open Idealize.SL Idealize.SL.Sem
open Idealize.ShloMosaic.StableHlo
open Cert.KernelIdeal Cert.KernelIdeal.Gen

variable {F : FTy → Type} [FloatOps F]
variable (m : (ℓ : Loc nD τ sig) → Buf (Elt F) ℓ) (outs : Outs (F := F)) (c : Dev nD)

/-! ## The first stretch: the edge columns, the degrees -/

/-- The source column with the self loops appended. -/
theorem hostV1_v3 : (V1 m c main_v3 : (⟨S1700000, .i32⟩ : BufTy).Contents (Elt F))
    = Cert.ReferenceIdeal.ReadP.val_main_v3 (F := F) (m ((c.tc : Thread nD τ).loc main_arg1)) := by
  show StableHlo.after hostOps0 (V0 m c) (Proc.devRef .tc main_v3) = _
  after_results; rfl

/-- The destination column with the self loops appended. -/
theorem hostV1_v6 : (V1 m c main_v6 : (⟨S1700000, .i32⟩ : BufTy).Contents (Elt F))
    = Cert.ReferenceIdeal.ReadP.val_main_v6 (F := F) (m ((c.tc : Thread nD τ).loc main_arg1)) := by
  show StableHlo.after hostOps0 (V0 m c) (Proc.devRef .tc main_v6) = _
  after_results; rfl

/-- Which nodes have a positive degree. -/
theorem hostV1_v12 : (V1 m c main_v12 : (⟨S100000, .i1⟩ : BufTy).Contents (Elt F))
    = Cert.ReferenceIdeal.ReadP.val_main_v12 (F := F) (m ((c.tc : Thread nD τ).loc main_arg1)) := by
  show StableHlo.after hostOps0 (V0 m c) (Proc.devRef .tc main_v12) = _
  after_results; rfl

/-- The inverse square roots of the degrees. -/
theorem hostV1_v13 : (V1 m c main_v13 : (⟨S100000, .f32⟩ : BufTy).Contents (Elt F))
    = Cert.ReferenceIdeal.ReadP.val_main_v13 (F := F) (m ((c.tc : Thread nD τ).loc main_arg1)) := by
  show StableHlo.after hostOps0 (V0 m c) (Proc.devRef .tc main_v13) = _
  after_results; rfl

/-- The zero the degree-free nodes get. -/
theorem hostV1_cst_2 : (V1 m c main_cst_2 : (⟨S_, .f32⟩ : BufTy).Contents (Elt F))
    = Cert.ReferenceIdeal.ReadP.val_main_cst_2 (F := F) := by
  show StableHlo.after hostOps0 (V0 m c) (Proc.devRef .tc main_cst_2) = _
  after_results; rfl

/-! ## The second stretch: the degree weights per node -/

/-- The inverse square root of each node's degree, zero where the degree is not positive. -/
theorem hostV2_v14 : (V2 m c main_v14 : (⟨S100000, .f32⟩ : BufTy).Contents (Elt F))
    = Cert.ReferenceIdeal.ReadP.val_main_v14 (F := F) (m ((c.tc : Thread nD τ).loc main_arg1)) := by
  have e12 := hostV1_v12 m c; have e13 := hostV1_v13 m c; have e2 := hostV1_cst_2 m c
  show StableHlo.after hostOps0_1 (V1 m c) (Proc.devRef .tc main_v14) = _
  generalize V1 m c = W at e12 e13 e2 ⊢
  after_results_simp
  rw [e12, e13, e2]; rfl

/-! ## The third stretch: the edge weights -/

/-- Each edge's weight: the product of its two ends' degree weights. -/
theorem hostV3_v29 : (V3 m c main_v29 : (⟨S1700000, .f32⟩ : BufTy).Contents (Elt F))
    = Cert.ReferenceIdeal.ReadP.val_main_v29 (F := F) (m ((c.tc : Thread nD τ).loc main_arg1)) := by
  have e14 := hostV2_v14 m c
  have e3 := (V2_of m c main_v3 (by decide)).trans (hostV1_v3 m c)
  have e6 := (V2_of m c main_v6 (by decide)).trans (hostV1_v6 m c)
  show StableHlo.after hostOps0_2 (V2 m c) (Proc.devRef .tc main_v29) = _
  generalize V2 m c = W at e14 e3 e6 ⊢
  after_results_simp
  rw [e14, e3, e6]; rfl

/-! ## Through the stretches that do not write them -/

theorem hostV4_v3 : (V4 m outs c main_v3 : (⟨S1700000, .i32⟩ : BufTy).Contents (Elt F))
    = Cert.ReferenceIdeal.ReadP.val_main_v3 (F := F) (m ((c.tc : Thread nD τ).loc main_arg1)) :=
  (V4_of m outs c main_v3 (by decide)).trans <| (V3_of m c main_v3 (by decide)).trans <| (V2_of m c main_v3 (by decide)).trans (hostV1_v3 m c)

theorem hostV4_v6 : (V4 m outs c main_v6 : (⟨S1700000, .i32⟩ : BufTy).Contents (Elt F))
    = Cert.ReferenceIdeal.ReadP.val_main_v6 (F := F) (m ((c.tc : Thread nD τ).loc main_arg1)) :=
  (V4_of m outs c main_v6 (by decide)).trans <| (V3_of m c main_v6 (by decide)).trans <| (V2_of m c main_v6 (by decide)).trans (hostV1_v6 m c)

theorem hostV4_v29 : (V4 m outs c main_v29 : (⟨S1700000, .f32⟩ : BufTy).Contents (Elt F))
    = Cert.ReferenceIdeal.ReadP.val_main_v29 (F := F) (m ((c.tc : Thread nD τ).loc main_arg1)) :=
  (V4_of m outs c main_v29 (by decide)).trans (hostV3_v29 m c)

/-- What region 0 left is what the next stretch reads. -/
theorem hostV4_v30 : V4 m outs c main_v30 = outs 4 main_v30 c := Function.update_self _ _ _

theorem hostV6_v3 : (V6 m outs c main_v3 : (⟨S1700000, .i32⟩ : BufTy).Contents (Elt F))
    = Cert.ReferenceIdeal.ReadP.val_main_v3 (F := F) (m ((c.tc : Thread nD τ).loc main_arg1)) :=
  (V6_of m outs c main_v3 (by decide)).trans <| (V5_of m outs c main_v3 (by decide)).trans (hostV4_v3 m outs c)

theorem hostV6_v6 : (V6 m outs c main_v6 : (⟨S1700000, .i32⟩ : BufTy).Contents (Elt F))
    = Cert.ReferenceIdeal.ReadP.val_main_v6 (F := F) (m ((c.tc : Thread nD τ).loc main_arg1)) :=
  (V6_of m outs c main_v6 (by decide)).trans <| (V5_of m outs c main_v6 (by decide)).trans (hostV4_v6 m outs c)

theorem hostV6_v29 : (V6 m outs c main_v29 : (⟨S1700000, .f32⟩ : BufTy).Contents (Elt F))
    = Cert.ReferenceIdeal.ReadP.val_main_v29 (F := F) (m ((c.tc : Thread nD τ).loc main_arg1)) :=
  (V6_of m outs c main_v29 (by decide)).trans <| (V5_of m outs c main_v29 (by decide)).trans (hostV4_v29 m outs c)

/-- What region 1 left is what the next stretch reads. -/
theorem hostV6_v46 : V6 m outs c main_v46 = outs 6 main_v46 c := Function.update_self _ _ _

/-! ## Region 0's operands -/

theorem V3_arg0 : V3 m c main_arg0 = m ((c.tc : Thread nD τ).loc main_arg0) :=
  (V3_of m c main_arg0 (by decide)).trans <| (V2_of m c main_arg0 (by decide)).trans <| (V1_of m c main_arg0 (by decide)).trans rfl

theorem V3_arg3 : V3 m c main_arg3 = m ((c.tc : Thread nD τ).loc main_arg3) :=
  (V3_of m c main_arg3 (by decide)).trans <| (V2_of m c main_arg3 (by decide)).trans <| (V1_of m c main_arg3 (by decide)).trans rfl

/-! ## Region 1's operands -/

/-- The aggregate region 1 reads: the rows region 0 left, gathered at the edges' sources, widened, weighted, and summed
    at the edges' destinations. -/
theorem V5_v44 : V5 m outs c main_v44
    = Host.scatterAdd scatter_S100000x64_S1700000x1_S1700000x64_1_0_0_1 (Cert.ReferenceIdeal.ReadP.val_main_v41 (F := F))
        (Cert.ReferenceIdeal.ReadP.val_main_v42 (F := F) (m ((c.tc : Thread nD τ).loc main_arg1)))
        (mulf (extf .f32 (Host.gather gather_S100000x64_S1700000x1_S1700000x64_1_0_n_n_0_1_164 (outs 4 main_v30 c)
            (Cert.ReferenceIdeal.ReadP.val_main_v36 (F := F) (m ((c.tc : Thread nD τ).loc main_arg1)))) bitsLt_bf16_f32)
          (Cert.ReferenceIdeal.ReadP.val_main_v39 (F := F) (m ((c.tc : Thread nD τ).loc main_arg1)))) := by
  have e3 := hostV4_v3 m outs c; have e6 := hostV4_v6 m outs c; have e29 := hostV4_v29 m outs c; have e30 := hostV4_v30 m outs c
  show StableHlo.after hostOps1 (V4 m outs c) (Proc.devRef .tc main_v44) = _
  generalize V4 m outs c = W at e3 e6 e29 e30 ⊢
  after_results_simp
  rw [e3, e6, e29, e30]; rfl

/-- The first bias as a row. -/
theorem V5_v45 : V5 m outs c main_v45 = shapeCast S1x64 (m ((c.tc : Thread nD τ).loc main_arg4)) shapeCasts_S64_S1x64 := by
  show StableHlo.after hostOps1 (V4 m outs c) (Proc.devRef .tc main_v45) = _
  after_results
  rw [V4_of m outs c main_arg4 (by decide), V3_of m c main_arg4 (by decide), V2_of m c main_arg4 (by decide), V1_of m c main_arg4 (by decide)]; rfl

theorem V5_arg5 : V5 m outs c main_arg5 = m ((c.tc : Thread nD τ).loc main_arg5) :=
  (V5_of m outs c main_arg5 (by decide)).trans <| (V4_of m outs c main_arg5 (by decide)).trans <| (V3_of m c main_arg5 (by decide)).trans <|
    (V2_of m c main_arg5 (by decide)).trans <| (V1_of m c main_arg5 (by decide)).trans rfl

/-! ## Region 2's operands -/

/-- The aggregate region 2 reads: the same over the rows region 1 left. -/
theorem V7_v60 : V7 m outs c main_v60
    = Host.scatterAdd scatter_S100000x64_S1700000x1_S1700000x64_1_0_0_1 (Cert.ReferenceIdeal.ReadP.val_main_v59 (F := F))
        (Cert.ReferenceIdeal.ReadP.val_main_v60 (F := F) (m ((c.tc : Thread nD τ).loc main_arg1)))
        (mulf (extf .f32 (Host.gather gather_S100000x64_S1700000x1_S1700000x64_1_0_n_n_0_1_164 (outs 6 main_v46 c)
            (Cert.ReferenceIdeal.ReadP.val_main_v54 (F := F) (m ((c.tc : Thread nD τ).loc main_arg1)))) bitsLt_bf16_f32)
          (Cert.ReferenceIdeal.ReadP.val_main_v57 (F := F) (m ((c.tc : Thread nD τ).loc main_arg1)))) := by
  have e3 := hostV6_v3 m outs c; have e6 := hostV6_v6 m outs c; have e29 := hostV6_v29 m outs c; have e46 := hostV6_v46 m outs c
  show StableHlo.after hostOps2 (V6 m outs c) (Proc.devRef .tc main_v60) = _
  generalize V6 m outs c = W at e3 e6 e29 e46 ⊢
  after_results_simp
  rw [e3, e6, e29, e46]; rfl

theorem hostV6_arg2 : V6 m outs c main_arg2 = m ((c.tc : Thread nD τ).loc main_arg2) :=
  (V6_of m outs c main_arg2 (by decide)).trans <| (V5_of m outs c main_arg2 (by decide)).trans <| (V4_of m outs c main_arg2 (by decide)).trans <|
    (V3_of m c main_arg2 (by decide)).trans <| (V2_of m c main_arg2 (by decide)).trans <| (V1_of m c main_arg2 (by decide)).trans rfl

theorem hostV6_arg6 : V6 m outs c main_arg6 = m ((c.tc : Thread nD τ).loc main_arg6) :=
  (V6_of m outs c main_arg6 (by decide)).trans <| (V5_of m outs c main_arg6 (by decide)).trans <| (V4_of m outs c main_arg6 (by decide)).trans <|
    (V3_of m c main_arg6 (by decide)).trans <| (V2_of m c main_arg6 (by decide)).trans <| (V1_of m c main_arg6 (by decide)).trans rfl

theorem hostV6_arg8 : V6 m outs c main_arg8 = m ((c.tc : Thread nD τ).loc main_arg8) :=
  (V6_of m outs c main_arg8 (by decide)).trans <| (V5_of m outs c main_arg8 (by decide)).trans <| (V4_of m outs c main_arg8 (by decide)).trans <|
    (V3_of m c main_arg8 (by decide)).trans <| (V2_of m c main_arg8 (by decide)).trans <| (V1_of m c main_arg8 (by decide)).trans rfl

/-- The graphs' node counts, as a row. -/
theorem V7_v65 : V7 m outs c main_v65
    = shapeCast S1x512 (Cert.ReferenceIdeal.ReadP.val_main_v72 (F := F) (m ((c.tc : Thread nD τ).loc main_arg2))) shapeCasts_S512_S1x512 := by
  show StableHlo.after hostOps2 (V6 m outs c) (Proc.devRef .tc main_v65) = _
  after_results
  rw [hostV6_arg2]; rfl

/-- The nodes' graph ids, as a column. -/
theorem V7_v66 : V7 m outs c main_v66 = shapeCast S100000x1 (m ((c.tc : Thread nD τ).loc main_arg2)) shapeCasts_S100000_S100000x1 := by
  show StableHlo.after hostOps2 (V6 m outs c) (Proc.devRef .tc main_v66) = _
  after_results
  rw [hostV6_arg2]; rfl

/-- The second bias as a row. -/
theorem V7_v67 : V7 m outs c main_v67 = shapeCast S1x64 (m ((c.tc : Thread nD τ).loc main_arg6)) shapeCasts_S64_S1x64 := by
  show StableHlo.after hostOps2 (V6 m outs c) (Proc.devRef .tc main_v67) = _
  after_results
  rw [hostV6_arg6]; rfl

/-- The last layer's bias as a one-by-one block. -/
theorem V7_v68 : V7 m outs c main_v68 = shapeCast S1x1 (m ((c.tc : Thread nD τ).loc main_arg8)) shapeCasts_S1_S1x1 := by
  show StableHlo.after hostOps2 (V6 m outs c) (Proc.devRef .tc main_v68) = _
  after_results
  rw [hostV6_arg8]; rfl

theorem V7_arg7 : V7 m outs c main_arg7 = m ((c.tc : Thread nD τ).loc main_arg7) :=
  (V7_of m outs c main_arg7 (by decide)).trans <| (V6_of m outs c main_arg7 (by decide)).trans <| (V5_of m outs c main_arg7 (by decide)).trans <|
    (V4_of m outs c main_arg7 (by decide)).trans <| (V3_of m c main_arg7 (by decide)).trans <| (V2_of m c main_arg7 (by decide)).trans <|
    (V1_of m c main_arg7 (by decide)).trans rfl

end Cert.KernelIdeal.Hand

end
-- ==== Proof.KI.Glue.lean ====
/- The kernel program's result as a function of its nine arguments, at the exact reals, is the reference program's: the host
   stretches between the regions are the reference's own operations on the same operands, region 0's array is the first
   matrix product, region 1's the second, and region 2's block is the reference's pooled mean, linear layer and logistic. -/
import proofs.«428187_j7043746365666_2_alg».proof.Proof.KI.Run
import proofs.«428187_j7043746365666_2_alg».proof.Proof.KI.KV01
import proofs.«428187_j7043746365666_2_alg».proof.Proof.KI.KV2
import proofs.«428187_j7043746365666_2_alg».proof.Proof.KI.HostRead
import proofs.«428187_j7043746365666_2_alg».proof.Proof.RefRun
import proofs.«428187_j7043746365666_2_alg».proof.Proof.PoolAlgebra
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.ReferenceIdeal.ReadP
open scoped BigOperators

/-! ## The reference's stages read at an element -/

/-- The first product: row r of x against column q of W1. -/
theorem prod0_apply (x0 : FVec Ideal S100000x128 .f32) (x3 : FVec Ideal S128x64 .f32) (r : Fin 100000) (q : Fin 64) :
    (prod0 x0 x3 (ix2 r q) : EReal) = val_main_v30 (F := Ideal) x0 x3 (ix2 r q) := by
  rw [val_main_v30_apply]
  refine Finset.sum_congr rfl fun k _ => ?_
  have hl : lidx_main_v30 (ix2 r q) k = ix2 r k := funext fun a => by match a with | ⟨0, _⟩ => rfl | ⟨1, _⟩ => rfl
  have hr : ridx_main_v30 (ix2 r q) k = ix2 k q := funext fun a => by match a with | ⟨0, _⟩ => rfl | ⟨1, _⟩ => rfl
  rw [hl, hr]

/-- As whole arrays. -/
theorem prod0_eq (x0 : FVec Ideal S100000x128 .f32) (x3 : FVec Ideal S128x64 .f32) (i : S100000x64.Idx) :
    (prod0 x0 x3 i : EReal) = val_main_v30 (F := Ideal) x0 x3 i := by
  obtain ⟨r, q, rfl⟩ : ∃ (r : Fin 100000) (q : Fin 64), i = ix2 r q := ⟨i 0, i 1, eq_ix2 i⟩
  exact prod0_apply x0 x3 r q

/-- The second product: row r of relu(agg + b1) against column q of W2, where the bias row is the reference's
    broadcast of b1 read at column k. -/
theorem prod1_apply (x0 : FVec Ideal S100000x128 .f32) (x1 : IVec S2x1600000 32) (x3 : FVec Ideal S128x64 .f32)
    (x4 : FVec Ideal S64 .f32) (x5 : FVec Ideal S64x64 .f32) (b : FVec Ideal S1x64 .f32)
    (hb : ∀ k : Fin 64, b (ix2 0 k) = x4 (ix1 k)) (r : Fin 100000) (q : Fin 64) :
    (prod1 (val_main_v43 (F := Ideal) x0 x1 x3) b x5 (ix2 r q) : EReal) = val_main_v48 (F := Ideal) x0 x1 x3 x4 x5 (ix2 r q) := by
  rw [val_main_v48_apply]
  refine Finset.sum_congr rfl fun k _ => ?_
  have hl : lidx_main_v48 (ix2 r q) k = ix2 r k := funext fun a => by match a with | ⟨0, _⟩ => rfl | ⟨1, _⟩ => rfl
  have hr : ridx_main_v48 (ix2 r q) k = ix2 k q := funext fun a => by match a with | ⟨0, _⟩ => rfl | ⟨1, _⟩ => rfl
  have hi : idx_main_v44 (idx_main_v45 (ix2 r k)) = ix1 k := funext fun a => by match a with | ⟨0, _⟩ => rfl
  rw [hl, hr, val_main_v47_apply, val_main_v46_apply, val_main_call1_v0_apply, val_main_call1_cst_apply, val_main_v45_apply,
    val_main_v44_apply, hi]
  show max (val_main_v43 (F := Ideal) x0 x1 x3 (ix2 r k) + b (ix2 0 k)) 0 * x5 (ix2 k q)
    = max (val_main_v43 (F := Ideal) x0 x1 x3 (ix2 r k) + x4 (ix1 k)) (Ideal.ofBits .f32 0x00000000#32) * x5 (ix2 k q)
  rw [hb k, Ideal.ofBits_zero_f32]

/-- The pooled sums are the reference's row scatter-add of relu(agg2 + b2) at the graph ids: a word is the graph's
    number exactly when it reads, signed, as that number. -/
theorem pooled_apply (x0 : FVec Ideal S100000x128 .f32) (x1 : IVec S2x1600000 32) (x2 : IVec S100000 32) (x3 : FVec Ideal S128x64 .f32)
    (x4 : FVec Ideal S64 .f32) (x5 : FVec Ideal S64x64 .f32) (x6 : FVec Ideal S64 .f32)
    (ids : IVec S100000x1 32) (hids : ∀ r : Fin 100000, ids (ix2 r 0) = x2 (ix1 r))
    (b : FVec Ideal S1x64 .f32) (hb : ∀ k : Fin 64, b (ix2 0 k) = x6 (ix1 k)) (g : Fin 512) (k : Fin 64) :
    (pooled ids (val_main_v61 (F := Ideal) x0 x1 x3 x4 x5) b (ix2 g k) : EReal)
      = val_main_v68 (F := Ideal) x0 x1 x2 x3 x4 x5 x6 (ix2 g k) := by
  unfold val_main_v68
  refine Eq.trans ?_ (Cert.PoolAlgebra.scatterAdd_row_apply Cert.ReferenceIdeal.scatter_S512x64_S100000x1_S100000x64_1_0_0_1 rfl rfl rfl rfl
    (val_main_v66 (F := Ideal)) (val_main_v67 (F := Ideal) x2) (val_main_v65 (F := Ideal) x0 x1 x3 x4 x5 x6) g k).symm
  have hz : val_main_v66 (F := Ideal) (ix2 g k) = 0 := by
    rw [val_main_v66_apply, val_main_cst_12_apply]; exact Ideal.ofBits_zero_f32
  rw [hz, zero_add]
  refine Finset.sum_congr rfl fun r _ => ?_
  have h67 : val_main_v67 (F := Ideal) x2 (ix2 r 0) = ids (ix2 r 0) := by
    rw [val_main_v67_apply, hids r]
    exact congrArg x2 (funext fun a => by match a with | ⟨0, _⟩ => rfl)
  have hi : idx_main_v62 (idx_main_v63 (ix2 r k)) = ix1 k := funext fun a => by match a with | ⟨0, _⟩ => rfl
  have h65 : val_main_v65 (F := Ideal) x0 x1 x3 x4 x5 x6 (ix2 r k)
      = max (val_main_v61 (F := Ideal) x0 x1 x3 x4 x5 (ix2 r k) + b (ix2 0 k)) 0 := by
    rw [val_main_v65_apply, val_main_v64_apply, val_main_call2_v0_apply, val_main_call2_cst_apply, val_main_v63_apply,
      val_main_v62_apply, hi, hb k]
    show max (_ + _) (Ideal.ofBits .f32 0x00000000#32) = _
    rw [Ideal.ofBits_zero_f32]
  rw [h67, h65]
  show (if ids (ix2 r 0) = BitVec.ofNat 32 g.val then _ else 0) = _
  by_cases hw : ids (ix2 r 0) = BitVec.ofNat 32 g.val
  · rw [if_pos hw, if_pos ((Cert.PoolAlgebra.word_eq_ofNat_iff _ g.val g.isLt).mp hw)]
  · rw [if_neg hw, if_neg (fun h => hw ((Cert.PoolAlgebra.word_eq_ofNat_iff _ g.val g.isLt).mpr h))]

/-- The tail: the mean by the clamped count, the last linear layer and the logistic function, against the reference's
    divide, product, add, negate, exponential, add and divide. -/
theorem tail2_apply (x0 : FVec Ideal S100000x128 .f32) (x1 : IVec S2x1600000 32) (x2 : IVec S100000 32) (x3 : FVec Ideal S128x64 .f32)
    (x4 : FVec Ideal S64 .f32) (x5 : FVec Ideal S64x64 .f32) (x6 : FVec Ideal S64 .f32) (x7 : FVec Ideal S64x1 .f32) (x8 : FVec Ideal S1 .f32)
    (cnt : FVec Ideal S1x512 .f32) (hc : ∀ g : Fin 512, cnt (ix2 0 g) = val_main_v72 (F := Ideal) x2 (ix1 g))
    (bl : FVec Ideal S1x1 .f32) (hbl : bl (ix2 0 0) = x8 (ix1 0)) (g : Fin 512) :
    (tail2 (val_main_v68 (F := Ideal) x0 x1 x2 x3 x4 x5 x6) cnt x7 bl (ix2 g 0) : EReal)
      = val_main_v87 (F := Ideal) x0 x1 x2 x3 x4 x5 x6 x7 x8 (ix2 g 0) := by
  rw [val_main_v87_apply, val_main_v86_apply, val_main_cst_17_apply, val_main_v85_apply, val_main_v84_apply, val_main_cst_16_apply,
    val_main_v83_apply, val_main_v82_apply, val_main_v81_apply, val_main_v78_apply, val_main_v80_apply, val_main_v79_apply]
  have h1 : Ideal.ofBits .f32 0x3F800000#32 = 1 := Cert.PoolAlgebra.ofBits_f32_one
  have h8 : idx_main_v79 (idx_main_v80 (ix2 g 0)) = ix1 0 := funext fun a => by match a with | ⟨0, _⟩ => rfl
  have hsum : ∑ k : Fin 64, val_main_v77 (F := Ideal) x0 x1 x2 x3 x4 x5 x6 (lidx_main_v78 (ix2 g 0) k) * x7 (ridx_main_v78 (ix2 g 0) k)
      = ∑ k : Fin 64, Ideal.div (val_main_v68 (F := Ideal) x0 x1 x2 x3 x4 x5 x6 (ix2 g k)) (max (cnt (ix2 0 g)) 1) * x7 (ix2 k 0) := by
    refine Finset.sum_congr rfl fun k _ => ?_
    have hl : lidx_main_v78 (ix2 g 0) k = ix2 g k := funext fun a => by match a with | ⟨0, _⟩ => rfl | ⟨1, _⟩ => rfl
    have hr : ridx_main_v78 (ix2 g 0) k = ix2 k 0 := funext fun a => by match a with | ⟨0, _⟩ => rfl | ⟨1, _⟩ => rfl
    have h7 : idx_main_v75 (idx_main_v76 (ix2 g k)) = ix1 g := funext fun a => by match a with | ⟨0, _⟩ => rfl
    rw [hl, hr, val_main_v77_apply, val_main_v76_apply, val_main_v75_apply, val_main_v74_apply, val_main_v73_apply,
      val_main_cst_15_apply, h7, hc g]
    show Ideal.div _ (max _ (Ideal.ofBits .f32 0x3F800000#32)) * _ = _
    rw [h1]
  rw [hsum, h8, ← hbl]
  show Ideal.logistic _ = Ideal.div (Ideal.ofBits .f32 0x3F800000#32) (Ideal.ofBits .f32 0x3F800000#32 + Ideal.exp (-(_ + _)))
  rw [h1]
  rfl

/-! ## Reshapes that add a unit axis, read at an element -/

section Reshapes
variable {α : Type}

/-- A vector of 64 viewed as one row. -/
theorem row64_apply (x : S64.Idx → α) (h : S64.ShapeCasts S1x64) (k : Fin 64) : shapeCast S1x64 x h (ix2 0 k) = x (ix1 k) :=
  shapeCast_apply x h (ix2 0 k) (ix1 k) (by
    rw [Shape.rowMajor_val_one, Shape.rowMajor_val_two]; show k.val = 0 * 64 + k.val; omega)

/-- A vector of 512 viewed as one row. -/
theorem row512_apply (x : S512.Idx → α) (h : S512.ShapeCasts S1x512) (g : Fin 512) : shapeCast S1x512 x h (ix2 0 g) = x (ix1 g) :=
  shapeCast_apply x h (ix2 0 g) (ix1 g) (by
    rw [Shape.rowMajor_val_one, Shape.rowMajor_val_two]; show g.val = 0 * 512 + g.val; omega)

/-- A vector of a hundred thousand viewed as one column. -/
theorem col100000_apply (x : S100000.Idx → α) (h : S100000.ShapeCasts S100000x1) (r : Fin 100000) :
    shapeCast S100000x1 x h (ix2 r 0) = x (ix1 r) :=
  shapeCast_apply x h (ix2 r 0) (ix1 r) (by
    rw [Shape.rowMajor_val_one, Shape.rowMajor_val_two]; show r.val = r.val * 1 + 0; omega)

/-- A vector of one viewed as a one-by-one array. -/
theorem one_apply (x : S1.Idx → α) (h : S1.ShapeCasts S1x1) : shapeCast S1x1 x h (ix2 0 0) = x (ix1 0) :=
  shapeCast_apply x h (ix2 0 0) (ix1 0) (by
    rw [Shape.rowMajor_val_one, Shape.rowMajor_val_two]; show (0 : Nat) = 0 * 1 + 0; omega)

end Reshapes

/-! ## The chain: each region's array and each host stretch's buffer is the reference's stage -/

section Chain
variable (m : (ℓ : Loc nD τ sig) → Buf (Elt Ideal) ℓ) (c : Dev nD)

/-- Region 0's array is x W1. -/
theorem region0 : outs (F := Ideal) m 4 main_v30 c
    = prod0 (m ((c.tc : Thread nD τ).loc main_arg0)) (m ((c.tc : Thread nD τ).loc main_arg3)) := by
  rw [outs_4, final0]
  show prod0 (Gen.V3 m c main_arg0) (Gen.V3 m c main_arg3) = _
  rw [V3_arg0, V3_arg3]

/-- The first aggregation, entered into region 1, is the reference's: a gather of rows commutes with the change of
    float format, which is the identity on the exact reals. -/
theorem hop1 : Gen.V5 m (outs m) c main_v44
    = val_main_v43 (F := Ideal) (m ((c.tc : Thread nD τ).loc main_arg0)) (m ((c.tc : Thread nD τ).loc main_arg1))
        (m ((c.tc : Thread nD τ).loc main_arg3)) := by
  rw [V5_v44, region0]
  have e : (extf .f32 (Host.gather gather_S100000x64_S1700000x1_S1700000x64_1_0_n_n_0_1_164
        (prod0 (m ((c.tc : Thread nD τ).loc main_arg0)) (m ((c.tc : Thread nD τ).loc main_arg3)))
        (val_main_v36 (F := Ideal) (m ((c.tc : Thread nD τ).loc main_arg1)))) bitsLt_bf16_f32 : FVec Ideal S1700000x64 .f32)
      = val_main_v37 (F := Ideal) (m ((c.tc : Thread nD τ).loc main_arg0)) (m ((c.tc : Thread nD τ).loc main_arg1))
          (m ((c.tc : Thread nD τ).loc main_arg3)) :=
    funext fun j => prod0_eq _ _ _
  rw [e]
  rfl

/-- Region 1's array is relu(agg + b1) W2, the reference's second product. -/
theorem region1 (i : S100000x64.Idx) : (outs (F := Ideal) m 6 main_v46 c i : EReal)
    = val_main_v48 (F := Ideal) (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5)) i := by
  rw [outs_6, final1]
  show (prod1 (Gen.V5 m (outs m) c main_v44) (Gen.V5 m (outs m) c main_v45) (Gen.V5 m (outs m) c main_arg5) i : EReal) = _
  rw [hop1, V5_v45, V5_arg5]
  obtain ⟨r, q, rfl⟩ : ∃ (r : Fin 100000) (q : Fin 64), i = ix2 r q := ⟨i 0, i 1, eq_ix2 i⟩
  exact prod1_apply _ _ _ _ _ _ (fun k => row64_apply _ _ k) r q

/-- The second aggregation, entered into region 2, is the reference's. -/
theorem hop2 : Gen.V7 m (outs m) c main_v60
    = val_main_v61 (F := Ideal) (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5)) := by
  rw [V7_v60]
  have e : (extf .f32 (Host.gather gather_S100000x64_S1700000x1_S1700000x64_1_0_n_n_0_1_164 (outs (F := Ideal) m 6 main_v46 c)
        (val_main_v54 (F := Ideal) (m ((c.tc : Thread nD τ).loc main_arg1)))) bitsLt_bf16_f32 : FVec Ideal S1700000x64 .f32)
      = val_main_v55 (F := Ideal) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)) :=
    funext fun j => region1 m c _
  rw [e]
  rfl

end Chain

/-- The kernel's result buffer after the run is the reference's last stage of the same arguments. -/
theorem kernel_value (m : (ℓ : Loc nD τ sig) → Buf (Elt Ideal) ℓ) (c : Dev nD) :
    outs (F := Ideal) m 8 main_v69 c
      = Cert.ReferenceIdeal.ReadP.val_main_v87 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  rw [outs_8, final2]
  show tail2 (pooled (Gen.V7 m (outs m) c main_v66) (Gen.V7 m (outs m) c main_v60) (Gen.V7 m (outs m) c main_v67))
      (Gen.V7 m (outs m) c main_v65) (Gen.V7 m (outs m) c main_arg7) (Gen.V7 m (outs m) c main_v68) = _
  rw [hop2, V7_v66, V7_v67, V7_v65, V7_arg7, V7_v68]
  have hp : pooled (shapeCast S100000x1 (m ((c.tc : Thread nD τ).loc main_arg2)) shapeCasts_S100000_S100000x1)
        (val_main_v61 (F := Ideal) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)))
        (shapeCast S1x64 (m ((c.tc : Thread nD τ).loc main_arg6)) shapeCasts_S64_S1x64)
      = val_main_v68 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
    funext j
    obtain ⟨g, k, rfl⟩ : ∃ (g : Fin 512) (k : Fin 64), j = ix2 g k := ⟨j 0, j 1, eq_ix2 j⟩
    exact pooled_apply _ _ _ _ _ _ _ _ (fun r => col100000_apply _ _ r) _ (fun k => row64_apply _ _ k) g k
  rw [hp]
  funext i
  obtain ⟨g, z, rfl⟩ : ∃ (g : Fin 512) (z : Fin 1), i = ix2 g z := ⟨i 0, i 1, eq_ix2 i⟩
  obtain rfl : z = 0 := Subsingleton.elim _ _
  exact tail2_apply _ _ _ _ _ _ _ _ _ _ (fun g => row512_apply _ _ g) _ (one_apply _ _) g

end Cert.KernelIdeal.Hand

end
-- ==== Proof.lean ====
/- The proof of `Cert.Claim`: the three frames, the (trivial) idealization conjunct, and the equivalence of the idealized kernel
   program with the idealized reference over the extended reals.

   The program is a two-layer graph convolution, a mean pool over graphs, a linear layer and a logistic function. Kernel and
   reference share every host operation that touches the edge list (self-loops, degrees, the symmetric normalisation, the
   gathers and the scatter-adds); they differ in three places, each an identity over the extended reals:
   * the two matrix products x·W1 and relu(agg1 + b1)·W2 are computed block of rows by block of rows, on operands passed through
     a narrower float format — a change of format is the identity, and a product into a zero accumulator is the sum of products;
   * the pooled sums are accumulated over fifty blocks of rows as (one-hot of the graph ids)ᵀ · relu(agg2 + b2) — a row whose id is
     g contributes to graph g and to no other, an id outside 0 … 511 contributes nothing, exactly as the reference's scatter-add
     (which reads its index signed and drops an update that lands outside), and sums of extended reals commute;
   * the logistic function is 1 / (1 + exp (−x)) on both sides.
   No law used needs finiteness, so the precondition is never opened. -/
import proofs.«428187_j7043746365666_2_alg».proof.Defs
import proofs.«428187_j7043746365666_2_alg».proof.Proof.K.Run
import proofs.«428187_j7043746365666_2_alg».proof.Proof.KI.Run
import proofs.«428187_j7043746365666_2_alg».proof.Proof.KI.Glue
import proofs.«428187_j7043746365666_2_alg».proof.Proof.RefRun
import proofs.«428187_j7043746365666_2_alg».proof.Proof.Gen.Kernel
import proofs.«428187_j7043746365666_2_alg».proof.Proof.Gen.KernelIdeal
import proofs.«428187_j7043746365666_2_alg».proof.Proof.Gen.ReferenceIdeal
import proofs.«428187_j7043746365666_2_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs run, and the kernel's result buffer — what region 2 leaves in it — is
    the reference's last stage of the same arguments. -/
theorem algebraic : Cert.algebraic_KernelIdeal_ReferenceIdeal := by
  intro m ρ m' ρ' _ hagree
  refine ⟨fun c => Cert.KernelIdeal.Hand.outs (F := Ideal) m 8 Cert.KernelIdeal.main_v69 c, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v87_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.KernelIdeal.Hand.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
